-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x1024 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S8x1x2048 : Shape := ⟨3, ![8, 1, 2048]⟩
abbrev S1x1x1024 : Shape := ⟨3, ![1, 1, 1024]⟩
abbrev S1x512x1024 : Shape := ⟨3, ![1, 512, 1024]⟩
abbrev S1x1x512 : Shape := ⟨3, ![1, 1, 512]⟩
abbrev S512x1024 : Shape := ⟨2, ![512, 1024]⟩
abbrev S1024x512 : Shape := ⟨2, ![1024, 512]⟩
abbrev S1x512 : Shape := ⟨2, ![1, 512]⟩

abbrev nBuf : Space → Nat
  | .hbm => 9
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1024x1024, .bf16⟩
  | .hbm, ⟨5, _⟩ => ⟨S8x2048x1024, .bf16⟩
  | .hbm, ⟨6, _⟩ => ⟨S8x2048x1024, .bf16⟩
  | .hbm, ⟨7, _⟩ => ⟨S8x1x2048, .f32⟩
  | .hbm, ⟨8, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1x512, .f32⟩
  | .local _ .vmem, ⟨21, _⟩ => ⟨S1x1x512, .f32⟩
  | .local _ .vmem, ⟨22, _⟩ => ⟨S1x512x1024, .bf16⟩
  | .local _ .vmem, ⟨23, _⟩ => ⟨S1x512x1024, .bf16⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 2, 4], ![false, false, false]⟩

def k2_cond3 (i : grid2.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_2 : BitVec 32 := 0#32
  let v11 : BitVec 1 := Scalar.cmpi .ne v10 c0_i32_2
  v11

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.subi v18 c1_i32_5
  let v20 : BitVec 32 := Scalar.minsi arg2 v19
  let c0_i32_6 : BitVec 32 := 0#32
  let c0_i32_7 : BitVec 32 := 0#32
  ![arg0.toNat, v20.toNat, c0_i32_6.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.subi v18 c1_i32_5
  let v20 : BitVec 32 := Scalar.minsi arg2 v19
  let c0_i32_6 : BitVec 32 := 0#32
  let c0_i32_7 : BitVec 32 := 0#32
  ![arg0.toNat, c0_i32_6.toNat, v20.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1024_i32 : BitVec 32 := 1024#32
  let v1 : BitVec 32 := Scalar.muli v0 c1024_i32
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let v19 : BitVec 32 := Scalar.subi v18 c1_i32_5
  let v20 : BitVec 32 := Scalar.minsi arg2 v19
  let c0_i32_6 : BitVec 32 := 0#32
  let c0_i32_7 : BitVec 32 := 0#32
  ![arg0.toNat, v20.toNat, c0_i32_6.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S1024_S1x1024 : S1024.ShapeCasts S1x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  iota_S1024x1024_d0_w32 : S1024x1024.Iotas .tc 32 [0]
  iota_S1024x1024_d1_w32 : S1024x1024.Iotas .tc 32 [1]
  reduces_S1024x1024_S1024 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1024x512_d0_w32 : S1024x512.Iotas .tc 32 [0]
  iota_S1024x512_d1_w32 : S1024x512.Iotas .tc 32 [1]
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .bf16 = 32 ∨ (Rect.block (s := S8x2048x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x2048x1024.size a
  hwx0_4 : ∀ i : grid0.Coords, EltTy.bits .bf16 = 32 ∨ (Rect.block (s := S8x2048x1024) S1x1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .bf16 = 32 ∨ (Rect.block (s := S8x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x1024.size a
  hwx1_1 : ∀ i : grid1.Coords, EltTy.bits .bf16 = 32 ∨ (Rect.block (s := S8x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x2048.size a
  hwx1_2 : ∀ i : grid1.Coords, EltTy.bits .f32 = 32 ∨ (Rect.block (s := S8x1x2048) S1x1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x2048x1024.size a
  hwx2_0 : ∀ i : grid2.Coords, EltTy.bits .bf16 = 32 ∨ (Rect.block (s := S8x2048x1024) S1x1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S8x2048x1024.size a
  hwx2_1 : ∀ i : grid2.Coords, EltTy.bits .bf16 = 32 ∨ (Rect.block (s := S8x2048x1024) S1x512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512.size a ≤ S8x1x2048.size a
  hwx2_2 : ∀ i : grid2.Coords, EltTy.bits .f32 = 32 ∨ (Rect.block (s := S8x1x2048) S1x1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S8x2048x1024.size a
  hwx2_3 : ∀ i : grid2.Coords, EltTy.bits .bf16 = 32 ∨ (Rect.block (s := S8x2048x1024) S1x512x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x1024.size a ≤ S8x2048x1024.size a
  hwx2_4 : ∀ i : grid2.Coords, EltTy.bits .f32 = 32 ∨ (Rect.block (s := S8x2048x1024) S1x1024x1024.size (cc2_transform_4 i) (hinb2_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_v2_0) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S1x512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S8x2048x1024, .f32⟩
  | .hbm, ⟨4, _⟩ => ⟨S1x1x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S2048x2048, .f32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S1x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x1x2048, .f32⟩
  | .hbm, ⟨38, _⟩ => ⟨S8x2048x2048, .f32⟩
  | .hbm, ⟨39, _⟩ => ⟨S8x2048x2048, .f32⟩
  | .hbm, ⟨40, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Reg0.lean ====
import proofs.«407224_j18210661335624_3_alg».proof.Proof.Gen.Kernel.Launch
import proofs.«407224_j18210661335624_3_alg».proof.Proof.Gen.Kernel.Skeleton
import proofs.«407224_j18210661335624_3_alg».proof.Proof.Gen.Kernel.Points
import Idealize.ShloMosaic.Lib.Pipeline.FrameBody
import Idealize.ShloMosaic.Lib.Tactic

/-!
  The projection call (the first of the program's three kernel calls), at the buffer contents `V` the call is
  entered with.

  Its grid is 8 x 2; at the point (i, j) it reads the block (i, j, ·) of the activations (1 x 1024 x 1024),
  the whole weight matrix and the whole bias row, and writes the block (i, j, ·) of both of its results:
  the projected block, and the input block rounded to the narrow type.  Each result buffer is stored
  whole, so what the body leaves in it is a function of the three blocks read.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is
    not fetched its block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S1x1024x1024 := Rect.unit (s := S1x1024x1024) ![0, 0, 0] S1x1024x1024.size inb_S1x1024x1024_S1x1024x1024_0_0_0
abbrev rB0 : Rect S1024x1024 := Rect.unit (s := S1024x1024) ![0, 0] S1024x1024.size inb_S1024x1024_S1024x1024_0_0
abbrev rC0 : Rect S1x1024 := Rect.unit (s := S1x1024) ![0, 0] S1x1024.size inb_S1x1024_S1x1024_0_0

/-! ## What the body leaves in each result's buffer -/

/-- The projected block's buffer after the body: one whole store of the projection of the three blocks read. -/
def out0_3 (x0 : Vec F S1x1024x1024 .f32) (x1 : Vec F S1024x1024 .bf16) (x2 : Vec F S1x1024 .f32) : Vec F S1x1024x1024 .bf16 :=
  View.canon [⟨rA0, k0_pay2 (View.ld x0 rA0) (View.ld x1 rB0) (View.ld x2 rC0)⟩]

/-- The rounded input block's buffer after the body: one whole store. -/
def out0_4 (x0 : Vec F S1x1024x1024 .f32) : Vec F S1x1024x1024 .bf16 :=
  View.canon [⟨rA0, k0_pay3 (View.ld x0 rA0)⟩]

/-- The one store covers the buffer. -/
theorem cover0_3 (p0 : Vec F S1x1024x1024 .bf16) (y : S1x1024x1024.Idx) :
    ∃ pc ∈ ([⟨rA0, p0⟩] : List (View.Piece (Elt F) S1x1024x1024 .bf16)), y ∈ pc.1.set :=
  View.cover_of_tiled [⟨rA0, p0⟩] S1x1024x1024.size (by rfl) y

/-! ## The body's triple -/

set_option maxHeartbeats 1000000 in
/-- The body on whole staging memrefs, the three inputs' at read contents and the two results' at anything, runs to
    the continuation holding the inputs' as they were and each result's at `out0_3` / `out0_4` of the inputs'. -/
theorem sound_kernel0 (c : Dev nD) (E : Set ℕ) (i : grid0.Coords)
    (arg0 : Memref sig .tc .vmem S1x1024x1024 .f32) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (x0 : Vec F S1x1024x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2) ∗ owns (c : Thread nD τ) arg4 fullShare (out0_4 x0)) -∗ K ⟨⟩))
      ⊢ wp frame (wpE (defs₀ (F := F)) Variants.none c none) E (cc0__proj_kernel i arg0 harg0 arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  · iexists _; isplitr
    swap; · iexact H4
    ipureintro
    exact View.read_writes_eq_canon _ _ _ (cover0_3 _)

/-! ## The call's proof data -/

/-- The proof data of the projection call on core `c`: the arrays as the call finds them; after the body at point
    `t` each input's buffer at its block and each result's at `out0_3` / `out0_4` of the input blocks; the
    invariant says the rest of the core's memory is untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Entering the call, the invariant is the class's own. -/
theorem hin0 (c : Dev nD) : Pipeline.ΦA spec0 c ⊢ (dat0 V c).Φ 0 := .rfl

/-- Leaving it, likewise. -/
theorem hout0 (c : Dev nD) : (dat0 V c).Φ (Fin.last cfg0.N) ⊢ Pipeline.ΦA spec0 c := .rfl

end Region0

end Cert.Kernel.Hand

end
-- ==== Proof.K.Reg1Step.lean ====
import proofs.«407224_j18210661335624_3_alg».proof.Proof.Gen.Kernel.Launch
import proofs.«407224_j18210661335624_3_alg».proof.Proof.Gen.Kernel.Skeleton
import proofs.«407224_j18210661335624_3_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the column statistics): what the points leave, as a recursion over the grid

The grid is (b, qi, ki) with ki fastest: point `n` has ki = n % 2 and qi = (n / 2) % 2, so n % 4 tells the
control case. The running column maximum `m` and the running sum `l` of shifted exponentials are carried
from point to point; the statistic block is stored at the points with ki = 1. -/

section Region1

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The statistic block, the running maximum and the running sum after a point. -/
abbrev St1 (F : FTy → Type) : Type := Vec F S1x1x1024 .f32 × Vec F S1x1024 .f32 × Vec F S1x1024 .f32

/-- One update of the running maximum and sum by a key block: from (m, l) to
    (max m (column maxima of the masked scores), exp (m − m') · l + column sums of exp (scores − m')). -/
def upd1 (a1 a2 : BitVec 32) (xs xt : Vec F S1x1024x1024 .bf16) (m l : Vec F S1x1024 .f32) : Vec F S1x1024 .f32 × Vec F S1x1024 .f32 :=
  (k1_pay3 (k1_pay6 a1 a2 xs xt m), k1_pay7 a1 a2 xs xt m m l)

/-- The statistic m + log l beside the pair it is computed from. -/
def fin1 (p : Vec F S1x1024 .f32 × Vec F S1x1024 .f32) : St1 F := (k1_pay4 p.1 p.2, p.1, p.2)

/-- What point `k` leaves, from the two blocks it reads and the pair (m, l) it finds:
    k % 4 = 0 (qi = 0, ki = 0): reset to (−∞, 0), then one update;
    k % 4 = 2 (qi = 1, ki = 0): reset only (the key block lies wholly above the diagonal);
    k % 4 = 1, 3 (ki = 1): one update of what the point before left, and the statistic is stored. -/
def pt1 (k : ℕ) (xs xt : Vec F S1x1024x1024 .bf16) (m l : Vec F S1x1024 .f32) : St1 F :=
  if k % 4 = 0 then fin1 (upd1 0#32 0#32 xs xt k1_pay1 k1_pay2)
  else if k % 4 = 2 then fin1 (k1_pay1, k1_pay2)
  else if k % 4 = 1 then fin1 (upd1 0#32 1#32 xs xt m l)
  else fin1 (upd1 1#32 1#32 xs xt m l)

/-- THE ACCUMULATION: the statistic block and the carried pair after point `n`. -/
def scAt1 (c : Dev nD) : (n : ℕ) → n < cfg1.N → St1 F
  | 0, hn => pt1 0 (iblk1 V c 0 ⟨0, hn⟩) (iblk1 V c 1 ⟨0, hn⟩) k1_pay1 k1_pay2
  | n + 1, hn => pt1 (n + 1) (iblk1 V c 0 ⟨n + 1, hn⟩) (iblk1 V c 1 ⟨n + 1, hn⟩)
      (scAt1 c n (Nat.lt_of_succ_lt hn)).2.1 (scAt1 c n (Nat.lt_of_succ_lt hn)).2.2

/-- At a point with qi = 0, ki = 0: reset, then one update. -/
theorem scAt1_reset_update (c : Dev nD) (t : Fin cfg1.N) (h : t.val % 4 = 0) :
    scAt1 V c t.val t.isLt = fin1 (upd1 0#32 0#32 (iblk1 V c 0 t) (iblk1 V c 1 t) k1_pay1 k1_pay2) := by
  obtain ⟨n, hn⟩ := t
  cases n with
  | zero => exact (show pt1 0 _ _ _ _ = _ from by unfold pt1; exact if_pos rfl)
  | succ n => exact if_pos h

/-- At a point with qi = 1, ki = 0: reset only. -/
theorem scAt1_reset_only (c : Dev nD) (t : Fin cfg1.N) (h : t.val % 4 = 2) :
    scAt1 V c t.val t.isLt = fin1 (k1_pay1, k1_pay2) := by
  obtain ⟨n, hn⟩ := t
  cases n with
  | zero => exfalso; dsimp only at h; omega
  | succ n => exact (if_neg (by dsimp only at h; omega)).trans (if_pos h)

/-- At a point with qi = 0, ki = 1: one update of what the point before left; the statistic is stored. -/
theorem scAt1_update_final0 (c : Dev nD) (t : Fin cfg1.N) (h : t.val % 4 = 1) :
    scAt1 V c t.val t.isLt = fin1 (upd1 0#32 1#32 (iblk1 V c 0 t) (iblk1 V c 1 t)
      (scAt1 V c (t.val - 1) (Nat.lt_of_le_of_lt (Nat.sub_le _ _) t.isLt)).2.1
      (scAt1 V c (t.val - 1) (Nat.lt_of_le_of_lt (Nat.sub_le _ _) t.isLt)).2.2) := by
  obtain ⟨n, hn⟩ := t
  cases n with
  | zero => exfalso; dsimp only at h; omega
  | succ n => exact (if_neg (by dsimp only at h; omega)).trans ((if_neg (by dsimp only at h; omega)).trans (if_pos h))

/-- At a point with qi = 1, ki = 1: the same with the query block's number 1. -/
theorem scAt1_update_final1 (c : Dev nD) (t : Fin cfg1.N) (h : t.val % 4 = 3) :
    scAt1 V c t.val t.isLt = fin1 (upd1 1#32 1#32 (iblk1 V c 0 t) (iblk1 V c 1 t)
      (scAt1 V c (t.val - 1) (Nat.lt_of_le_of_lt (Nat.sub_le _ _) t.isLt)).2.1
      (scAt1 V c (t.val - 1) (Nat.lt_of_le_of_lt (Nat.sub_le _ _) t.isLt)).2.2) := by
  obtain ⟨n, hn⟩ := t
  cases n with
  | zero => exfalso; dsimp only at h; omega
  | succ n => exact (if_neg (by dsimp only at h; omega)).trans ((if_neg (by dsimp only at h; omega)).trans (if_neg (by dsimp only at h; omega)))

end Region1

end Cert.Kernel.Hand

end
-- ==== Proof.K.Reg1Runs.lean ====
import proofs.«407224_j18210661335624_3_alg».proof.Proof.K.Reg1Step
import Idealize.ShloMosaic.Lib.Pipeline.FrameBody
import Idealize.ShloMosaic.Lib.Pipeline.FrameSuffix
import Idealize.ShloMosaic.Lib.Pipeline.Value
import Idealize.ShloMosaic.Lib.WholeRead
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # Region 1: the body's conditions over the grid, and its run in each control case -/

/-! ## The body's branch conditions -/

/-- The first conditional: the key block's number is 0 (the carried pair is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The second: the key block's number is at least the query block's (the block meets the causal triangle). -/
abbrev cond1_1 (i : grid1.Coords) : Prop := (Scalar.cmpi .ne (Scalar.extui (Scalar.cmpi .sge (BitVec.ofNat 32 (i 2).val) (BitVec.ofNat 32 (i 1).val))) 0#32) = 1#1
theorem hcond1_1 : ∀ t : Fin cfg1.N, cond1_1 (grid1.coords t) ↔ ¬ t.val % 4 = 2 :=
  (by decide +kernel : ∀ t : Fin grid1.N, cond1_1 (grid1.coords t) ↔ ¬ t.val % 4 = 2)

/-- The third: the key block's number is 1, the last (the statistic is stored). -/
abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

/-- The block numbers the body computes with, over the grid. -/
theorem a1_of1 : ∀ t : Fin cfg1.N, BitVec.ofNat 32 ((grid1.coords t) 1).val = BitVec.ofNat 32 ((t.val / 2) % 2) :=
  (by decide +kernel : ∀ t : Fin grid1.N, BitVec.ofNat 32 ((grid1.coords t) 1).val = BitVec.ofNat 32 ((t.val / 2) % 2))
theorem a2_of1 : ∀ t : Fin cfg1.N, BitVec.ofNat 32 ((grid1.coords t) 2).val = BitVec.ofNat 32 (t.val % 2) :=
  (by decide +kernel : ∀ t : Fin grid1.N, BitVec.ofNat 32 ((grid1.coords t) 2).val = BitVec.ofNat 32 (t.val % 2))

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel
theorem liveAt1_2 : ∀ t : Fin cfg1.N, t.val % 2 = 1 → cfg1.idle 2 (grid1.coords t) = false := by decide +kernel

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
/-- The two scratch operands: the running maximum and the running sum. -/
abbrev scM1_0 : Memref sig .tc .vmem S1x1024 .f32 := Memref.whole cc1_scratch0
abbrev scM1_1 : Memref sig .tc .vmem S1x1024 .f32 := Memref.whole cc1_scratch1

/-- The core's scoped buffers other than this call's staging buffers and its two scratch operands, at some contents each. -/
def rest1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch operands split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA rest1
  rw [Pipeline.scopedRest_split_of_list spec1 c [cc1_scratch0, cc1_scratch1] (by decide) (by decide)]
  simp only [scM1_0, scM1_1, owns_whole]; rfl

/-- A store through the whole-shape rectangle at zero offsets, made last, leaves its payload whatever came before. -/
theorem read_writes_cons_unit_zero1 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb w L]

/-- A load through the whole-shape rectangle at zero offsets of a whole memref held at the contents that read `x` reads `x`. -/
theorem readAt_unit_zero_unread1 {Val : EltTy → Type} {sg : RefSig} {κ : Kind} {sp : Space} {S : Shape} {e : EltTy}
    {a : Memref sg κ sp S e} (ha : a.IsWhole) {off : Fin S.rank → Nat} (h : off = fun _ => 0)
    (inb : ∀ a, off a + S.size a ≤ S.size a) (x : S.Idx → Val e) :
    View.readAt Val a.view (Rect.unit off S.size inb).toLoadRect (ha.unread x) = x := by
  funext y; rw [Memref.IsWhole.readAt_unread ha]; exact congrFun (View.ld_unit_zero h inb x) y

theorem zeros1_2 : (![0, 0] : Fin 2 → ℕ) = fun _ => 0 := by funext a; fin_cases a <;> rfl
theorem zeros1_3 : (![0, 0, 0] : Fin 3 → ℕ) = fun _ => 0 := by funext a; fin_cases a <;> rfl

/-! ## The body's run, case by case -/

set_option maxHeartbeats 1000000 in
/-- Key block 0 wholly above the diagonal (query block 1): the carried pair is reset to (−∞, 0); nothing else is touched. -/
theorem run1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
    (hc0 : cond1_0 i) (hc1 : ¬cond1_1 i) (hc2 : ¬cond1_2 i)
    (xs xt : Vec F S1x1024x1024 .bf16) (x5 : Vec F S1x1x1024 .f32) (E : Set ℕ) (K : PUnit → sProp 𝕄) :
    iprop(owns (c : Thread nD τ) arg3 fullShare xs ∗ owns (c : Thread nD τ) arg4 fullShare xt ∗ owns (c : Thread nD τ) arg5 fullShare x5
        ∗ (∃ d, owns (c : Thread nD τ) arg6 fullShare d) ∗ (∃ d, owns (c : Thread nD τ) arg7 fullShare d)
        ∗ (iprop(owns (c : Thread nD τ) arg3 fullShare xs ∗ owns (c : Thread nD τ) arg4 fullShare xt ∗ owns (c : Thread nD τ) arg5 fullShare x5
            ∗ owns (c : Thread nD τ) arg6 fullShare (k1_pay1 (F := F)) ∗ owns (c : Thread nD τ) arg7 fullShare (k1_pay2 (F := F))) -∗ K ⟨⟩))
      ⊢ wp frame (wpE (defs₀ (F := F)) Variants.none c none) E (cc1__stats_kernel i arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    exact read_writes_cons_unit_zero1 _ _ zeros1_2 _ _ _
  iexists _; isplitr
  swap; · iexact H7
  ipureintro
  exact read_writes_cons_unit_zero1 _ _ zeros1_2 _ _ _

set_option maxHeartbeats 2000000 in
/-- Key block 0 on the diagonal (query block 0): the pair is reset to (−∞, 0) and updated once. -/
theorem run1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
    (hc0 : cond1_0 i) (hc1 : cond1_1 i) (hc2 : ¬cond1_2 i) (a1 a2 : BitVec 32) (ha1 : BitVec.ofNat 32 (i 1).val = a1) (ha2 : BitVec.ofNat 32 (i 2).val = a2)
    (xs xt : Vec F S1x1024x1024 .bf16) (x5 : Vec F S1x1x1024 .f32) (E : Set ℕ) (K : PUnit → sProp 𝕄) :
    iprop(owns (c : Thread nD τ) arg3 fullShare xs ∗ owns (c : Thread nD τ) arg4 fullShare xt ∗ owns (c : Thread nD τ) arg5 fullShare x5
        ∗ (∃ d, owns (c : Thread nD τ) arg6 fullShare d) ∗ (∃ d, owns (c : Thread nD τ) arg7 fullShare d)
        ∗ (iprop(owns (c : Thread nD τ) arg3 fullShare xs ∗ owns (c : Thread nD τ) arg4 fullShare xt ∗ owns (c : Thread nD τ) arg5 fullShare x5
            ∗ owns (c : Thread nD τ) arg6 fullShare (upd1 a1 a2 xs xt (k1_pay1 (F := F)) (k1_pay2 (F := F))).1
            ∗ owns (c : Thread nD τ) arg7 fullShare (upd1 a1 a2 xs xt (k1_pay1 (F := F)) (k1_pay2 (F := F))).2) -∗ K ⟨⟩))
      ⊢ wp frame (wpE (defs₀ (F := F)) Variants.none c none) E (cc1__stats_kernel i arg3 harg3 arg4 harg4 arg5 harg5 arg6 harg6 arg7 harg7) K := by
  subst ha1 ha2
  have e3 : View.readAt (Elt F) arg3.view (Rect.unit ![0, 0, 0] S1x1024x1024.size inb_S1x1024x1024_S1x1024x1024_0_0_0).toLoadRect (harg3.unread xs) = xs :=
    readAt_unit_zero_unread1 harg3 zeros1_3 _ xs
  have e4 : View.readAt (Elt F) arg4.view (Rect.unit ![0, 0, 0] S1x1024x1024.size inb_S1x1024x1024_S1x1024x1024_0_0_0).toLoadRect (harg4.unread xt) = xt :=
    readAt_unit_zero_unread1 harg4 zeros1_3 _ xt
  simp only [cc1__stats_kernel_eq_skeleton]; unfold cc1__stats_kernel_skel
  simp only [k1_part1_eq_skeleton]
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [View.readCov_unit_zero (S := S1x1024) arg6.view zeros1_2]
    exact read_writes_cons_unit_zero1 _ _ zeros1_2 _ _ _
  iexists _; isplitr
  swap; · iexact H7
  ipureintro
  sl_unfold_run_names
  rw [View.readCov_unit_zero (S := S1x1024) arg6.view zeros1_2, View.readCov_unit_zero (S := S1x1024) arg7.view zeros1_2]
  exact read_writes_cons_unit_zero1 _ _ zeros1_2 _ _ _

set_option maxHeartbeats 2000000 in
/-- Key block 1 (the last): one update of the pair (m, l) the point finds, and the statistic m' + log l' is stored. -/
theorem run1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
    (hc0 : ¬cond1_0 i) (hc1 : cond1_1 i) (hc2 : cond1_2 i) (a1 a2 : BitVec 32) (ha1 : BitVec.ofNat 32 (i 1).val = a1) (ha2 : BitVec.ofNat 32 (i 2).val = a2)
    (xs xt : Vec F S1x1024x1024 .bf16) (m l : Vec F S1x1024 .f32) (E : Set ℕ) (K : PUnit → sProp 𝕄) :
    iprop(owns (c : Thread nD τ) arg3 fullShare xs ∗ owns (c : Thread nD τ) arg4 fullShare xt ∗ (∃ d, owns (c : Thread nD τ) arg5 fullShare d)
        ∗ owns (c : Thread nD τ) arg6 fullShare m ∗ owns (c : Thread nD τ) arg7 fullShare l
        ∗ (iprop(owns (c : Thread nD τ) arg3 fullShare xs ∗ owns (c : Thread nD τ) arg4 fullShare xt
            ∗ owns (c : Thread nD τ) arg5 fullShare (fin1 (upd1 a1 a2 xs xt m l)).1
            ∗ owns (c : Thread nD τ) arg6 fullShare (upd1 a1 a2 xs xt m l).1
            ∗ owns (c : Thread nD τ) arg7 fullShare (upd1 a1 a2 xs xt m l).2) -∗ K ⟨⟩))
      ⊢ wp frame (wpE (defs₀ (F := F)) Variants.none c none) E (cc1__stats_kernel i arg3 harg3 arg4 harg4 arg5 harg5 arg6 harg6 arg7 harg7) K := by
  subst ha1 ha2
  have e3 : View.readAt (Elt F) arg3.view (Rect.unit ![0, 0, 0] S1x1024x1024.size inb_S1x1024x1024_S1x1024x1024_0_0_0).toLoadRect (harg3.unread xs) = xs :=
    readAt_unit_zero_unread1 harg3 zeros1_3 _ xs
  have e4 : View.readAt (Elt F) arg4.view (Rect.unit ![0, 0, 0] S1x1024x1024.size inb_S1x1024x1024_S1x1024x1024_0_0_0).toLoadRect (harg4.unread xt) = xt :=
    readAt_unit_zero_unread1 harg4 zeros1_3 _ xt
  have e6 : View.readAt (Elt F) arg6.view (Rect.unit ![0, 0] S1x1024.size inb_S1x1024_S1x1024_0_0).toLoadRect (harg6.unread m) = m :=
    readAt_unit_zero_unread1 harg6 zeros1_2 _ m
  have e7 : View.readAt (Elt F) arg7.view (Rect.unit ![0, 0] S1x1024.size inb_S1x1024_S1x1024_0_0).toLoadRect (harg7.unread l) = l :=
    readAt_unit_zero_unread1 harg7 zeros1_2 _ l
  simp only [cc1__stats_kernel_eq_skeleton]; unfold cc1__stats_kernel_skel
  simp only [k1_part1_eq_skeleton]
  unfold owns
  iintro ⟨⟨%f3, %hf3, H3⟩, ⟨%f4, %hf4, H4⟩, ⟨%d5, %f5, -, H5⟩, ⟨%f6, %hf6, H6⟩, ⟨%f7, %hf7, H7⟩, Hk⟩
  obtain rfl := harg3.eq_unread hf3; obtain rfl := harg4.eq_unread hf4; obtain rfl := harg6.eq_unread hf6; obtain rfl := harg7.eq_unread hf7
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.readCov_unit_zero (S := S1x1024) arg6.view zeros1_2, View.readCov_unit_zero (S := S1x1024) arg7.view zeros1_2]
    exact read_writes_cons_unit_zero1 _ _ zeros1_3 _ _ _
  isplitl [H6]
  · iexists _; isplitr
    swap; · iexact H6
    ipureintro
    sl_unfold_run_names
    exact read_writes_cons_unit_zero1 _ _ zeros1_2 _ _ _
  iexists _; isplitr
  swap; · iexact H7
  ipureintro
  sl_unfold_run_names
  exact read_writes_cons_unit_zero1 _ _ zeros1_2 _ _ _

end Cert.Kernel.Hand

end
-- ==== Proof.K.Reg1.lean ====
import proofs.«407224_j18210661335624_3_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the proof data and the body obligation, at the entry contents `V` -/

section Region1

variable (V : (c : Dev nD) → (b : Ref sig .tc) → Buf (Elt F) ((c : Thread nD τ).loc b))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The region invariant before position `n`: before the first point the class's (every scratch at anything);
    afterwards the running maximum and the running sum at what the point before left, the other scoped buffers at
    anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((scAt1 V c n hn).2.1) ∗ owns (c : Thread nD τ) scM1_1 fullShare ((scAt1 V c n hn).2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((scAt1 V c n hn).2.1) ∗ owns (c : Thread nD τ) scM1_1 fullShare ((scAt1 V c n hn).2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((scAt1 V c (n - 1) (by omega)).2.1) ∗ owns (c : Thread nD τ) scM1_1 fullShare ((scAt1 V c (n - 1) (by omega)).2.2)) ∗ rest1 c) ∗ (∃ r, prngReg c r)) := by
  cases n with
  | zero => exact absurd rfl hz
  | succ n => rfl

/-- The proof data of pipeline 1 on core `c`: the arrays as the region finds them; the two input windows, which
    read ONE array, hold half of it each; after the body each input's buffer at its block and the output's at the
    statistic of the pair the point leaves; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (scAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare.left := rfl
theorem q1_1 (c : Dev nD) : (dat1 V c).q 1 = fullShare.right := rfl
theorem q1_2 (c : Dev nD) : (dat1 V c).q 2 = fullShare := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (scAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; n % 4 says which control case the point is in, so
    that case's run applies; the invariant hands the body the pair the point before left (anything at the first
    point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  rcases (show t.val % 4 = 0 ∨ t.val % 4 = 2 ∨ t.val % 4 = 1 ∨ t.val % 4 = 3 by omega) with h | h | h | h
  · -- query block 0, key block 0: reset and update
    have hk : t.val % 2 = 0 := by omega
    rw [Dat.leavesExact_idle (dat1 V c) 2 t (idleAt1_2 t hk) (noFlush1_2 t hk)]
    rw [scAt1_reset_update V c t h]
    have hrun := fun x5 K => run1_A (F := F) c (grid1.coords t) (ms1_0 t) (hs1_0 t) (ms1_1 t) (hs1_1 t) (ms1_2 t) (hs1_2 t) scM1_0 (Memref.isWhole_whole _) scM1_1 (Memref.isWhole_whole _)
      ((hcond1_0 t).mpr hk) ((hcond1_1 t).mpr (by omega)) (fun hh => by have := (hcond1_2 t).mp hh; omega) 0#32 0#32
      ((a1_of1 t).trans (by rw [show (t.val / 2) % 2 = 0 by omega])) ((a2_of1 t).trans (by rw [hk])) (iblk1 V c 0 t) (iblk1 V c 1 t) x5 Set.univ K
    by_cases hz : t.val = 0
    · rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2
  · -- query block 1, key block 0: reset only
    have hk : t.val % 2 = 0 := by omega
    have hz : t.val ≠ 0 := by omega
    rw [Dat.leavesExact_idle (dat1 V c) 2 t (idleAt1_2 t hk) (noFlush1_2 t hk)]
    rw [scAt1_reset_only V c t h]
    have hrun := fun x5 K => run1_B (F := F) c (grid1.coords t) (ms1_0 t) (hs1_0 t) (ms1_1 t) (hs1_1 t) (ms1_2 t) (hs1_2 t) scM1_0 (Memref.isWhole_whole _) scM1_1 (Memref.isWhole_whole _)
      ((hcond1_0 t).mpr hk) (fun hh => ((hcond1_1 t).mp hh) h) (fun hh => by have := (hcond1_2 t).mp hh; omega)
      (iblk1 V c 0 t) (iblk1 V c 1 t) x5 Set.univ K
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply (hrun _ _)
    isplitl [H0]; · iexact H0
    isplitl [H1]; · iexact H1
    isplitl [H2]; · iexact H2
    isplitl [HS0]; · iexists _; iexact HS0
    isplitl [HS1]; · iexists _; iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexists _; iexact H2
  · -- query block 0, key block 1: update, and the statistic is stored
    have hk : t.val % 2 = 1 := by omega
    have hz : t.val ≠ 0 := by omega
    rw [show (dat1 V c).leavesExact 2 t = owns (c : Thread nD τ) (ms1_2 t) fullShare ((dat1 V c).after 2 t) from by
      unfold Dat.leavesExact; rw [liveAt1_2 t hk], after1_2]
    rw [scAt1_update_final0 V c t h]
    have hrun := fun m l K => run1_C (F := F) c (grid1.coords t) (ms1_0 t) (hs1_0 t) (ms1_1 t) (hs1_1 t) (ms1_2 t) (hs1_2 t) scM1_0 (Memref.isWhole_whole _) scM1_1 (Memref.isWhole_whole _)
      (fun hh => by have := (hcond1_0 t).mp hh; omega) ((hcond1_1 t).mpr (by omega)) ((hcond1_2 t).mpr hk) 0#32 1#32
      ((a1_of1 t).trans (by rw [show (t.val / 2) % 2 = 0 by omega])) ((a2_of1 t).trans (by rw [hk])) (iblk1 V c 0 t) (iblk1 V c 1 t) m l Set.univ K
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply (hrun _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · -- query block 1, key block 1: the same
    have hk : t.val % 2 = 1 := by omega
    have hz : t.val ≠ 0 := by omega
    rw [show (dat1 V c).leavesExact 2 t = owns (c : Thread nD τ) (ms1_2 t) fullShare ((dat1 V c).after 2 t) from by
      unfold Dat.leavesExact; rw [liveAt1_2 t hk], after1_2]
    rw [scAt1_update_final1 V c t h]
    have hrun := fun m l K => run1_C (F := F) c (grid1.coords t) (ms1_0 t) (hs1_0 t) (ms1_1 t) (hs1_1 t) (ms1_2 t) (hs1_2 t) scM1_0 (Memref.isWhole_whole _) scM1_1 (Memref.isWhole_whole _)
      (fun hh => by have := (hcond1_0 t).mp hh; omega) ((hcond1_1 t).mpr (by omega)) ((hcond1_2 t).mpr hk) 1#32 1#32
      ((a1_of1 t).trans (by rw [show (t.val / 2) % 2 = 1 by omega])) ((a2_of1 t).trans (by rw [hk])) (iblk1 V c 0 t) (iblk1 V c 1 t) m l Set.univ K
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply (hrun _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the pair's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.K.Reg2Runs.lean ====
import proofs.«407224_j18210661335624_3_alg».proof.Proof.Gen.Kernel.Launch
import proofs.«407224_j18210661335624_3_alg».proof.Proof.Gen.Kernel.Skeleton
import proofs.«407224_j18210661335624_3_alg».proof.Proof.Gen.Kernel.Points
import Idealize.ShloMosaic.Lib.Pipeline.FrameBody
import Idealize.ShloMosaic.Lib.Pipeline.Value
import Idealize.ShloMosaic.Lib.Tactic

set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions of the accumulation body, from the grid coordinates -/

/-- The reset condition: the key-block coordinate is 0. -/
abbrev cond2_0 (i : grid2.Coords) : Prop :=
  (Scalar.cmpi .ne (Scalar.extui (Scalar.cmpi .eq (BitVec.ofNat 32 (i 2).val) 0#32)) 0#32) = 1#1
/-- The update condition: the key block starts before the end of the query tile (signed comparison of the offsets). -/
abbrev cond2_1 (i : grid2.Coords) : Prop :=
  (Scalar.cmpi .ne (Scalar.extui (Scalar.cmpi .slt (Scalar.muli (BitVec.ofNat 32 (i 2).val) 512#32) (Scalar.muli (Scalar.addi (BitVec.ofNat 32 (i 1).val) 1#32) 1024#32))) 0#32) = 1#1
/-- The final-store condition: the key-block coordinate is 3. -/
abbrev cond2_2 (i : grid2.Coords) : Prop := k2_cond3 i = 1#1

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 < 2 * (t.val / 4 % 2 + 1) :=
  (by decide +kernel : ∀ t : Fin grid2.N, cond2_1 (grid2.coords t) ↔ t.val % 4 < 2 * (t.val / 4 % 2 + 1))
theorem hcond2_2 : ∀ t : Fin cfg2.N, cond2_2 (grid2.coords t) ↔ t.val % 4 = 3 :=
  (by decide +kernel : ∀ t : Fin grid2.N, cond2_2 (grid2.coords t) ↔ t.val % 4 = 3)

/-! ## What one run of the body leaves, over the skeleton's payloads -/

/-- The accumulator after the reset step. -/
def rst2 (p : Prop) [Decidable p] (acc : Vec F S1024x1024 .f32) : Vec F S1024x1024 .f32 :=
  if p then k2_pay1 else acc
/-- The accumulator after the update step. -/
def upd2 (p : Prop) [Decidable p] (i : grid2.Coords) (xt : Vec F S1x1024x1024 .bf16) (xs : Vec F S1x512x1024 .bf16)
    (ls : Vec F S1x1x512 .f32) (xr : Vec F S1x512x1024 .bf16) (a0 : Vec F S1024x1024 .f32) : Vec F S1024x1024 .f32 :=
  if p then k2_pay2 i xt xs ls a0 xr else a0
/-- The output block after the final step. -/
def fin2 (p : Prop) [Decidable p] (a1 : Vec F S1024x1024 .f32) (x7 : Vec F S1x1024x1024 .f32) : Vec F S1x1024x1024 .f32 :=
  if p then k2_pay3 a1 else x7

theorem z2_2 : (![0, 0] : Fin 2 → Nat) = fun _ => 0 := by funext a; fin_cases a <;> rfl
theorem z3_2 : (![0, 0, 0] : Fin 3 → Nat) = fun _ => 0 := by funext a; fin_cases a <;> rfl

/-! ## Loads and stores through the whole of a buffer -/

section Whole

variable {sg : RefSig} {κ : Kind} {sp : Space} {S : Shape} {e : EltTy} {Val : EltTy → Type}

/-- A load of the whole buffer reads its contents. -/
theorem readAt_unit_zero2 (v : View sg κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- A load of the whole buffer after a store of the whole buffer (the last made) reads that store's payload. -/
theorem readCov_cons_unit_zero2 [∀ e, Nonempty (Val e)] (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ (Rect.unit off S.size inb)
    (fun y => ⟨_, List.mem_cons.mpr (Or.inl rfl), View.mem_set_unit_zero h inb y⟩),
    View.canon_cons_unit_zero h, View.ld_unit_zero h]

/-- After a store of the whole buffer (the last made) the buffer reads that store's payload. -/
theorem read_writes_cons_unit_zero2 [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

end Whole

/-! ## The body's triple -/

set_option hygiene false in
/-- Under the case's conditions `hc0 hc1 hc2` the body reads the inputs' buffers and leaves them as they were. -/
local macro "k2_run" : tactic => `(tactic| (
    simp only [cc2__out_kernel_eq_skeleton]; unfold cc2__out_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    subst hf3; subst hf4; subst hf5; subst hf6; subst hf7; subst hf8
    sl_exec (disch := first | sl_exact hc0 | sl_exact hc1 | sl_exact hc2)
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6))

set_option hygiene false in
/-- An output buffer stored whole reads the store's payload. -/
local macro "k2_stored7" : tactic => `(tactic| (
    iexists _; isplitr
    swap; · iexact H7
    ipureintro
    sl_unfold_run_names
    simp only [readAt_unit_zero2 (S := S1x1024x1024) _ z3_2, readAt_unit_zero2 (S := S1x512x1024) _ z3_2,
      readAt_unit_zero2 (S := S1x1x512) _ z3_2, readAt_unit_zero2 (S := S1024x1024) _ z2_2,
      readCov_cons_unit_zero2 (S := S1024x1024) _ z2_2, read_writes_cons_unit_zero2 (S := S1x1024x1024) _ _ z3_2]))

set_option hygiene false in
/-- An output buffer no store reaches reads what it read. -/
local macro "k2_kept7" : tactic => `(tactic| (
    iexists f7; isplitr; · ipureintro; rfl
    iexact H7))

set_option hygiene false in
/-- An accumulator stored whole reads the payload of the last store. -/
local macro "k2_stored8" : tactic => `(tactic| (
    iexists _; isplitr
    swap; · iexact H8
    ipureintro
    sl_unfold_run_names
    simp only [readAt_unit_zero2 (S := S1x1024x1024) _ z3_2, readAt_unit_zero2 (S := S1x512x1024) _ z3_2,
      readAt_unit_zero2 (S := S1x1x512) _ z3_2, readAt_unit_zero2 (S := S1024x1024) _ z2_2,
      readCov_cons_unit_zero2 (S := S1024x1024) _ z2_2, read_writes_cons_unit_zero2 (S := S1024x1024) _ _ z2_2]))

set_option hygiene false in
/-- An accumulator no store reaches reads what it read. -/
local macro "k2_kept8" : tactic => `(tactic| (
    iexists f8; isplitr; · ipureintro; rfl
    iexact H8))

set_option maxHeartbeats 8000000 in
/-- The accumulation body on whole staging memrefs and the whole accumulator, each at read contents: it runs to the
    continuation holding the inputs' as they were, the accumulator after the reset step (under `p0`) and the update step
    (under `p1`), and the output's buffer at the final payload of the accumulator (under `p2`) or as it was. -/
theorem sound_kernel2 (c : Dev nD) (E : Set ℕ) (i : grid2.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x1x512 .f32) (harg5 : arg5.IsWhole) (arg6 : Memref sig .tc .vmem S1x512x1024 .bf16) (harg6 : arg6.IsWhole)
    (arg7 : Memref sig .tc .vmem S1x1024x1024 .f32) (harg7 : arg7.IsWhole) (arg8 : Memref sig .tc .vmem S1024x1024 .f32) (harg8 : arg8.IsWhole)
    (p0 p1 p2 : Prop) [Decidable p0] [Decidable p1] [Decidable p2]
    (h0 : cond2_0 i ↔ p0) (h1 : cond2_1 i ↔ p1) (h2 : cond2_2 i ↔ p2)
    (xt : Vec F S1x1024x1024 .bf16) (xs : Vec F S1x512x1024 .bf16) (ls : Vec F S1x1x512 .f32) (xr : Vec F S1x512x1024 .bf16)
    (x7 : Vec F S1x1024x1024 .f32) (acc : Vec F S1024x1024 .f32) (K : PUnit → sProp 𝕄) :
    iprop(owns (c : Thread nD τ) arg3 fullShare xt ∗ owns (c : Thread nD τ) arg4 fullShare xs ∗ owns (c : Thread nD τ) arg5 fullShare ls
        ∗ owns (c : Thread nD τ) arg6 fullShare xr ∗ owns (c : Thread nD τ) arg7 fullShare x7 ∗ owns (c : Thread nD τ) arg8 fullShare acc
        ∗ (iprop(owns (c : Thread nD τ) arg3 fullShare xt ∗ owns (c : Thread nD τ) arg4 fullShare xs ∗ owns (c : Thread nD τ) arg5 fullShare ls
            ∗ owns (c : Thread nD τ) arg6 fullShare xr
            ∗ owns (c : Thread nD τ) arg7 fullShare (fin2 p2 (upd2 p1 i xt xs ls xr (rst2 p0 acc)) x7)
            ∗ owns (c : Thread nD τ) arg8 fullShare (upd2 p1 i xt xs ls xr (rst2 p0 acc))) -∗ K ⟨⟩))
      ⊢ wp frame (wpE (defs₀ (F := F)) Variants.none c none) E (cc2__out_kernel i arg3 harg3 arg4 harg4 arg5 harg5 arg6 harg6 arg7 harg7 arg8 harg8) K := by
  obtain rfl := propext h0; obtain rfl := propext h1; obtain rfl := propext h2
  unfold rst2 upd2 fin2
  by_cases hc0 : cond2_0 i
  · rw [if_pos hc0]
    by_cases hc1 : cond2_1 i
    · rw [if_pos hc1]
      by_cases hc2 : cond2_2 i
      · rw [if_pos hc2]; k2_run
        isplitl [H7]
        · k2_stored7
        · k2_stored8
      · rw [if_neg hc2]; k2_run
        isplitl [H7]
        · k2_kept7
        · k2_stored8
    · rw [if_neg hc1]
      by_cases hc2 : cond2_2 i
      · rw [if_pos hc2]; k2_run
        isplitl [H7]
        · k2_stored7
        · k2_stored8
      · rw [if_neg hc2]; k2_run
        isplitl [H7]
        · k2_kept7
        · k2_stored8
  · rw [if_neg hc0]
    by_cases hc1 : cond2_1 i
    · rw [if_pos hc1]
      by_cases hc2 : cond2_2 i
      · rw [if_pos hc2]; k2_run
        isplitl [H7]
        · k2_stored7
        · k2_stored8
      · rw [if_neg hc2]; k2_run
        isplitl [H7]
        · k2_kept7
        · k2_stored8
    · rw [if_neg hc1]
      by_cases hc2 : cond2_2 i
      · rw [if_pos hc2]; k2_run
        isplitl [H7]
        · k2_stored7
        · k2_kept8
      · rw [if_neg hc2]; k2_run
        isplitl [H7]
        · k2_kept7
        · k2_kept8

end Cert.Kernel.Hand

end
-- ==== Proof.K.Reg2.lean ====
import proofs.«407224_j18210661335624_3_alg».proof.Proof.K.Reg2Runs

set_option maxRecDepth 16384
set_option synthInstance.maxSize 4096

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator point by point -/

/-- One point of the accumulation: the reset at the first key block, then the update while the key block starts
    before the end of the query tile. -/
def stepAcc2 (c : Dev nD) (t : Fin cfg2.N) (acc : Vec F S1024x1024 .f32) : Vec F S1024x1024 .f32 :=
  upd2 (t.val % 4 < 2 * (t.val / 4 % 2 + 1)) (grid2.coords t) (iblk2 V c 0 t) (iblk2 V c 1 t) (iblk2 V c 2 t) (iblk2 V c 3 t)
    (rst2 (t.val % 4 = 0) acc)

/-- What the output block and the accumulator hold after point `n`: (the final payload of the accumulator, the accumulator). -/
def scAt2 (c : Dev nD) : (n : ℕ) → n < cfg2.N → Vec F S1x1024x1024 .f32 × Vec F S1024x1024 .f32
  | 0, hn => (k2_pay3 (stepAcc2 V c ⟨0, hn⟩ k2_pay1), stepAcc2 V c ⟨0, hn⟩ k2_pay1)
  | n + 1, hn => (k2_pay3 (stepAcc2 V c ⟨n + 1, hn⟩ (scAt2 c n (Nat.lt_of_succ_lt hn)).2),
      stepAcc2 V c ⟨n + 1, hn⟩ (scAt2 c n (Nat.lt_of_succ_lt hn)).2)

theorem rst2_pos {p : Prop} [Decidable p] (h : p) (acc : Vec F S1024x1024 .f32) : rst2 p acc = k2_pay1 := if_pos h
theorem rst2_neg {p : Prop} [Decidable p] (h : ¬p) (acc : Vec F S1024x1024 .f32) : rst2 p acc = acc := if_neg h
theorem upd2_pos {p : Prop} [Decidable p] (h : p) (i : grid2.Coords) (xt : Vec F S1x1024x1024 .bf16) (xs : Vec F S1x512x1024 .bf16)
    (ls : Vec F S1x1x512 .f32) (xr : Vec F S1x512x1024 .bf16) (a0 : Vec F S1024x1024 .f32) :
    upd2 p i xt xs ls xr a0 = k2_pay2 i xt xs ls a0 xr := if_pos h
theorem upd2_neg {p : Prop} [Decidable p] (h : ¬p) (i : grid2.Coords) (xt : Vec F S1x1024x1024 .bf16) (xs : Vec F S1x512x1024 .bf16)
    (ls : Vec F S1x1x512 .f32) (xr : Vec F S1x512x1024 .bf16) (a0 : Vec F S1024x1024 .f32) :
    upd2 p i xt xs ls xr a0 = a0 := if_neg h
theorem fin2_pos {p : Prop} [Decidable p] (h : p) (a1 : Vec F S1024x1024 .f32) (x7 : Vec F S1x1024x1024 .f32) : fin2 p a1 x7 = k2_pay3 a1 := if_pos h
theorem fin2_neg {p : Prop} [Decidable p] (h : ¬p) (a1 : Vec F S1024x1024 .f32) (x7 : Vec F S1x1024x1024 .f32) : fin2 p a1 x7 = x7 := if_neg h

/-- The output block component is the final payload of the accumulator component, at every point. -/
theorem scAt2_fst (c : Dev nD) (t : Fin cfg2.N) : (scAt2 V c t.val t.isLt).1 = k2_pay3 (scAt2 V c t.val t.isLt).2 := by
  obtain ⟨n, hn⟩ := t
  cases n with
  | zero => rfl
  | succ n => rfl

/-- The accumulator after point `t` is one step from any contents `acc` that, after the first point, are what the point before left. -/
theorem scAt2_snd (c : Dev nD) (t : Fin cfg2.N) (acc : Vec F S1024x1024 .f32)
    (hacc : ∀ h : t.val ≠ 0, acc = (scAt2 V c (t.val - 1) (Nat.lt_of_le_of_lt (Nat.sub_le _ _) t.isLt)).2) :
    (scAt2 V c t.val t.isLt).2 = stepAcc2 V c t acc := by
  obtain ⟨n, hn⟩ := t
  cases n with
  | zero => show stepAcc2 V c ⟨0, hn⟩ k2_pay1 = stepAcc2 V c ⟨0, hn⟩ acc
            unfold stepAcc2; rw [rst2_pos (Nat.zero_mod 4), rst2_pos (Nat.zero_mod 4)]
  | succ n => rw [hacc (Nat.succ_ne_zero n)]; rfl

/-- At a first key block (`t ≡ 0 mod 4`): reset, then update. -/
theorem scAt2_reset (c : Dev nD) (t : Fin cfg2.N) (h0 : t.val % 4 = 0) :
    (scAt2 V c t.val t.isLt).2 = k2_pay2 (grid2.coords t) (iblk2 V c 0 t) (iblk2 V c 1 t) (iblk2 V c 2 t) k2_pay1 (iblk2 V c 3 t) := by
  have hN : t.val < 64 := lt_of_lt_of_eq t.isLt (show cfg2.N = 64 from N_2)
  obtain ⟨n, hn⟩ := t
  cases n with
  | zero => show stepAcc2 V c ⟨0, hn⟩ k2_pay1 = _
            unfold stepAcc2; rw [rst2_pos h0, upd2_pos (by dsimp only at h0 ⊢; omega)]
  | succ n => show stepAcc2 V c ⟨n + 1, hn⟩ _ = _
              unfold stepAcc2; rw [rst2_pos h0, upd2_pos (by dsimp only at h0 ⊢; omega)]

/-- At a later key block that starts before the end of the query tile: update of what the point before left. -/
theorem scAt2_update (c : Dev nD) (t : Fin cfg2.N) (h0 : t.val % 4 ≠ 0) (h1 : t.val % 4 < 2 * (t.val / 4 % 2 + 1)) :
    (scAt2 V c t.val t.isLt).2 = k2_pay2 (grid2.coords t) (iblk2 V c 0 t) (iblk2 V c 1 t) (iblk2 V c 2 t)
      (scAt2 V c (t.val - 1) (Nat.lt_of_le_of_lt (Nat.sub_le _ _) t.isLt)).2 (iblk2 V c 3 t) := by
  rw [scAt2_snd V c t _ (fun _ => rfl)]; unfold stepAcc2; rw [rst2_neg h0, upd2_pos h1]

/-- At a key block past the query tile: the accumulator is carried unchanged. -/
theorem scAt2_skip (c : Dev nD) (t : Fin cfg2.N) (h0 : t.val % 4 ≠ 0) (h1 : ¬t.val % 4 < 2 * (t.val / 4 % 2 + 1)) :
    (scAt2 V c t.val t.isLt).2 = (scAt2 V c (t.val - 1) (Nat.lt_of_le_of_lt (Nat.sub_le _ _) t.isLt)).2 := by
  rw [scAt2_snd V c t _ (fun _ => rfl)]; unfold stepAcc2; rw [rst2_neg h0, upd2_neg h1]

/-! ## The input windows hold their blocks at every point -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]
  rw [dat.before_in_eq_fetched 0 rfl (fun _ => rfl) (fun _ _ _ => rfl) hkeep t d]
  unfold Dat.fetched Dat.blockOf iblk2; rw [hA]; rfl

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]
  rw [dat.before_in_eq_fetched 1 rfl (fun _ => rfl) (fun _ _ _ => rfl) hkeep t d]
  unfold Dat.fetched Dat.blockOf iblk2; rw [hA]; rfl

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]
  rw [dat.before_in_eq_fetched 2 rfl (fun _ => rfl) (fun _ _ _ => rfl) hkeep t d]
  unfold Dat.fetched Dat.blockOf iblk2; rw [hA]; rfl

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]
  rw [dat.before_in_eq_fetched 3 rfl (fun _ => rfl) (fun _ _ _ => rfl) hkeep t d]
  unfold Dat.fetched Dat.blockOf iblk2; rw [hA]; rfl

/-! ## Where the output window is idle -/

theorem idleAt2_4 : ∀ t : Fin cfg2.N, ¬t.val % 4 = 3 → cfg2.idle 4 (grid2.coords t) = true :=
  (by decide +kernel : ∀ t : Fin grid2.N, ¬t.val % 4 = 3 → cfg2.idle 4 (grid2.coords t) = true)
theorem liveAt2_4 : ∀ t : Fin cfg2.N, t.val % 4 = 3 → cfg2.idle 4 (grid2.coords t) = false :=
  (by decide +kernel : ∀ t : Fin grid2.N, t.val % 4 = 3 → cfg2.idle 4 (grid2.coords t) = false)
theorem noFlush2_4 (t : Fin cfg2.N) (h : ¬t.val % 4 = 3) : (cfg2.win 4).flush t = false :=
  Bool.eq_false_iff.mpr fun hf => h ((flush2_4 t).mp hf)

/-! ## The accumulator and the rest of the scoped buffers -/

/-- The accumulator: the kernel's own scratch, whole. -/
abbrev scM2 : Memref sig .tc .vmem S1024x1024 .f32 := Memref.whole cc2_scratch0

/-- The scoped buffers that are no staging buffer of this call, with the accumulator split off. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers, each at anything. -/
abbrev restB2 (c : Dev nD) : sProp 𝕄 :=
  Pipeline.scopedRestBut (Ix := Unit) (Name := ℕ) (U := UR sig nD τ) (Lvl := ℕ) (Val := Elt F) spec2 c [cc2_scratch0]

/-- The region's entry invariant with the accumulator as a memref owned at some contents. -/
theorem PhiA2_eq (c : Dev nD) :
    (Pipeline.ΦA spec2 c : sProp 𝕄)
      = iprop(iprop((∃ d, owns (c : Thread nD τ) scM2 fullShare d) ∗ restB2 (F := F) c) ∗ (∃ r, prngReg c r)) := by
  unfold Pipeline.ΦA; rw [scopedRest2_split]; simp only [scM2, owns_whole]; try rfl

/-- The invariant before position `n`: before the first point the entry invariant; afterwards the accumulator at what the
    point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((scAt2 V c n hn).2) ∗ restB2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((scAt2 V c n hn).2) ∗ restB2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((scAt2 V c (n - 1) (by omega)).2) ∗ restB2 (F := F) c) ∗ (∃ r, prngReg c r)) := by
  cases n with
  | zero => exact absurd rfl hz
  | succ n => rfl

/-! ## The proof data -/

/-- The proof data of the accumulation region on core `c`: the arrays as the region finds them; after the body each input's
    buffer at its block and the output's at the final payload of the accumulator; the two windows on the projected
    array hold half of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (scAt2 V c t.val t.isLt).1
  Φ t := PhiS2 V c t.val (Nat.le_of_lt_succ t.isLt)
  q := (fun | 0 => fullShare.left | 1 => fullShare.right | 2 => fullShare | 3 => fullShare | 4 => fullShare
            | ⟨_ + 5, h⟩ => absurd h (Nat.not_lt.2 (Nat.le_add_left _ _)) : Fin 5 → PosShare TreeShare)
  owed _ := 0

theorem A_eq2 (c : Dev nD) (w : Fin cfg2.W) : (dat2 V c).A w = V c (Pipeline.arrRef spec2 w) := by
  dsimp only [dat2]

theorem q2_0 (c : Dev nD) : (dat2 V c).q 0 = fullShare.left := rfl
theorem q2_1 (c : Dev nD) : (dat2 V c).q 1 = fullShare.right := rfl
theorem q2_2 (c : Dev nD) : (dat2 V c).q 2 = fullShare := rfl
theorem q2_3 (c : Dev nD) : (dat2 V c).q 3 = fullShare := rfl
theorem q2_4 (c : Dev nD) : (dat2 V c).q 4 = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (scAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body at a point -/

/-- The body at point `t` on the point's staging memrefs and the accumulator: from the inputs at their blocks, the output's
    buffer at any contents `x7` and the accumulator at contents `acc` that, after the first point, are what the point
    before left, to the accumulator at this point's contents and the output's buffer at its final payload where the
    point stores it, else as it was. -/
theorem kernel_at2 (c : Dev nD) (t : Fin cfg2.N) (acc : Vec F S1024x1024 .f32)
    (hacc : ∀ h : t.val ≠ 0, acc = (scAt2 V c (t.val - 1) (Nat.lt_of_le_of_lt (Nat.sub_le _ _) t.isLt)).2)
    (x7 : Vec F S1x1024x1024 .f32) (K : PUnit → sProp 𝕄) :
    iprop(owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare x7 ∗ owns (c : Thread nD τ) scM2 fullShare acc
        ∗ (iprop(owns (c : Thread nD τ) (st2_0 t) fullShare (iblk2 V c 0 t) ∗ owns (c : Thread nD τ) (st2_1 t) fullShare (iblk2 V c 1 t)
            ∗ owns (c : Thread nD τ) (st2_2 t) fullShare (iblk2 V c 2 t) ∗ owns (c : Thread nD τ) (st2_3 t) fullShare (iblk2 V c 3 t)
            ∗ owns (c : Thread nD τ) (st2_4 t) fullShare (fin2 (t.val % 4 = 3) (scAt2 V c t.val t.isLt).2 x7)
            ∗ owns (c : Thread nD τ) scM2 fullShare (scAt2 V c t.val t.isLt).2) -∗ K ⟨⟩))
      ⊢ wp frame (wpE (defs₀ (F := F)) Variants.none c none) Set.univ (bodyAt2 t) K := by
  rw [scAt2_snd V c t acc hacc]; unfold stepAcc2
  exact sound_kernel2 c Set.univ (grid2.coords t) _ _ _ _ _ _ _ _ _ _ _ _ (t.val % 4 = 0) (t.val % 4 < 2 * (t.val / 4 % 2 + 1)) (t.val % 4 = 3)
    (hcond2_0 t) (hcond2_1 t) (hcond2_2 t) (iblk2 V c 0 t) (iblk2 V c 1 t) (iblk2 V c 2 t) (iblk2 V c 3 t) x7 acc K

/-- At a point that stores the output block. -/
theorem kernel_at2_live (c : Dev nD) (t : Fin cfg2.N) (h2 : t.val % 4 = 3) (acc : Vec F S1024x1024 .f32)
    (hacc : ∀ h : t.val ≠ 0, acc = (scAt2 V c (t.val - 1) (Nat.lt_of_le_of_lt (Nat.sub_le _ _) t.isLt)).2)
    (x7 : Vec F S1x1024x1024 .f32) (K : PUnit → sProp 𝕄) :
    iprop(owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare x7 ∗ owns (c : Thread nD τ) scM2 fullShare acc
        ∗ (iprop(owns (c : Thread nD τ) (st2_0 t) fullShare (iblk2 V c 0 t) ∗ owns (c : Thread nD τ) (st2_1 t) fullShare (iblk2 V c 1 t)
            ∗ owns (c : Thread nD τ) (st2_2 t) fullShare (iblk2 V c 2 t) ∗ owns (c : Thread nD τ) (st2_3 t) fullShare (iblk2 V c 3 t)
            ∗ owns (c : Thread nD τ) (st2_4 t) fullShare (scAt2 V c t.val t.isLt).1
            ∗ owns (c : Thread nD τ) scM2 fullShare (scAt2 V c t.val t.isLt).2) -∗ K ⟨⟩))
      ⊢ wp frame (wpE (defs₀ (F := F)) Variants.none c none) Set.univ (bodyAt2 t) K := by
  have h := kernel_at2 V c t acc hacc x7 K
  rw [fin2_pos h2, ← scAt2_fst V c t] at h
  exact h

/-- At a point that leaves the output's buffer alone. -/
theorem kernel_at2_idle (c : Dev nD) (t : Fin cfg2.N) (h2 : ¬t.val % 4 = 3) (acc : Vec F S1024x1024 .f32)
    (hacc : ∀ h : t.val ≠ 0, acc = (scAt2 V c (t.val - 1) (Nat.lt_of_le_of_lt (Nat.sub_le _ _) t.isLt)).2)
    (x7 : Vec F S1x1024x1024 .f32) (K : PUnit → sProp 𝕄) :
    iprop(owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare x7 ∗ owns (c : Thread nD τ) scM2 fullShare acc
        ∗ (iprop(owns (c : Thread nD τ) (st2_0 t) fullShare (iblk2 V c 0 t) ∗ owns (c : Thread nD τ) (st2_1 t) fullShare (iblk2 V c 1 t)
            ∗ owns (c : Thread nD τ) (st2_2 t) fullShare (iblk2 V c 2 t) ∗ owns (c : Thread nD τ) (st2_3 t) fullShare (iblk2 V c 3 t)
            ∗ owns (c : Thread nD τ) (st2_4 t) fullShare x7
            ∗ owns (c : Thread nD τ) scM2 fullShare (scAt2 V c t.val t.isLt).2) -∗ K ⟨⟩))
      ⊢ wp frame (wpE (defs₀ (F := F)) Variants.none c none) Set.univ (bodyAt2 t) K := by
  have h := kernel_at2 V c t acc hacc x7 K
  rw [fin2_neg h2] at h
  exact h

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  rw [← after2_0 V c t]
theorem leaves2_1 (c : Dev nD) (t : Fin cfg2.N) :
    (dat2 V c).leavesExact 1 t = owns (c : Thread nD τ) (st2_1 t) fullShare (iblk2 V c 1 t) := by
  rw [← after2_1 V c t]
theorem leaves2_2 (c : Dev nD) (t : Fin cfg2.N) :
    (dat2 V c).leavesExact 2 t = owns (c : Thread nD τ) (st2_2 t) fullShare (iblk2 V c 2 t) := by
  rw [← after2_2 V c t]
theorem leaves2_3 (c : Dev nD) (t : Fin cfg2.N) :
    (dat2 V c).leavesExact 3 t = owns (c : Thread nD τ) (st2_3 t) fullShare (iblk2 V c 3 t) := by
  rw [← after2_3 V c t]
theorem leaves2_4_live (c : Dev nD) (t : Fin cfg2.N) (h2 : t.val % 4 = 3) :
    (dat2 V c).leavesExact 4 t = owns (c : Thread nD τ) (st2_4 t) fullShare (scAt2 V c t.val t.isLt).1 := by
  unfold Dat.leavesExact; rw [liveAt2_4 t h2, after2_4]
theorem leaves2_4_idle (c : Dev nD) (t : Fin cfg2.N) (h2 : ¬t.val % 4 = 3) :
    (dat2 V c).leavesExact 4 t = iprop(∃ d, owns (c : Thread nD τ) (st2_4 t) fullShare ((dat2 V c).before 4 t d)) :=
  Dat.leavesExact_idle (dat2 V c) 4 t (idleAt2_4 t h2) (noFlush2_4 t h2)

set_option maxHeartbeats 4000000 in
/-- The body at any point: the inputs' memrefs hold their blocks; the invariant hands the body the accumulator at what the
    point before left (at anything at the first point, where the body resets it) and takes it back at this point's
    contents; the output's buffer comes back at the final payload where the point stores it, else as it was handed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 64 := lt_of_lt_of_eq t.isLt (show cfg2.N = 64 from N_2)
  by_cases h2 : t.val % 4 = 3
  · have hz : t.val ≠ 0 := by omega
    rw [leaves2_4_live V c t h2, PhiS2_castSucc V c t, PhiS2_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (kernel_at2_live V c t h2 _ (fun _ => rfl) ((dat2 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [leaves2_4_idle V c t h2]
    by_cases hz : t.val = 0
    · rw [PhiS2_castSucc V c t, PhiS2_zero V c _ _ hz, PhiA2_eq]
      iintro ⟨⟨⟨⟨%a, HS⟩, HR⟩, Hg⟩, Ho, ⟨%d0, H0⟩, ⟨%d1, H1⟩, ⟨%d2, H2⟩, ⟨%d3, H3⟩, ⟨%d4, H4⟩⟩
      iapply (kernel_at2_idle V c t h2 a (fun h => absurd hz h) ((dat2 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (kernel_at2_idle V c t h2 _ (fun _ => rfl) ((dat2 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitl [HS HR]
  · isplitl [HS]
    · iexists _; iexact HS
    iexact HR
  iexact Hg

end Cert.Kernel.Hand

end
-- ==== Proof.K.Run.lean ====
import proofs.«407224_j18210661335624_3_alg».proof.Proof.K.Reg0
import proofs.«407224_j18210661335624_3_alg».proof.Proof.K.Reg1
import proofs.«407224_j18210661335624_3_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole program as a run: the two host operations, then the three kernel calls, each entered from what the
  one before left in the core's buffers.

  The buffers' contents at the four boundaries are named `W1 … W4`.  A call's result arrays end at what its
  write-backs leave (`Dat.arrAt`), every other buffer as the call found it.  The statistics and the accumulation
  kernels read the projected activations through TWO windows each; the array is then held at two half shares,
  one per window, split at the call's entry and rejoined at its exit.  No call writes an argument array, so the
  three arguments end as launched; the last boundary's contents of the result array are what the value theorems
  of the three calls describe.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Facts
variable (V : (c : Dev nD) → (b : Ref sig .tc) → Buf (Elt F) ((c : Thread nD τ).loc b))
theorem dat0_owed (c : Dev nD) (t) : (dat0 V c).owed t = 0 := rfl
theorem dat0_q (c : Dev nD) (w) : (dat0 V c).q w = fullShare := rfl
theorem dat1_owed (c : Dev nD) (t) : (dat1 V c).owed t = 0 := rfl
theorem dat1_rec (c : Dev nD) (t) : (dat1 V c).recorded t = Set.univ := rfl
theorem dat2_owed (c : Dev nD) (t) : (dat2 V c).owed t = 0 := rfl
theorem dat2_rec (c : Dev nD) (t) : (dat2 V c).recorded t = Set.univ := rfl
end Facts

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the two host operations (the bias as a row, the weights' change of format). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection: its two result arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the statistics kernel: `main_v3` at what its write-backs leave, every other buffer as entered. -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
/-- After the accumulation kernel: `main_v4` at what its write-backs leave, every other buffer as entered. -/
def W4 (c : Dev nD) : Valuation τ sig (Elt F) :=
  Function.update (W3 m ρ c) (Proc.devRef .tc main_v4) ((dat2 (V3 m ρ) c).arrAt 4 cfg2.N)
abbrev V4 : (c : Dev nD) → (b : Ref sig .tc) → Buf (Elt F) ((c : Thread nD τ).loc b) := fun c b => W4 m ρ c b
theorem W4_v4 (c : Dev nD) : W4 m ρ c (Proc.devRef .tc main_v4) = (dat2 (V3 m ρ) c).arrAt 4 cfg2.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The projection as a segment -/

set_option backward.isDefEq.respectTransparency.types false in
/-- The projection over the thread state: entered from every unscoped buffer at `W1`, left at `W2`. Its arrays are
    distinct buffers, split out of the unscoped buffers and put back at the exit contents; the generator register
    goes into the invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => dat0_owed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => dat0_q (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from dat0_owed (V1 m ρ) c 0]
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => dat0_q (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from dat0_owed (V1 m ρ) c _]
    icases HO with ⟨%W, -, HO⟩; iexists W; iexact HO

/-! ## One array read through two windows: each window holds half of it -/

/-- The two buffers the statistics kernel's windows stand on. -/
abbrev T1 : Finset (DevRef τ sig) := {Proc.devRef .tc main_v2_0, Proc.devRef .tc main_v3}

theorem T1_sub : T1 ⊆ Pipeline.ucRefs τ sig := by
  intro b hb
  rcases Finset.mem_insert.mp hb with rfl | hb
  · exact mem_uc main_v2_0 (by decide)
  · rw [Finset.mem_singleton.mp hb]; exact mem_uc main_v3 (by decide)

/-- The statistics kernel's arrays: the projected activations at a half share for each of the two windows that
    read them, the result array whole. -/
theorem arrays1_eq (c : Dev nD) (dat : Dat τ (Elt F) Unit ℕ (UR sig nD τ) ℕ cfg1 c)
    (h0 : dat.q 0 = fullShare.left) (h1 : dat.q 1 = fullShare.right)
    (Fw : (w : Fin cfg1.W) → Buf (Elt F) ((cfg1.win w).arr.view.loc (c : Thread nD τ))) :
    (dat.arrays Fw : sProp 𝕄)
      = iprop((((c : Thread nD τ).loc main_v2_0) ↦{fullShare.left} Fw 0) ∗ (((c : Thread nD τ).loc main_v2_0) ↦{fullShare.right} Fw 1)
          ∗ (((c : Thread nD τ).loc main_v3) ↦{fullShare} Fw 2)) := by
  have s0 : dat.share 0 = fullShare.left := by unfold Dat.share; rw [if_neg (by decide)]; exact h0
  have s1 : dat.share 1 = fullShare.right := by unfold Dat.share; rw [if_neg (by decide)]; exact h1
  have s2 : dat.share 2 = fullShare := by unfold Dat.share; rw [if_pos (by decide)]
  unfold Dat.arrays
  rw [bigSep_W1, (arr_whole1 0).set_eq_univ, (arr_whole1 2).set_eq_univ, s0, s1, s2]

theorem held_T1 (c : Dev nD) (W : Valuation τ sig (Elt F)) :
    (StableHlo.held (c : Thread nD τ) T1 W : sProp 𝕄)
      = iprop((((c : Thread nD τ).1, Proc.devRef .tc main_v2_0) ↦{fullShare} W (Proc.devRef .tc main_v2_0))
          ∗ (((c : Thread nD τ).1, Proc.devRef .tc main_v3) ↦{fullShare} W (Proc.devRef .tc main_v3))) := by
  unfold StableHlo.held
  rw [show T1 = insert (Proc.devRef .tc main_v2_0) {Proc.devRef .tc main_v3} from rfl,
    BI.bigSep_insert (by decide), BI.bigSep_singleton]
  rfl

/-- ENTRY of the statistics kernel: its arrays out of the unscoped buffers, the projected activations split into
    the two half shares its two reading windows hold. -/
theorem entry1 (c : Dev nD) :
    (StableHlo.held (c : Thread nD τ) (Pipeline.ucRefs τ sig) (W2 m ρ c) : sProp 𝕄)
      ⊢ iprop((dat1 (V2 m ρ) c).arrays ((dat1 (V2 m ρ) c).arrAt · 0)
          ∗ StableHlo.held (c : Thread nD τ) (Pipeline.ucRefs τ sig \ T1) (W2 m ρ c)) := by
  rw [arrays1_eq c (dat1 (V2 m ρ) c) (q1_0 (V2 m ρ) c) (q1_1 (V2 m ρ) c), StableHlo.held_sub_split (c : Thread nD τ) T1_sub (W2 m ρ c), held_T1]
  have e0 : (dat1 (V2 m ρ) c).arrAt 0 0 = W2 m ρ c (Proc.devRef .tc main_v2_0) := A_eq1 (V2 m ρ) c 0
  have e1 : (dat1 (V2 m ρ) c).arrAt 1 0 = W2 m ρ c (Proc.devRef .tc main_v2_0) := A_eq1 (V2 m ρ) c 1
  have e2 : (dat1 (V2 m ρ) c).arrAt 2 0 = W2 m ρ c (Proc.devRef .tc main_v3) := A_eq1 (V2 m ρ) c 2
  rw [e0, e1, e2]
  iintro ⟨⟨Ha, Hb⟩, Hrest⟩
  ihave Ha' := (pointsTo_share (PosShare.mem_left_op_right fullShare)).1 $$ Ha
  icases Ha' with ⟨Hl, Hr⟩
  isplitr [Hrest]
  · isplitl [Hl]; · iexact Hl
    isplitl [Hr]; · iexact Hr
    iexact Hb
  iexact Hrest

/-- EXIT of the statistics kernel: the two halves of the projected activations rejoined, the result array at what
    the write-backs left; every other buffer as entered. -/
theorem exit1 (c : Dev nD) :
    iprop((dat1 (V2 m ρ) c).arrays ((dat1 (V2 m ρ) c).arrAt · cfg1.N)
        ∗ StableHlo.held (c : Thread nD τ) (Pipeline.ucRefs τ sig \ T1) (W2 m ρ c))
      ⊢ (StableHlo.held (c : Thread nD τ) (Pipeline.ucRefs τ sig) (W3 m ρ c) : sProp 𝕄) := by
  rw [arrays1_eq c (dat1 (V2 m ρ) c) (q1_0 (V2 m ρ) c) (q1_1 (V2 m ρ) c), StableHlo.held_sub_split (c : Thread nD τ) T1_sub (W3 m ρ c), held_T1]
  have e0 : (dat1 (V2 m ρ) c).arrAt 0 cfg1.N = W3 m ρ c (Proc.devRef .tc main_v2_0) :=
    (((dat1 (V2 m ρ) c).arrAt_in 0 rfl _).trans (A_eq1 (V2 m ρ) c 0)).trans (W3_of_ne m ρ c main_v2_0 (by decide)).symm
  have e1 : (dat1 (V2 m ρ) c).arrAt 1 cfg1.N = W3 m ρ c (Proc.devRef .tc main_v2_0) :=
    (((dat1 (V2 m ρ) c).arrAt_in 1 rfl _).trans (A_eq1 (V2 m ρ) c 1)).trans (W3_of_ne m ρ c main_v2_0 (by decide)).symm
  have e2 : (dat1 (V2 m ρ) c).arrAt 2 cfg1.N = W3 m ρ c (Proc.devRef .tc main_v3) := (W3_v3 m ρ c).symm
  rw [e0, e1, e2]
  have hrest : (StableHlo.held (c : Thread nD τ) (Pipeline.ucRefs τ sig \ T1) (W3 m ρ c) : sProp 𝕄)
      = StableHlo.held (c : Thread nD τ) (Pipeline.ucRefs τ sig \ T1) (W2 m ρ c) := by
    unfold StableHlo.held
    refine BI.bigSep_congr fun b hb => ?_
    have hb' : b ≠ Proc.devRef .tc main_v3 := fun h => (Finset.mem_sdiff.mp hb).2 (by rw [h]; exact Finset.mem_insert_of_mem (Finset.mem_singleton_self _))
    unfold W3; rw [Function.update_of_ne hb']
  rw [hrest]
  iintro ⟨⟨Hl, Hr, Hb⟩, Hrest⟩
  isplitr [Hrest]
  · isplitr [Hb]
    · iapply (pointsTo_share (PosShare.mem_left_op_right fullShare)).2
      isplitl [Hl]; · iexact Hl
      iexact Hr
    iexact Hb
  iexact Hrest

/-! ## The statistics kernel as a segment -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun c t => dat1_owed (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := StableHlo.held (c : Thread nD τ) (Pipeline.ucRefs τ sig \ T1) (W2 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from dat1_owed (V2 m ρ) c 0]
      icases HO with ⟨%W, HO⟩; iexists W; isplitr; · ipureintro; exact fun _ _ => Or.inl (dat1_rec (V2 m ρ) c 0 ▸ trivial)
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    rw [show (pdats m ρ 1 c).owed (Fin.last _) = 0 from dat1_owed (V2 m ρ) c _]
    icases HO with ⟨%W, -, HO⟩; iexists W; iexact HO

/-! ## The accumulation kernel: again two windows on the projected activations -/

/-- The four buffers the accumulation kernel's windows stand on. -/
abbrev T2 : Finset (DevRef τ sig) :=
  {Proc.devRef .tc main_v2_0, Proc.devRef .tc main_v3, Proc.devRef .tc main_v2_1, Proc.devRef .tc main_v4}

theorem T2_sub : T2 ⊆ Pipeline.ucRefs τ sig := by
  intro b hb
  rcases Finset.mem_insert.mp hb with rfl | hb
  · exact mem_uc main_v2_0 (by decide)
  rcases Finset.mem_insert.mp hb with rfl | hb
  · exact mem_uc main_v3 (by decide)
  rcases Finset.mem_insert.mp hb with rfl | hb
  · exact mem_uc main_v2_1 (by decide)
  · rw [Finset.mem_singleton.mp hb]; exact mem_uc main_v4 (by decide)

theorem arrays2_eq (c : Dev nD) (dat : Dat τ (Elt F) Unit ℕ (UR sig nD τ) ℕ cfg2 c)
    (h0 : dat.q 0 = fullShare.left) (h1 : dat.q 1 = fullShare.right) (h2 : dat.q 2 = fullShare) (h3 : dat.q 3 = fullShare)
    (Fw : (w : Fin cfg2.W) → Buf (Elt F) ((cfg2.win w).arr.view.loc (c : Thread nD τ))) :
    (dat.arrays Fw : sProp 𝕄)
      = iprop((((c : Thread nD τ).loc main_v2_0) ↦{fullShare.left} Fw 0) ∗ (((c : Thread nD τ).loc main_v2_0) ↦{fullShare.right} Fw 1)
          ∗ (((c : Thread nD τ).loc main_v3) ↦{fullShare} Fw 2) ∗ (((c : Thread nD τ).loc main_v2_1) ↦{fullShare} Fw 3)
          ∗ (((c : Thread nD τ).loc main_v4) ↦{fullShare} Fw 4)) := by
  have s0 : dat.share 0 = fullShare.left := by unfold Dat.share; rw [if_neg (by decide)]; exact h0
  have s1 : dat.share 1 = fullShare.right := by unfold Dat.share; rw [if_neg (by decide)]; exact h1
  have s2 : dat.share 2 = fullShare := by unfold Dat.share; rw [if_neg (by decide)]; exact h2
  have s3 : dat.share 3 = fullShare := by unfold Dat.share; rw [if_neg (by decide)]; exact h3
  have s4 : dat.share 4 = fullShare := by unfold Dat.share; rw [if_pos (by decide)]
  unfold Dat.arrays
  rw [bigSep_W2, (arr_whole2 0).set_eq_univ, (arr_whole2 2).set_eq_univ, (arr_whole2 3).set_eq_univ, (arr_whole2 4).set_eq_univ, s0, s1, s2, s3, s4]

theorem held_T2 (c : Dev nD) (W : Valuation τ sig (Elt F)) :
    (StableHlo.held (c : Thread nD τ) T2 W : sProp 𝕄)
      = iprop((((c : Thread nD τ).1, Proc.devRef .tc main_v2_0) ↦{fullShare} W (Proc.devRef .tc main_v2_0))
          ∗ (((c : Thread nD τ).1, Proc.devRef .tc main_v3) ↦{fullShare} W (Proc.devRef .tc main_v3))
          ∗ (((c : Thread nD τ).1, Proc.devRef .tc main_v2_1) ↦{fullShare} W (Proc.devRef .tc main_v2_1))
          ∗ (((c : Thread nD τ).1, Proc.devRef .tc main_v4) ↦{fullShare} W (Proc.devRef .tc main_v4))) := by
  unfold StableHlo.held
  rw [show T2 = insert (Proc.devRef .tc main_v2_0) (insert (Proc.devRef .tc main_v3) (insert (Proc.devRef .tc main_v2_1) {Proc.devRef .tc main_v4})) from rfl,
    BI.bigSep_insert (by decide), BI.bigSep_insert (by decide), BI.bigSep_insert (by decide), BI.bigSep_singleton]
  rfl

theorem entry2 (c : Dev nD) :
    (StableHlo.held (c : Thread nD τ) (Pipeline.ucRefs τ sig) (W3 m ρ c) : sProp 𝕄)
      ⊢ iprop((dat2 (V3 m ρ) c).arrays ((dat2 (V3 m ρ) c).arrAt · 0)
          ∗ StableHlo.held (c : Thread nD τ) (Pipeline.ucRefs τ sig \ T2) (W3 m ρ c)) := by
  rw [arrays2_eq c (dat2 (V3 m ρ) c) (q2_0 (V3 m ρ) c) (q2_1 (V3 m ρ) c) (q2_2 (V3 m ρ) c) (q2_3 (V3 m ρ) c),
    StableHlo.held_sub_split (c : Thread nD τ) T2_sub (W3 m ρ c), held_T2]
  have e0 : (dat2 (V3 m ρ) c).arrAt 0 0 = W3 m ρ c (Proc.devRef .tc main_v2_0) := A_eq2 (V3 m ρ) c 0
  have e1 : (dat2 (V3 m ρ) c).arrAt 1 0 = W3 m ρ c (Proc.devRef .tc main_v2_0) := A_eq2 (V3 m ρ) c 1
  have e2 : (dat2 (V3 m ρ) c).arrAt 2 0 = W3 m ρ c (Proc.devRef .tc main_v3) := A_eq2 (V3 m ρ) c 2
  have e3 : (dat2 (V3 m ρ) c).arrAt 3 0 = W3 m ρ c (Proc.devRef .tc main_v2_1) := A_eq2 (V3 m ρ) c 3
  have e4 : (dat2 (V3 m ρ) c).arrAt 4 0 = W3 m ρ c (Proc.devRef .tc main_v4) := A_eq2 (V3 m ρ) c 4
  rw [e0, e1, e2, e3, e4]
  iintro ⟨⟨Ha, Hb, Hc, Hd⟩, Hrest⟩
  ihave Ha' := (pointsTo_share (PosShare.mem_left_op_right fullShare)).1 $$ Ha
  icases Ha' with ⟨Hl, Hr⟩
  isplitr [Hrest]
  · isplitl [Hl]; · iexact Hl
    isplitl [Hr]; · iexact Hr
    isplitl [Hb]; · iexact Hb
    isplitl [Hc]; · iexact Hc
    iexact Hd
  iexact Hrest

theorem exit2 (c : Dev nD) :
    iprop((dat2 (V3 m ρ) c).arrays ((dat2 (V3 m ρ) c).arrAt · cfg2.N)
        ∗ StableHlo.held (c : Thread nD τ) (Pipeline.ucRefs τ sig \ T2) (W3 m ρ c))
      ⊢ (StableHlo.held (c : Thread nD τ) (Pipeline.ucRefs τ sig) (W4 m ρ c) : sProp 𝕄) := by
  rw [arrays2_eq c (dat2 (V3 m ρ) c) (q2_0 (V3 m ρ) c) (q2_1 (V3 m ρ) c) (q2_2 (V3 m ρ) c) (q2_3 (V3 m ρ) c),
    StableHlo.held_sub_split (c : Thread nD τ) T2_sub (W4 m ρ c), held_T2]
  have e0 : (dat2 (V3 m ρ) c).arrAt 0 cfg2.N = W4 m ρ c (Proc.devRef .tc main_v2_0) :=
    (((dat2 (V3 m ρ) c).arrAt_in 0 rfl _).trans (A_eq2 (V3 m ρ) c 0)).trans (W4_of_ne m ρ c main_v2_0 (by decide)).symm
  have e1 : (dat2 (V3 m ρ) c).arrAt 1 cfg2.N = W4 m ρ c (Proc.devRef .tc main_v2_0) :=
    (((dat2 (V3 m ρ) c).arrAt_in 1 rfl _).trans (A_eq2 (V3 m ρ) c 1)).trans (W4_of_ne m ρ c main_v2_0 (by decide)).symm
  have e2 : (dat2 (V3 m ρ) c).arrAt 2 cfg2.N = W4 m ρ c (Proc.devRef .tc main_v3) :=
    (((dat2 (V3 m ρ) c).arrAt_in 2 rfl _).trans (A_eq2 (V3 m ρ) c 2)).trans (W4_of_ne m ρ c main_v3 (by decide)).symm
  have e3 : (dat2 (V3 m ρ) c).arrAt 3 cfg2.N = W4 m ρ c (Proc.devRef .tc main_v2_1) :=
    (((dat2 (V3 m ρ) c).arrAt_in 3 rfl _).trans (A_eq2 (V3 m ρ) c 3)).trans (W4_of_ne m ρ c main_v2_1 (by decide)).symm
  have e4 : (dat2 (V3 m ρ) c).arrAt 4 cfg2.N = W4 m ρ c (Proc.devRef .tc main_v4) := (W4_v4 m ρ c).symm
  rw [e0, e1, e2, e3, e4]
  have hrest : (StableHlo.held (c : Thread nD τ) (Pipeline.ucRefs τ sig \ T2) (W4 m ρ c) : sProp 𝕄)
      = StableHlo.held (c : Thread nD τ) (Pipeline.ucRefs τ sig \ T2) (W3 m ρ c) := by
    unfold StableHlo.held
    refine BI.bigSep_congr fun b hb => ?_
    have hb' : b ≠ Proc.devRef .tc main_v4 := fun h => (Finset.mem_sdiff.mp hb).2 (by rw [h]; decide)
    unfold W4; rw [Function.update_of_ne hb']
  rw [hrest]
  iintro ⟨⟨Hl, Hr, Hb, Hc, Hd⟩, Hrest⟩
  isplitr [Hrest]
  · isplitl [Hl Hr]
    · iapply (pointsTo_share (PosShare.mem_left_op_right fullShare)).2
      isplitl [Hl]; · iexact Hl
      iexact Hr
    isplitl [Hb]; · iexact Hb
    isplitl [Hc]; · iexact Hc
    iexact Hd
  iexact Hrest

/-! ## The accumulation kernel as a segment -/

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun c t => dat2_owed (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := StableHlo.held (c : Thread nD τ) (Pipeline.ucRefs τ sig \ T2) (W3 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from dat2_owed (V3 m ρ) c 0]
      icases HO with ⟨%W, HO⟩; iexists W; isplitr; · ipureintro; exact fun _ _ => Or.inl (dat2_rec (V3 m ρ) c 0 ▸ trivial)
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m ρ c)
        isplitl [Ha]; · iexact Ha
        iexact Hrest
      iexact HY
    unfold Pipeline.Dat.owesAt Pipeline.owesWithin
    rw [show (pdats m ρ 2 c).owed (Fin.last _) = 0 from dat2_owed (V3 m ρ) c _]
    icases HO with ⟨%W, -, HO⟩; iexists W; iexact HO

/-! ## @main as segments, and the launch -/

/-- @main's four segments in order: the host stretch, then the three kernel calls. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final state holds each unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last boundary holds -/

/-- No host operation and no kernel call writes an argument: it ends as launched. -/
theorem W1_of_not_written (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_written m ρ c main_arg0 (by decide) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide)
    _ = m ((c : Thread nD τ).loc main_arg2) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.Kernel.Hand

end
-- ==== Proof.KI.Reg0.lean ====
import proofs.«407224_j18210661335624_3_alg».proof.Proof.Gen.KernelIdeal.Launch
import proofs.«407224_j18210661335624_3_alg».proof.Proof.Gen.KernelIdeal.Skeleton
import proofs.«407224_j18210661335624_3_alg».proof.Proof.Gen.KernelIdeal.Points
import Idealize.ShloMosaic.Lib.Pipeline.FrameBody
import Idealize.ShloMosaic.Lib.Tactic

/-!
  The projection call (the first of the program's three kernel calls), at the buffer contents `V` the call is
  entered with.

  Its grid is 8 x 2; at the point (i, j) it reads the block (i, j, ·) of the activations (1 x 1024 x 1024),
  the whole weight matrix and the whole bias row, and writes the block (i, j, ·) of both of its results:
  the projected block, and the input block rounded to the narrow type.  Each result buffer is stored
  whole, so what the body leaves in it is a function of the three blocks read.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the core's buffer contents when the call is entered
variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is
    not fetched its block index has not moved), for any proof data whose array is `V`'s and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S1x1024x1024 := Rect.unit (s := S1x1024x1024) ![0, 0, 0] S1x1024x1024.size inb_S1x1024x1024_S1x1024x1024_0_0_0
abbrev rB0 : Rect S1024x1024 := Rect.unit (s := S1024x1024) ![0, 0] S1024x1024.size inb_S1024x1024_S1024x1024_0_0
abbrev rC0 : Rect S1x1024 := Rect.unit (s := S1x1024) ![0, 0] S1x1024.size inb_S1x1024_S1x1024_0_0

/-! ## What the body leaves in each result's buffer -/

/-- The projected block's buffer after the body: one whole store of the projection of the three blocks read. -/
def out0_3 (x0 : Vec F S1x1024x1024 .f32) (x1 : Vec F S1024x1024 .bf16) (x2 : Vec F S1x1024 .f32) : Vec F S1x1024x1024 .bf16 :=
  View.canon [⟨rA0, k0_pay2 (View.ld x0 rA0) (View.ld x1 rB0) (View.ld x2 rC0)⟩]

/-- The rounded input block's buffer after the body: one whole store. -/
def out0_4 (x0 : Vec F S1x1024x1024 .f32) : Vec F S1x1024x1024 .bf16 :=
  View.canon [⟨rA0, k0_pay3 (View.ld x0 rA0)⟩]

/-- The one store covers the buffer. -/
theorem cover0_3 (p0 : Vec F S1x1024x1024 .bf16) (y : S1x1024x1024.Idx) :
    ∃ pc ∈ ([⟨rA0, p0⟩] : List (View.Piece (Elt F) S1x1024x1024 .bf16)), y ∈ pc.1.set :=
  View.cover_of_tiled [⟨rA0, p0⟩] S1x1024x1024.size (by rfl) y

/-! ## The body's triple -/

set_option maxHeartbeats 1000000 in
/-- The body on whole staging memrefs, the three inputs' at read contents and the two results' at anything, runs to
    the continuation holding the inputs' as they were and each result's at `out0_3` / `out0_4` of the inputs'. -/
theorem sound_kernel0 (c : Dev nD) (E : Set ℕ) (i : grid0.Coords)
    (arg0 : Memref sig .tc .vmem S1x1024x1024 .f32) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1x1024x1024 .bf16) (harg3 : arg3.IsWhole)
    (arg4 : Memref sig .tc .vmem S1x1024x1024 .bf16) (harg4 : arg4.IsWhole)
    (x0 : Vec F S1x1024x1024 .f32) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2) ∗ owns (c : Thread nD τ) arg4 fullShare (out0_4 x0)) -∗ K ⟨⟩))
      ⊢ wp frame (wpE (defs₀ (F := F)) Variants.none c none) E (cc0__proj_kernel i arg0 harg0 arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  · iexists _; isplitr
    swap; · iexact H4
    ipureintro
    exact View.read_writes_eq_canon _ _ _ (cover0_3 _)

/-! ## The call's proof data -/

/-- The proof data of the projection call on core `c`: the arrays as the call finds them; after the body at point
    `t` each input's buffer at its block and each result's at `out0_3` / `out0_4` of the input blocks; the
    invariant says the rest of the core's memory is untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Entering the call, the invariant is the class's own. -/
theorem hin0 (c : Dev nD) : Pipeline.ΦA spec0 c ⊢ (dat0 V c).Φ 0 := .rfl

/-- Leaving it, likewise. -/
theorem hout0 (c : Dev nD) : (dat0 V c).Φ (Fin.last cfg0.N) ⊢ Pipeline.ΦA spec0 c := .rfl

end Region0

end Cert.KernelIdeal.Hand

end
-- ==== Proof.KI.Reg1Step.lean ====
import proofs.«407224_j18210661335624_3_alg».proof.Proof.Gen.KernelIdeal.Launch
import proofs.«407224_j18210661335624_3_alg».proof.Proof.Gen.KernelIdeal.Skeleton
import proofs.«407224_j18210661335624_3_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1 (the column statistics): what the points leave, as a recursion over the grid

The grid is (b, qi, ki) with ki fastest: point `n` has ki = n % 2 and qi = (n / 2) % 2, so n % 4 tells the
control case. The running column maximum `m` and the running sum `l` of shifted exponentials are carried
from point to point; the statistic block is stored at the points with ki = 1. -/

section Region1

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The statistic block, the running maximum and the running sum after a point. -/
abbrev St1 (F : FTy → Type) : Type := Vec F S1x1x1024 .f32 × Vec F S1x1024 .f32 × Vec F S1x1024 .f32

/-- One update of the running maximum and sum by a key block: from (m, l) to
    (max m (column maxima of the masked scores), exp (m − m') · l + column sums of exp (scores − m')). -/
def upd1 (a1 a2 : BitVec 32) (xs xt : Vec F S1x1024x1024 .bf16) (m l : Vec F S1x1024 .f32) : Vec F S1x1024 .f32 × Vec F S1x1024 .f32 :=
  (k1_pay3 (k1_pay6 a1 a2 xs xt m), k1_pay7 a1 a2 xs xt m m l)

/-- The statistic m + log l beside the pair it is computed from. -/
def fin1 (p : Vec F S1x1024 .f32 × Vec F S1x1024 .f32) : St1 F := (k1_pay4 p.1 p.2, p.1, p.2)

/-- What point `k` leaves, from the two blocks it reads and the pair (m, l) it finds:
    k % 4 = 0 (qi = 0, ki = 0): reset to (−∞, 0), then one update;
    k % 4 = 2 (qi = 1, ki = 0): reset only (the key block lies wholly above the diagonal);
    k % 4 = 1, 3 (ki = 1): one update of what the point before left, and the statistic is stored. -/
def pt1 (k : ℕ) (xs xt : Vec F S1x1024x1024 .bf16) (m l : Vec F S1x1024 .f32) : St1 F :=
  if k % 4 = 0 then fin1 (upd1 0#32 0#32 xs xt k1_pay1 k1_pay2)
  else if k % 4 = 2 then fin1 (k1_pay1, k1_pay2)
  else if k % 4 = 1 then fin1 (upd1 0#32 1#32 xs xt m l)
  else fin1 (upd1 1#32 1#32 xs xt m l)

/-- THE ACCUMULATION: the statistic block and the carried pair after point `n`. -/
def scAt1 (c : Dev nD) : (n : ℕ) → n < cfg1.N → St1 F
  | 0, hn => pt1 0 (iblk1 V c 0 ⟨0, hn⟩) (iblk1 V c 1 ⟨0, hn⟩) k1_pay1 k1_pay2
  | n + 1, hn => pt1 (n + 1) (iblk1 V c 0 ⟨n + 1, hn⟩) (iblk1 V c 1 ⟨n + 1, hn⟩)
      (scAt1 c n (Nat.lt_of_succ_lt hn)).2.1 (scAt1 c n (Nat.lt_of_succ_lt hn)).2.2

/-- At a point with qi = 0, ki = 0: reset, then one update. -/
theorem scAt1_reset_update (c : Dev nD) (t : Fin cfg1.N) (h : t.val % 4 = 0) :
    scAt1 V c t.val t.isLt = fin1 (upd1 0#32 0#32 (iblk1 V c 0 t) (iblk1 V c 1 t) k1_pay1 k1_pay2) := by
  obtain ⟨n, hn⟩ := t
  cases n with
  | zero => exact (show pt1 0 _ _ _ _ = _ from by unfold pt1; exact if_pos rfl)
  | succ n => exact if_pos h

/-- At a point with qi = 1, ki = 0: reset only. -/
theorem scAt1_reset_only (c : Dev nD) (t : Fin cfg1.N) (h : t.val % 4 = 2) :
    scAt1 V c t.val t.isLt = fin1 (k1_pay1, k1_pay2) := by
  obtain ⟨n, hn⟩ := t
  cases n with
  | zero => exfalso; dsimp only at h; omega
  | succ n => exact (if_neg (by dsimp only at h; omega)).trans (if_pos h)

/-- At a point with qi = 0, ki = 1: one update of what the point before left; the statistic is stored. -/
theorem scAt1_update_final0 (c : Dev nD) (t : Fin cfg1.N) (h : t.val % 4 = 1) :
    scAt1 V c t.val t.isLt = fin1 (upd1 0#32 1#32 (iblk1 V c 0 t) (iblk1 V c 1 t)
      (scAt1 V c (t.val - 1) (Nat.lt_of_le_of_lt (Nat.sub_le _ _) t.isLt)).2.1
      (scAt1 V c (t.val - 1) (Nat.lt_of_le_of_lt (Nat.sub_le _ _) t.isLt)).2.2) := by
  obtain ⟨n, hn⟩ := t
  cases n with
  | zero => exfalso; dsimp only at h; omega
  | succ n => exact (if_neg (by dsimp only at h; omega)).trans ((if_neg (by dsimp only at h; omega)).trans (if_pos h))

/-- At a point with qi = 1, ki = 1: the same with the query block's number 1. -/
theorem scAt1_update_final1 (c : Dev nD) (t : Fin cfg1.N) (h : t.val % 4 = 3) :
    scAt1 V c t.val t.isLt = fin1 (upd1 1#32 1#32 (iblk1 V c 0 t) (iblk1 V c 1 t)
      (scAt1 V c (t.val - 1) (Nat.lt_of_le_of_lt (Nat.sub_le _ _) t.isLt)).2.1
      (scAt1 V c (t.val - 1) (Nat.lt_of_le_of_lt (Nat.sub_le _ _) t.isLt)).2.2) := by
  obtain ⟨n, hn⟩ := t
  cases n with
  | zero => exfalso; dsimp only at h; omega
  | succ n => exact (if_neg (by dsimp only at h; omega)).trans ((if_neg (by dsimp only at h; omega)).trans (if_neg (by dsimp only at h; omega)))

end Region1

end Cert.KernelIdeal.Hand

end
-- ==== Proof.KI.Reg1Runs.lean ====
import proofs.«407224_j18210661335624_3_alg».proof.Proof.KI.Reg1Step
import Idealize.ShloMosaic.Lib.Pipeline.FrameBody
import Idealize.ShloMosaic.Lib.Pipeline.FrameSuffix
import Idealize.ShloMosaic.Lib.Pipeline.Value
import Idealize.ShloMosaic.Lib.WholeRead
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-! # Region 1: the body's conditions over the grid, and its run in each control case -/

/-! ## The body's branch conditions -/

/-- The first conditional: the key block's number is 0 (the carried pair is reset). -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- The second: the key block's number is at least the query block's (the block meets the causal triangle). -/
abbrev cond1_1 (i : grid1.Coords) : Prop := (Scalar.cmpi .ne (Scalar.extui (Scalar.cmpi .sge (BitVec.ofNat 32 (i 2).val) (BitVec.ofNat 32 (i 1).val))) 0#32) = 1#1
theorem hcond1_1 : ∀ t : Fin cfg1.N, cond1_1 (grid1.coords t) ↔ ¬ t.val % 4 = 2 :=
  (by decide +kernel : ∀ t : Fin grid1.N, cond1_1 (grid1.coords t) ↔ ¬ t.val % 4 = 2)

/-- The third: the key block's number is 1, the last (the statistic is stored). -/
abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

/-- The block numbers the body computes with, over the grid. -/
theorem a1_of1 : ∀ t : Fin cfg1.N, BitVec.ofNat 32 ((grid1.coords t) 1).val = BitVec.ofNat 32 ((t.val / 2) % 2) :=
  (by decide +kernel : ∀ t : Fin grid1.N, BitVec.ofNat 32 ((grid1.coords t) 1).val = BitVec.ofNat 32 ((t.val / 2) % 2))
theorem a2_of1 : ∀ t : Fin cfg1.N, BitVec.ofNat 32 ((grid1.coords t) 2).val = BitVec.ofNat 32 (t.val % 2) :=
  (by decide +kernel : ∀ t : Fin grid1.N, BitVec.ofNat 32 ((grid1.coords t) 2).val = BitVec.ofNat 32 (t.val % 2))

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel
theorem liveAt1_2 : ∀ t : Fin cfg1.N, t.val % 2 = 1 → cfg1.idle 2 (grid1.coords t) = false := by decide +kernel

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024 .f32 := win1_2.stage (cfg1.slots t 2)
abbrev hs1_2 (t : Fin cfg1.N) : (ms1_2 t).IsWhole := hstage1_2 ((cfg1.slots t 2).cast nbuf1_2)
/-- The two scratch operands: the running maximum and the running sum. -/
abbrev scM1_0 : Memref sig .tc .vmem S1x1024 .f32 := Memref.whole cc1_scratch0
abbrev scM1_1 : Memref sig .tc .vmem S1x1024 .f32 := Memref.whole cc1_scratch1

/-- The core's scoped buffers other than this call's staging buffers and its two scratch operands, at some contents each. -/
def rest1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch operands split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA rest1
  rw [Pipeline.scopedRest_split_of_list spec1 c [cc1_scratch0, cc1_scratch1] (by decide) (by decide)]
  simp only [scM1_0, scM1_1, owns_whole]; rfl

/-- A store through the whole-shape rectangle at zero offsets, made last, leaves its payload whatever came before. -/
theorem read_writes_cons_unit_zero1 {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩),
    View.canon_cons_unit_zero h inb w L]

/-- A load through the whole-shape rectangle at zero offsets of a whole memref held at the contents that read `x` reads `x`. -/
theorem readAt_unit_zero_unread1 {Val : EltTy → Type} {sg : RefSig} {κ : Kind} {sp : Space} {S : Shape} {e : EltTy}
    {a : Memref sg κ sp S e} (ha : a.IsWhole) {off : Fin S.rank → Nat} (h : off = fun _ => 0)
    (inb : ∀ a, off a + S.size a ≤ S.size a) (x : S.Idx → Val e) :
    View.readAt Val a.view (Rect.unit off S.size inb).toLoadRect (ha.unread x) = x := by
  funext y; rw [Memref.IsWhole.readAt_unread ha]; exact congrFun (View.ld_unit_zero h inb x) y

theorem zeros1_2 : (![0, 0] : Fin 2 → ℕ) = fun _ => 0 := by funext a; fin_cases a <;> rfl
theorem zeros1_3 : (![0, 0, 0] : Fin 3 → ℕ) = fun _ => 0 := by funext a; fin_cases a <;> rfl

/-! ## The body's run, case by case -/

set_option maxHeartbeats 1000000 in
/-- Key block 0 wholly above the diagonal (query block 1): the carried pair is reset to (−∞, 0); nothing else is touched. -/
theorem run1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
    (hc0 : cond1_0 i) (hc1 : ¬cond1_1 i) (hc2 : ¬cond1_2 i)
    (xs xt : Vec F S1x1024x1024 .bf16) (x5 : Vec F S1x1x1024 .f32) (E : Set ℕ) (K : PUnit → sProp 𝕄) :
    iprop(owns (c : Thread nD τ) arg3 fullShare xs ∗ owns (c : Thread nD τ) arg4 fullShare xt ∗ owns (c : Thread nD τ) arg5 fullShare x5
        ∗ (∃ d, owns (c : Thread nD τ) arg6 fullShare d) ∗ (∃ d, owns (c : Thread nD τ) arg7 fullShare d)
        ∗ (iprop(owns (c : Thread nD τ) arg3 fullShare xs ∗ owns (c : Thread nD τ) arg4 fullShare xt ∗ owns (c : Thread nD τ) arg5 fullShare x5
            ∗ owns (c : Thread nD τ) arg6 fullShare (k1_pay1 (F := F)) ∗ owns (c : Thread nD τ) arg7 fullShare (k1_pay2 (F := F))) -∗ K ⟨⟩))
      ⊢ wp frame (wpE (defs₀ (F := F)) Variants.none c none) E (cc1__stats_kernel i arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    exact read_writes_cons_unit_zero1 _ _ zeros1_2 _ _ _
  iexists _; isplitr
  swap; · iexact H7
  ipureintro
  exact read_writes_cons_unit_zero1 _ _ zeros1_2 _ _ _

set_option maxHeartbeats 2000000 in
/-- Key block 0 on the diagonal (query block 0): the pair is reset to (−∞, 0) and updated once. -/
theorem run1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
    (hc0 : cond1_0 i) (hc1 : cond1_1 i) (hc2 : ¬cond1_2 i) (a1 a2 : BitVec 32) (ha1 : BitVec.ofNat 32 (i 1).val = a1) (ha2 : BitVec.ofNat 32 (i 2).val = a2)
    (xs xt : Vec F S1x1024x1024 .bf16) (x5 : Vec F S1x1x1024 .f32) (E : Set ℕ) (K : PUnit → sProp 𝕄) :
    iprop(owns (c : Thread nD τ) arg3 fullShare xs ∗ owns (c : Thread nD τ) arg4 fullShare xt ∗ owns (c : Thread nD τ) arg5 fullShare x5
        ∗ (∃ d, owns (c : Thread nD τ) arg6 fullShare d) ∗ (∃ d, owns (c : Thread nD τ) arg7 fullShare d)
        ∗ (iprop(owns (c : Thread nD τ) arg3 fullShare xs ∗ owns (c : Thread nD τ) arg4 fullShare xt ∗ owns (c : Thread nD τ) arg5 fullShare x5
            ∗ owns (c : Thread nD τ) arg6 fullShare (upd1 a1 a2 xs xt (k1_pay1 (F := F)) (k1_pay2 (F := F))).1
            ∗ owns (c : Thread nD τ) arg7 fullShare (upd1 a1 a2 xs xt (k1_pay1 (F := F)) (k1_pay2 (F := F))).2) -∗ K ⟨⟩))
      ⊢ wp frame (wpE (defs₀ (F := F)) Variants.none c none) E (cc1__stats_kernel i arg3 harg3 arg4 harg4 arg5 harg5 arg6 harg6 arg7 harg7) K := by
  subst ha1 ha2
  have e3 : View.readAt (Elt F) arg3.view (Rect.unit ![0, 0, 0] S1x1024x1024.size inb_S1x1024x1024_S1x1024x1024_0_0_0).toLoadRect (harg3.unread xs) = xs :=
    readAt_unit_zero_unread1 harg3 zeros1_3 _ xs
  have e4 : View.readAt (Elt F) arg4.view (Rect.unit ![0, 0, 0] S1x1024x1024.size inb_S1x1024x1024_S1x1024x1024_0_0_0).toLoadRect (harg4.unread xt) = xt :=
    readAt_unit_zero_unread1 harg4 zeros1_3 _ xt
  simp only [cc1__stats_kernel_eq_skeleton]; unfold cc1__stats_kernel_skel
  simp only [k1_part1_eq_skeleton]
  unfold owns
  iintro ⟨⟨%f3, %hf3, H3⟩, ⟨%f4, %hf4, H4⟩, ⟨%f5, %hf5, H5⟩, ⟨%d6, %f6, -, H6⟩, ⟨%d7, %f7, -, H7⟩, Hk⟩
  obtain rfl := harg3.eq_unread hf3; obtain rfl := harg4.eq_unread hf4; obtain rfl := harg5.eq_unread hf5
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    rw [View.readCov_unit_zero (S := S1x1024) arg6.view zeros1_2]
    exact read_writes_cons_unit_zero1 _ _ zeros1_2 _ _ _
  iexists _; isplitr
  swap; · iexact H7
  ipureintro
  sl_unfold_run_names
  rw [View.readCov_unit_zero (S := S1x1024) arg6.view zeros1_2, View.readCov_unit_zero (S := S1x1024) arg7.view zeros1_2]
  exact read_writes_cons_unit_zero1 _ _ zeros1_2 _ _ _

set_option maxHeartbeats 2000000 in
/-- Key block 1 (the last): one update of the pair (m, l) the point finds, and the statistic m' + log l' is stored. -/
theorem run1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole)
    (hc0 : ¬cond1_0 i) (hc1 : cond1_1 i) (hc2 : cond1_2 i) (a1 a2 : BitVec 32) (ha1 : BitVec.ofNat 32 (i 1).val = a1) (ha2 : BitVec.ofNat 32 (i 2).val = a2)
    (xs xt : Vec F S1x1024x1024 .bf16) (m l : Vec F S1x1024 .f32) (E : Set ℕ) (K : PUnit → sProp 𝕄) :
    iprop(owns (c : Thread nD τ) arg3 fullShare xs ∗ owns (c : Thread nD τ) arg4 fullShare xt ∗ (∃ d, owns (c : Thread nD τ) arg5 fullShare d)
        ∗ owns (c : Thread nD τ) arg6 fullShare m ∗ owns (c : Thread nD τ) arg7 fullShare l
        ∗ (iprop(owns (c : Thread nD τ) arg3 fullShare xs ∗ owns (c : Thread nD τ) arg4 fullShare xt
            ∗ owns (c : Thread nD τ) arg5 fullShare (fin1 (upd1 a1 a2 xs xt m l)).1
            ∗ owns (c : Thread nD τ) arg6 fullShare (upd1 a1 a2 xs xt m l).1
            ∗ owns (c : Thread nD τ) arg7 fullShare (upd1 a1 a2 xs xt m l).2) -∗ K ⟨⟩))
      ⊢ wp frame (wpE (defs₀ (F := F)) Variants.none c none) E (cc1__stats_kernel i arg3 harg3 arg4 harg4 arg5 harg5 arg6 harg6 arg7 harg7) K := by
  subst ha1 ha2
  have e3 : View.readAt (Elt F) arg3.view (Rect.unit ![0, 0, 0] S1x1024x1024.size inb_S1x1024x1024_S1x1024x1024_0_0_0).toLoadRect (harg3.unread xs) = xs :=
    readAt_unit_zero_unread1 harg3 zeros1_3 _ xs
  have e4 : View.readAt (Elt F) arg4.view (Rect.unit ![0, 0, 0] S1x1024x1024.size inb_S1x1024x1024_S1x1024x1024_0_0_0).toLoadRect (harg4.unread xt) = xt :=
    readAt_unit_zero_unread1 harg4 zeros1_3 _ xt
  have e6 : View.readAt (Elt F) arg6.view (Rect.unit ![0, 0] S1x1024.size inb_S1x1024_S1x1024_0_0).toLoadRect (harg6.unread m) = m :=
    readAt_unit_zero_unread1 harg6 zeros1_2 _ m
  have e7 : View.readAt (Elt F) arg7.view (Rect.unit ![0, 0] S1x1024.size inb_S1x1024_S1x1024_0_0).toLoadRect (harg7.unread l) = l :=
    readAt_unit_zero_unread1 harg7 zeros1_2 _ l
  simp only [cc1__stats_kernel_eq_skeleton]; unfold cc1__stats_kernel_skel
  simp only [k1_part1_eq_skeleton]
  unfold owns
  iintro ⟨⟨%f3, %hf3, H3⟩, ⟨%f4, %hf4, H4⟩, ⟨%d5, %f5, -, H5⟩, ⟨%f6, %hf6, H6⟩, ⟨%f7, %hf7, H7⟩, Hk⟩
  obtain rfl := harg3.eq_unread hf3; obtain rfl := harg4.eq_unread hf4; obtain rfl := harg6.eq_unread hf6; obtain rfl := harg7.eq_unread hf7
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.readCov_unit_zero (S := S1x1024) arg6.view zeros1_2, View.readCov_unit_zero (S := S1x1024) arg7.view zeros1_2]
    exact read_writes_cons_unit_zero1 _ _ zeros1_3 _ _ _
  isplitl [H6]
  · iexists _; isplitr
    swap; · iexact H6
    ipureintro
    sl_unfold_run_names
    exact read_writes_cons_unit_zero1 _ _ zeros1_2 _ _ _
  iexists _; isplitr
  swap; · iexact H7
  ipureintro
  sl_unfold_run_names
  exact read_writes_cons_unit_zero1 _ _ zeros1_2 _ _ _

end Cert.KernelIdeal.Hand

end
-- ==== Proof.KI.Reg1.lean ====
import proofs.«407224_j18210661335624_3_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Region 1: the proof data and the body obligation, at the entry contents `V` -/

section Region1

variable (V : (c : Dev nD) → (b : Ref sig .tc) → Buf (Elt F) ((c : Thread nD τ).loc b))

/-- An input window's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The region invariant before position `n`: before the first point the class's (every scratch at anything);
    afterwards the running maximum and the running sum at what the point before left, the other scoped buffers at
    anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((scAt1 V c n hn).2.1) ∗ owns (c : Thread nD τ) scM1_1 fullShare ((scAt1 V c n hn).2.2)) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((scAt1 V c n hn).2.1) ∗ owns (c : Thread nD τ) scM1_1 fullShare ((scAt1 V c n hn).2.2)) ∗ rest1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((scAt1 V c (n - 1) (by omega)).2.1) ∗ owns (c : Thread nD τ) scM1_1 fullShare ((scAt1 V c (n - 1) (by omega)).2.2)) ∗ rest1 c) ∗ (∃ r, prngReg c r)) := by
  cases n with
  | zero => exact absurd rfl hz
  | succ n => rfl

/-- The proof data of pipeline 1 on core `c`: the arrays as the region finds them; the two input windows, which
    read ONE array, hold half of it each; after the body each input's buffer at its block and the output's at the
    statistic of the pair the point leaves; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (scAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare.left := rfl
theorem q1_1 (c : Dev nD) : (dat1 V c).q 1 = fullShare.right := rfl
theorem q1_2 (c : Dev nD) : (dat1 V c).q 2 = fullShare := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (scAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; n % 4 says which control case the point is in, so
    that case's run applies; the invariant hands the body the pair the point before left (anything at the first
    point) and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  rcases (show t.val % 4 = 0 ∨ t.val % 4 = 2 ∨ t.val % 4 = 1 ∨ t.val % 4 = 3 by omega) with h | h | h | h
  · -- query block 0, key block 0: reset and update
    have hk : t.val % 2 = 0 := by omega
    rw [Dat.leavesExact_idle (dat1 V c) 2 t (idleAt1_2 t hk) (noFlush1_2 t hk)]
    rw [scAt1_reset_update V c t h]
    have hrun := fun x5 K => run1_A (F := F) c (grid1.coords t) (ms1_0 t) (hs1_0 t) (ms1_1 t) (hs1_1 t) (ms1_2 t) (hs1_2 t) scM1_0 (Memref.isWhole_whole _) scM1_1 (Memref.isWhole_whole _)
      ((hcond1_0 t).mpr hk) ((hcond1_1 t).mpr (by omega)) (fun hh => by have := (hcond1_2 t).mp hh; omega) 0#32 0#32
      ((a1_of1 t).trans (by rw [show (t.val / 2) % 2 = 0 by omega])) ((a2_of1 t).trans (by rw [hk])) (iblk1 V c 0 t) (iblk1 V c 1 t) x5 Set.univ K
    by_cases hz : t.val = 0
    · rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨⟨HS0, HS1⟩, HR⟩, Hg⟩, Ho, ⟨%d0, H0⟩, ⟨%d1, H1⟩, ⟨%d2, H2⟩⟩
      iapply (hrun _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2
  · -- query block 1, key block 0: reset only
    have hk : t.val % 2 = 0 := by omega
    have hz : t.val ≠ 0 := by omega
    rw [Dat.leavesExact_idle (dat1 V c) 2 t (idleAt1_2 t hk) (noFlush1_2 t hk)]
    rw [scAt1_reset_only V c t h]
    have hrun := fun x5 K => run1_B (F := F) c (grid1.coords t) (ms1_0 t) (hs1_0 t) (ms1_1 t) (hs1_1 t) (ms1_2 t) (hs1_2 t) scM1_0 (Memref.isWhole_whole _) scM1_1 (Memref.isWhole_whole _)
      ((hcond1_0 t).mpr hk) (fun hh => ((hcond1_1 t).mp hh) h) (fun hh => by have := (hcond1_2 t).mp hh; omega)
      (iblk1 V c 0 t) (iblk1 V c 1 t) x5 Set.univ K
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply (hrun _ _)
    isplitl [H0]; · iexact H0
    isplitl [H1]; · iexact H1
    isplitl [H2]; · iexact H2
    isplitl [HS0]; · iexists _; iexact HS0
    isplitl [HS1]; · iexists _; iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexists _; iexact H2
  · -- query block 0, key block 1: update, and the statistic is stored
    have hk : t.val % 2 = 1 := by omega
    have hz : t.val ≠ 0 := by omega
    rw [show (dat1 V c).leavesExact 2 t = owns (c : Thread nD τ) (ms1_2 t) fullShare ((dat1 V c).after 2 t) from by
      unfold Dat.leavesExact; rw [liveAt1_2 t hk], after1_2]
    rw [scAt1_update_final0 V c t h]
    have hrun := fun m l K => run1_C (F := F) c (grid1.coords t) (ms1_0 t) (hs1_0 t) (ms1_1 t) (hs1_1 t) (ms1_2 t) (hs1_2 t) scM1_0 (Memref.isWhole_whole _) scM1_1 (Memref.isWhole_whole _)
      (fun hh => by have := (hcond1_0 t).mp hh; omega) ((hcond1_1 t).mpr (by omega)) ((hcond1_2 t).mpr hk) 0#32 1#32
      ((a1_of1 t).trans (by rw [show (t.val / 2) % 2 = 0 by omega])) ((a2_of1 t).trans (by rw [hk])) (iblk1 V c 0 t) (iblk1 V c 1 t) m l Set.univ K
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply (hrun _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · -- query block 1, key block 1: the same
    have hk : t.val % 2 = 1 := by omega
    have hz : t.val ≠ 0 := by omega
    rw [show (dat1 V c).leavesExact 2 t = owns (c : Thread nD τ) (ms1_2 t) fullShare ((dat1 V c).after 2 t) from by
      unfold Dat.leavesExact; rw [liveAt1_2 t hk], after1_2]
    rw [scAt1_update_final1 V c t h]
    have hrun := fun m l K => run1_C (F := F) c (grid1.coords t) (ms1_0 t) (hs1_0 t) (ms1_1 t) (hs1_1 t) (ms1_2 t) (hs1_2 t) scM1_0 (Memref.isWhole_whole _) scM1_1 (Memref.isWhole_whole _)
      (fun hh => by have := (hcond1_0 t).mp hh; omega) ((hcond1_1 t).mpr (by omega)) ((hcond1_2 t).mpr hk) 1#32 1#32
      ((a1_of1 t).trans (by rw [show (t.val / 2) % 2 = 1 by omega])) ((a2_of1 t).trans (by rw [hk])) (iblk1 V c 0 t) (iblk1 V c 1 t) m l Set.univ K
    rw [PhiS1_castSucc V c t, PhiS1_pos V c _ _ hz]
    iintro ⟨⟨⟨⟨HS0, HS1⟩, HR⟩, Hg⟩, Ho, ⟨%d0, H0⟩, ⟨%d1, H1⟩, ⟨%d2, H2⟩⟩
    iapply (hrun _ _ _)
    isplitl [H0]; · iexact H0
    isplitl [H1]; · iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the pair's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.KI.Reg2Runs.lean ====
import proofs.«407224_j18210661335624_3_alg».proof.Proof.Gen.KernelIdeal.Launch
import proofs.«407224_j18210661335624_3_alg».proof.Proof.Gen.KernelIdeal.Skeleton
import proofs.«407224_j18210661335624_3_alg».proof.Proof.Gen.KernelIdeal.Points
import Idealize.ShloMosaic.Lib.Pipeline.FrameBody
import Idealize.ShloMosaic.Lib.Pipeline.Value
import Idealize.ShloMosaic.Lib.Tactic

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions of the accumulation body, from the grid coordinates -/

/-- The reset condition: the key-block coordinate is 0. -/
abbrev cond2_0 (i : grid2.Coords) : Prop :=
  (Scalar.cmpi .ne (Scalar.extui (Scalar.cmpi .eq (BitVec.ofNat 32 (i 2).val) 0#32)) 0#32) = 1#1
/-- The update condition: the key block starts before the end of the query tile (signed comparison of the offsets). -/
abbrev cond2_1 (i : grid2.Coords) : Prop :=
  (Scalar.cmpi .ne (Scalar.extui (Scalar.cmpi .slt (Scalar.muli (BitVec.ofNat 32 (i 2).val) 512#32) (Scalar.muli (Scalar.addi (BitVec.ofNat 32 (i 1).val) 1#32) 1024#32))) 0#32) = 1#1
/-- The final-store condition: the key-block coordinate is 3. -/
abbrev cond2_2 (i : grid2.Coords) : Prop := k2_cond3 i = 1#1

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 < 2 * (t.val / 4 % 2 + 1) :=
  (by decide +kernel : ∀ t : Fin grid2.N, cond2_1 (grid2.coords t) ↔ t.val % 4 < 2 * (t.val / 4 % 2 + 1))
theorem hcond2_2 : ∀ t : Fin cfg2.N, cond2_2 (grid2.coords t) ↔ t.val % 4 = 3 :=
  (by decide +kernel : ∀ t : Fin grid2.N, cond2_2 (grid2.coords t) ↔ t.val % 4 = 3)

/-! ## What one run of the body leaves, over the skeleton's payloads -/

/-- The accumulator after the reset step. -/
def rst2 (p : Prop) [Decidable p] (acc : Vec F S1024x1024 .f32) : Vec F S1024x1024 .f32 :=
  if p then k2_pay1 else acc
/-- The accumulator after the update step. -/
def upd2 (p : Prop) [Decidable p] (i : grid2.Coords) (xt : Vec F S1x1024x1024 .bf16) (xs : Vec F S1x512x1024 .bf16)
    (ls : Vec F S1x1x512 .f32) (xr : Vec F S1x512x1024 .bf16) (a0 : Vec F S1024x1024 .f32) : Vec F S1024x1024 .f32 :=
  if p then k2_pay2 i xt xs ls a0 xr else a0
/-- The output block after the final step. -/
def fin2 (p : Prop) [Decidable p] (a1 : Vec F S1024x1024 .f32) (x7 : Vec F S1x1024x1024 .f32) : Vec F S1x1024x1024 .f32 :=
  if p then k2_pay3 a1 else x7

theorem z2_2 : (![0, 0] : Fin 2 → Nat) = fun _ => 0 := by funext a; fin_cases a <;> rfl
theorem z3_2 : (![0, 0, 0] : Fin 3 → Nat) = fun _ => 0 := by funext a; fin_cases a <;> rfl

/-! ## Loads and stores through the whole of a buffer -/

section Whole

variable {sg : RefSig} {κ : Kind} {sp : Space} {S : Shape} {e : EltTy} {Val : EltTy → Type}

/-- A load of the whole buffer reads its contents. -/
theorem readAt_unit_zero2 (v : View sg κ sp S e) {off : Fin S.rank → Nat} (h : off = fun _ => 0)
    (inb : ∀ a, off a + S.size a ≤ S.size a) (f : v.ty.Contents Val) :
    v.readAt Val (Rect.unit off S.size inb).toLoadRect f = v.read Val f :=
  (View.readAt_eq_ld v f _).trans (View.ld_unit_zero h inb _)

/-- A load of the whole buffer after a store of the whole buffer (the last made) reads that store's payload. -/
theorem readCov_cons_unit_zero2 [∀ e, Nonempty (Val e)] (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ (Rect.unit off S.size inb)
    (fun y => ⟨_, List.mem_cons.mpr (Or.inl rfl), View.mem_set_unit_zero h inb y⟩),
    View.canon_cons_unit_zero h, View.ld_unit_zero h]

/-- After a store of the whole buffer (the last made) the buffer reads that store's payload. -/
theorem read_writes_cons_unit_zero2 [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons.mpr (Or.inl rfl), View.mem_set_unit_zero h inb y⟩),
    View.canon_cons_unit_zero h]

end Whole

/-! ## The body's triple -/

set_option hygiene false in
/-- Under the case's conditions `hc0 hc1 hc2` the body reads the inputs' buffers and leaves them as they were. -/
local macro "k2_run" : tactic => `(tactic| (
    simp only [cc2__out_kernel_eq_skeleton]; unfold cc2__out_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    subst hf3; subst hf4; subst hf5; subst hf6; subst hf7; subst hf8
    sl_exec (disch := first | sl_exact hc0 | sl_exact hc1 | sl_exact hc2)
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6))

set_option hygiene false in
/-- An output buffer stored whole reads the store's payload. -/
local macro "k2_stored7" : tactic => `(tactic| (
    iexists _; isplitr
    swap; · iexact H7
    ipureintro
    sl_unfold_run_names
    simp only [readAt_unit_zero2 (S := S1x1024x1024) _ z3_2, readAt_unit_zero2 (S := S1x512x1024) _ z3_2,
      readAt_unit_zero2 (S := S1x1x512) _ z3_2, readAt_unit_zero2 (S := S1024x1024) _ z2_2,
      readCov_cons_unit_zero2 (S := S1024x1024) _ z2_2, read_writes_cons_unit_zero2 (S := S1x1024x1024) _ _ z3_2]))

set_option hygiene false in
/-- An output buffer no store reaches reads what it read. -/
local macro "k2_kept7" : tactic => `(tactic| (
    iexists f7; isplitr; · ipureintro; rfl
    iexact H7))

set_option hygiene false in
/-- An accumulator stored whole reads the payload of the last store. -/
local macro "k2_stored8" : tactic => `(tactic| (
    iexists _; isplitr
    swap; · iexact H8
    ipureintro
    sl_unfold_run_names
    simp only [readAt_unit_zero2 (S := S1x1024x1024) _ z3_2, readAt_unit_zero2 (S := S1x512x1024) _ z3_2,
      readAt_unit_zero2 (S := S1x1x512) _ z3_2, readAt_unit_zero2 (S := S1024x1024) _ z2_2,
      readCov_cons_unit_zero2 (S := S1024x1024) _ z2_2, read_writes_cons_unit_zero2 (S := S1024x1024) _ _ z2_2]))

set_option hygiene false in
/-- An accumulator no store reaches reads what it read. -/
local macro "k2_kept8" : tactic => `(tactic| (
    iexists f8; isplitr; · ipureintro; rfl
    iexact H8))

set_option maxHeartbeats 8000000 in
/-- The accumulation body on whole staging memrefs and the whole accumulator, each at read contents: it runs to the
    continuation holding the inputs' as they were, the accumulator after the reset step (under `p0`) and the update step
    (under `p1`), and the output's buffer at the final payload of the accumulator (under `p2`) or as it was. -/
theorem sound_kernel2 (c : Dev nD) (E : Set ℕ) (i : grid2.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x1x512 .f32) (harg5 : arg5.IsWhole) (arg6 : Memref sig .tc .vmem S1x512x1024 .bf16) (harg6 : arg6.IsWhole)
    (arg7 : Memref sig .tc .vmem S1x1024x1024 .f32) (harg7 : arg7.IsWhole) (arg8 : Memref sig .tc .vmem S1024x1024 .f32) (harg8 : arg8.IsWhole)
    (p0 p1 p2 : Prop) [Decidable p0] [Decidable p1] [Decidable p2]
    (h0 : cond2_0 i ↔ p0) (h1 : cond2_1 i ↔ p1) (h2 : cond2_2 i ↔ p2)
    (xt : Vec F S1x1024x1024 .bf16) (xs : Vec F S1x512x1024 .bf16) (ls : Vec F S1x1x512 .f32) (xr : Vec F S1x512x1024 .bf16)
    (x7 : Vec F S1x1024x1024 .f32) (acc : Vec F S1024x1024 .f32) (K : PUnit → sProp 𝕄) :
    iprop(owns (c : Thread nD τ) arg3 fullShare xt ∗ owns (c : Thread nD τ) arg4 fullShare xs ∗ owns (c : Thread nD τ) arg5 fullShare ls
        ∗ owns (c : Thread nD τ) arg6 fullShare xr ∗ owns (c : Thread nD τ) arg7 fullShare x7 ∗ owns (c : Thread nD τ) arg8 fullShare acc
        ∗ (iprop(owns (c : Thread nD τ) arg3 fullShare xt ∗ owns (c : Thread nD τ) arg4 fullShare xs ∗ owns (c : Thread nD τ) arg5 fullShare ls
            ∗ owns (c : Thread nD τ) arg6 fullShare xr
            ∗ owns (c : Thread nD τ) arg7 fullShare (fin2 p2 (upd2 p1 i xt xs ls xr (rst2 p0 acc)) x7)
            ∗ owns (c : Thread nD τ) arg8 fullShare (upd2 p1 i xt xs ls xr (rst2 p0 acc))) -∗ K ⟨⟩))
      ⊢ wp frame (wpE (defs₀ (F := F)) Variants.none c none) E (cc2__out_kernel i arg3 harg3 arg4 harg4 arg5 harg5 arg6 harg6 arg7 harg7 arg8 harg8) K := by
  obtain rfl := propext h0; obtain rfl := propext h1; obtain rfl := propext h2
  unfold rst2 upd2 fin2
  by_cases hc0 : cond2_0 i
  · rw [if_pos hc0]
    by_cases hc1 : cond2_1 i
    · rw [if_pos hc1]
      by_cases hc2 : cond2_2 i
      · rw [if_pos hc2]; k2_run
        isplitl [H7]
        · k2_stored7
        · k2_stored8
      · rw [if_neg hc2]; k2_run
        isplitl [H7]
        · k2_kept7
        · k2_stored8
    · rw [if_neg hc1]
      by_cases hc2 : cond2_2 i
      · rw [if_pos hc2]; k2_run
        isplitl [H7]
        · k2_stored7
        · k2_stored8
      · rw [if_neg hc2]; k2_run
        isplitl [H7]
        · k2_kept7
        · k2_stored8
  · rw [if_neg hc0]
    by_cases hc1 : cond2_1 i
    · rw [if_pos hc1]
      by_cases hc2 : cond2_2 i
      · rw [if_pos hc2]; k2_run
        isplitl [H7]
        · k2_stored7
        · k2_stored8
      · rw [if_neg hc2]; k2_run
        isplitl [H7]
        · k2_kept7
        · k2_stored8
    · rw [if_neg hc1]
      by_cases hc2 : cond2_2 i
      · rw [if_pos hc2]; k2_run
        isplitl [H7]
        · k2_stored7
        · k2_kept8
      · rw [if_neg hc2]; k2_run
        isplitl [H7]
        · k2_kept7
        · k2_kept8

end Cert.KernelIdeal.Hand

end
-- ==== Proof.KI.Reg2.lean ====
import proofs.«407224_j18210661335624_3_alg».proof.Proof.KI.Reg2Runs

set_option maxRecDepth 16384
set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator point by point -/

/-- One point of the accumulation: the reset at the first key block, then the update while the key block starts
    before the end of the query tile. -/
def stepAcc2 (c : Dev nD) (t : Fin cfg2.N) (acc : Vec F S1024x1024 .f32) : Vec F S1024x1024 .f32 :=
  upd2 (t.val % 4 < 2 * (t.val / 4 % 2 + 1)) (grid2.coords t) (iblk2 V c 0 t) (iblk2 V c 1 t) (iblk2 V c 2 t) (iblk2 V c 3 t)
    (rst2 (t.val % 4 = 0) acc)

/-- What the output block and the accumulator hold after point `n`: (the final payload of the accumulator, the accumulator). -/
def scAt2 (c : Dev nD) : (n : ℕ) → n < cfg2.N → Vec F S1x1024x1024 .f32 × Vec F S1024x1024 .f32
  | 0, hn => (k2_pay3 (stepAcc2 V c ⟨0, hn⟩ k2_pay1), stepAcc2 V c ⟨0, hn⟩ k2_pay1)
  | n + 1, hn => (k2_pay3 (stepAcc2 V c ⟨n + 1, hn⟩ (scAt2 c n (Nat.lt_of_succ_lt hn)).2),
      stepAcc2 V c ⟨n + 1, hn⟩ (scAt2 c n (Nat.lt_of_succ_lt hn)).2)

theorem rst2_pos {p : Prop} [Decidable p] (h : p) (acc : Vec F S1024x1024 .f32) : rst2 p acc = k2_pay1 := if_pos h
theorem rst2_neg {p : Prop} [Decidable p] (h : ¬p) (acc : Vec F S1024x1024 .f32) : rst2 p acc = acc := if_neg h
theorem upd2_pos {p : Prop} [Decidable p] (h : p) (i : grid2.Coords) (xt : Vec F S1x1024x1024 .bf16) (xs : Vec F S1x512x1024 .bf16)
    (ls : Vec F S1x1x512 .f32) (xr : Vec F S1x512x1024 .bf16) (a0 : Vec F S1024x1024 .f32) :
    upd2 p i xt xs ls xr a0 = k2_pay2 i xt xs ls a0 xr := if_pos h
theorem upd2_neg {p : Prop} [Decidable p] (h : ¬p) (i : grid2.Coords) (xt : Vec F S1x1024x1024 .bf16) (xs : Vec F S1x512x1024 .bf16)
    (ls : Vec F S1x1x512 .f32) (xr : Vec F S1x512x1024 .bf16) (a0 : Vec F S1024x1024 .f32) :
    upd2 p i xt xs ls xr a0 = a0 := if_neg h
theorem fin2_pos {p : Prop} [Decidable p] (h : p) (a1 : Vec F S1024x1024 .f32) (x7 : Vec F S1x1024x1024 .f32) : fin2 p a1 x7 = k2_pay3 a1 := if_pos h
theorem fin2_neg {p : Prop} [Decidable p] (h : ¬p) (a1 : Vec F S1024x1024 .f32) (x7 : Vec F S1x1024x1024 .f32) : fin2 p a1 x7 = x7 := if_neg h

/-- The output block component is the final payload of the accumulator component, at every point. -/
theorem scAt2_fst (c : Dev nD) (t : Fin cfg2.N) : (scAt2 V c t.val t.isLt).1 = k2_pay3 (scAt2 V c t.val t.isLt).2 := by
  obtain ⟨n, hn⟩ := t
  cases n with
  | zero => rfl
  | succ n => rfl

/-- The accumulator after point `t` is one step from any contents `acc` that, after the first point, are what the point before left. -/
theorem scAt2_snd (c : Dev nD) (t : Fin cfg2.N) (acc : Vec F S1024x1024 .f32)
    (hacc : ∀ h : t.val ≠ 0, acc = (scAt2 V c (t.val - 1) (Nat.lt_of_le_of_lt (Nat.sub_le _ _) t.isLt)).2) :
    (scAt2 V c t.val t.isLt).2 = stepAcc2 V c t acc := by
  obtain ⟨n, hn⟩ := t
  cases n with
  | zero => show stepAcc2 V c ⟨0, hn⟩ k2_pay1 = stepAcc2 V c ⟨0, hn⟩ acc
            unfold stepAcc2; rw [rst2_pos (Nat.zero_mod 4), rst2_pos (Nat.zero_mod 4)]
  | succ n => rw [hacc (Nat.succ_ne_zero n)]; rfl

/-- At a first key block (`t ≡ 0 mod 4`): reset, then update. -/
theorem scAt2_reset (c : Dev nD) (t : Fin cfg2.N) (h0 : t.val % 4 = 0) :
    (scAt2 V c t.val t.isLt).2 = k2_pay2 (grid2.coords t) (iblk2 V c 0 t) (iblk2 V c 1 t) (iblk2 V c 2 t) k2_pay1 (iblk2 V c 3 t) := by
  have hN : t.val < 64 := lt_of_lt_of_eq t.isLt (show cfg2.N = 64 from N_2)
  obtain ⟨n, hn⟩ := t
  cases n with
  | zero => show stepAcc2 V c ⟨0, hn⟩ k2_pay1 = _
            unfold stepAcc2; rw [rst2_pos h0, upd2_pos (by dsimp only at h0 ⊢; omega)]
  | succ n => show stepAcc2 V c ⟨n + 1, hn⟩ _ = _
              unfold stepAcc2; rw [rst2_pos h0, upd2_pos (by dsimp only at h0 ⊢; omega)]

/-- At a later key block that starts before the end of the query tile: update of what the point before left. -/
theorem scAt2_update (c : Dev nD) (t : Fin cfg2.N) (h0 : t.val % 4 ≠ 0) (h1 : t.val % 4 < 2 * (t.val / 4 % 2 + 1)) :
    (scAt2 V c t.val t.isLt).2 = k2_pay2 (grid2.coords t) (iblk2 V c 0 t) (iblk2 V c 1 t) (iblk2 V c 2 t)
      (scAt2 V c (t.val - 1) (Nat.lt_of_le_of_lt (Nat.sub_le _ _) t.isLt)).2 (iblk2 V c 3 t) := by
  rw [scAt2_snd V c t _ (fun _ => rfl)]; unfold stepAcc2; rw [rst2_neg h0, upd2_pos h1]

/-- At a key block past the query tile: the accumulator is carried unchanged. -/
theorem scAt2_skip (c : Dev nD) (t : Fin cfg2.N) (h0 : t.val % 4 ≠ 0) (h1 : ¬t.val % 4 < 2 * (t.val / 4 % 2 + 1)) :
    (scAt2 V c t.val t.isLt).2 = (scAt2 V c (t.val - 1) (Nat.lt_of_le_of_lt (Nat.sub_le _ _) t.isLt)).2 := by
  rw [scAt2_snd V c t _ (fun _ => rfl)]; unfold stepAcc2; rw [rst2_neg h0, upd2_neg h1]

/-! ## The input windows hold their blocks at every point -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]
  rw [dat.before_in_eq_fetched 0 rfl (fun _ => rfl) (fun _ _ _ => rfl) hkeep t d]
  unfold Dat.fetched Dat.blockOf iblk2; rw [hA]; rfl

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]
  rw [dat.before_in_eq_fetched 1 rfl (fun _ => rfl) (fun _ _ _ => rfl) hkeep t d]
  unfold Dat.fetched Dat.blockOf iblk2; rw [hA]; rfl

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]
  rw [dat.before_in_eq_fetched 2 rfl (fun _ => rfl) (fun _ _ _ => rfl) hkeep t d]
  unfold Dat.fetched Dat.blockOf iblk2; rw [hA]; rfl

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]
  rw [dat.before_in_eq_fetched 3 rfl (fun _ => rfl) (fun _ _ _ => rfl) hkeep t d]
  unfold Dat.fetched Dat.blockOf iblk2; rw [hA]; rfl

/-! ## Where the output window is idle -/

theorem idleAt2_4 : ∀ t : Fin cfg2.N, ¬t.val % 4 = 3 → cfg2.idle 4 (grid2.coords t) = true :=
  (by decide +kernel : ∀ t : Fin grid2.N, ¬t.val % 4 = 3 → cfg2.idle 4 (grid2.coords t) = true)
theorem liveAt2_4 : ∀ t : Fin cfg2.N, t.val % 4 = 3 → cfg2.idle 4 (grid2.coords t) = false :=
  (by decide +kernel : ∀ t : Fin grid2.N, t.val % 4 = 3 → cfg2.idle 4 (grid2.coords t) = false)
theorem noFlush2_4 (t : Fin cfg2.N) (h : ¬t.val % 4 = 3) : (cfg2.win 4).flush t = false :=
  Bool.eq_false_iff.mpr fun hf => h ((flush2_4 t).mp hf)

/-! ## The accumulator and the rest of the scoped buffers -/

/-- The accumulator: the kernel's own scratch, whole. -/
abbrev scM2 : Memref sig .tc .vmem S1024x1024 .f32 := Memref.whole cc2_scratch0

/-- The scoped buffers that are no staging buffer of this call, with the accumulator split off. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers, each at anything. -/
abbrev restB2 (c : Dev nD) : sProp 𝕄 :=
  Pipeline.scopedRestBut (Ix := Unit) (Name := ℕ) (U := UR sig nD τ) (Lvl := ℕ) (Val := Elt F) spec2 c [cc2_scratch0]

/-- The region's entry invariant with the accumulator as a memref owned at some contents. -/
theorem PhiA2_eq (c : Dev nD) :
    (Pipeline.ΦA spec2 c : sProp 𝕄)
      = iprop(iprop((∃ d, owns (c : Thread nD τ) scM2 fullShare d) ∗ restB2 (F := F) c) ∗ (∃ r, prngReg c r)) := by
  unfold Pipeline.ΦA; rw [scopedRest2_split]; simp only [scM2, owns_whole]; try rfl

/-- The invariant before position `n`: before the first point the entry invariant; afterwards the accumulator at what the
    point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((scAt2 V c n hn).2) ∗ restB2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((scAt2 V c n hn).2) ∗ restB2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((scAt2 V c (n - 1) (by omega)).2) ∗ restB2 (F := F) c) ∗ (∃ r, prngReg c r)) := by
  cases n with
  | zero => exact absurd rfl hz
  | succ n => rfl

/-! ## The proof data -/

/-- The proof data of the accumulation region on core `c`: the arrays as the region finds them; after the body each input's
    buffer at its block and the output's at the final payload of the accumulator; the two windows on the projected
    array hold half of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (scAt2 V c t.val t.isLt).1
  Φ t := PhiS2 V c t.val (Nat.le_of_lt_succ t.isLt)
  q := (fun | 0 => fullShare.left | 1 => fullShare.right | 2 => fullShare | 3 => fullShare | 4 => fullShare
            | ⟨_ + 5, h⟩ => absurd h (Nat.not_lt.2 (Nat.le_add_left _ _)) : Fin 5 → PosShare TreeShare)
  owed _ := 0

theorem A_eq2 (c : Dev nD) (w : Fin cfg2.W) : (dat2 V c).A w = V c (Pipeline.arrRef spec2 w) := by
  dsimp only [dat2]

theorem q2_0 (c : Dev nD) : (dat2 V c).q 0 = fullShare.left := rfl
theorem q2_1 (c : Dev nD) : (dat2 V c).q 1 = fullShare.right := rfl
theorem q2_2 (c : Dev nD) : (dat2 V c).q 2 = fullShare := rfl
theorem q2_3 (c : Dev nD) : (dat2 V c).q 3 = fullShare := rfl
theorem q2_4 (c : Dev nD) : (dat2 V c).q 4 = fullShare := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (scAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body at a point -/

/-- The body at point `t` on the point's staging memrefs and the accumulator: from the inputs at their blocks, the output's
    buffer at any contents `x7` and the accumulator at contents `acc` that, after the first point, are what the point
    before left, to the accumulator at this point's contents and the output's buffer at its final payload where the
    point stores it, else as it was. -/
theorem kernel_at2 (c : Dev nD) (t : Fin cfg2.N) (acc : Vec F S1024x1024 .f32)
    (hacc : ∀ h : t.val ≠ 0, acc = (scAt2 V c (t.val - 1) (Nat.lt_of_le_of_lt (Nat.sub_le _ _) t.isLt)).2)
    (x7 : Vec F S1x1024x1024 .f32) (K : PUnit → sProp 𝕄) :
    iprop(owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare x7 ∗ owns (c : Thread nD τ) scM2 fullShare acc
        ∗ (iprop(owns (c : Thread nD τ) (st2_0 t) fullShare (iblk2 V c 0 t) ∗ owns (c : Thread nD τ) (st2_1 t) fullShare (iblk2 V c 1 t)
            ∗ owns (c : Thread nD τ) (st2_2 t) fullShare (iblk2 V c 2 t) ∗ owns (c : Thread nD τ) (st2_3 t) fullShare (iblk2 V c 3 t)
            ∗ owns (c : Thread nD τ) (st2_4 t) fullShare (fin2 (t.val % 4 = 3) (scAt2 V c t.val t.isLt).2 x7)
            ∗ owns (c : Thread nD τ) scM2 fullShare (scAt2 V c t.val t.isLt).2) -∗ K ⟨⟩))
      ⊢ wp frame (wpE (defs₀ (F := F)) Variants.none c none) Set.univ (bodyAt2 t) K := by
  rw [scAt2_snd V c t acc hacc]; unfold stepAcc2
  exact sound_kernel2 c Set.univ (grid2.coords t) _ _ _ _ _ _ _ _ _ _ _ _ (t.val % 4 = 0) (t.val % 4 < 2 * (t.val / 4 % 2 + 1)) (t.val % 4 = 3)
    (hcond2_0 t) (hcond2_1 t) (hcond2_2 t) (iblk2 V c 0 t) (iblk2 V c 1 t) (iblk2 V c 2 t) (iblk2 V c 3 t) x7 acc K

/-- At a point that stores the output block. -/
theorem kernel_at2_live (c : Dev nD) (t : Fin cfg2.N) (h2 : t.val % 4 = 3) (acc : Vec F S1024x1024 .f32)
    (hacc : ∀ h : t.val ≠ 0, acc = (scAt2 V c (t.val - 1) (Nat.lt_of_le_of_lt (Nat.sub_le _ _) t.isLt)).2)
    (x7 : Vec F S1x1024x1024 .f32) (K : PUnit → sProp 𝕄) :
    iprop(owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare x7 ∗ owns (c : Thread nD τ) scM2 fullShare acc
        ∗ (iprop(owns (c : Thread nD τ) (st2_0 t) fullShare (iblk2 V c 0 t) ∗ owns (c : Thread nD τ) (st2_1 t) fullShare (iblk2 V c 1 t)
            ∗ owns (c : Thread nD τ) (st2_2 t) fullShare (iblk2 V c 2 t) ∗ owns (c : Thread nD τ) (st2_3 t) fullShare (iblk2 V c 3 t)
            ∗ owns (c : Thread nD τ) (st2_4 t) fullShare (scAt2 V c t.val t.isLt).1
            ∗ owns (c : Thread nD τ) scM2 fullShare (scAt2 V c t.val t.isLt).2) -∗ K ⟨⟩))
      ⊢ wp frame (wpE (defs₀ (F := F)) Variants.none c none) Set.univ (bodyAt2 t) K := by
  have h := kernel_at2 V c t acc hacc x7 K
  rw [fin2_pos h2, ← scAt2_fst V c t] at h
  exact h

/-- At a point that leaves the output's buffer alone. -/
theorem kernel_at2_idle (c : Dev nD) (t : Fin cfg2.N) (h2 : ¬t.val % 4 = 3) (acc : Vec F S1024x1024 .f32)
    (hacc : ∀ h : t.val ≠ 0, acc = (scAt2 V c (t.val - 1) (Nat.lt_of_le_of_lt (Nat.sub_le _ _) t.isLt)).2)
    (x7 : Vec F S1x1024x1024 .f32) (K : PUnit → sProp 𝕄) :
    iprop(owns (c : Thread nD τ) (st2_0 t) fullShare (iblk2 V c 0 t) ∗ owns (c : Thread nD τ) (st2_1 t) fullShare (iblk2 V c 1 t)
        ∗ owns (c : Thread nD τ) (st2_2 t) fullShare (iblk2 V c 2 t) ∗ owns (c : Thread nD τ) (st2_3 t) fullShare (iblk2 V c 3 t)
        ∗ owns (c : Thread nD τ) (st2_4 t) fullShare x7 ∗ owns (c : Thread nD τ) scM2 fullShare acc
        ∗ (iprop(owns (c : Thread nD τ) (st2_0 t) fullShare (iblk2 V c 0 t) ∗ owns (c : Thread nD τ) (st2_1 t) fullShare (iblk2 V c 1 t)
            ∗ owns (c : Thread nD τ) (st2_2 t) fullShare (iblk2 V c 2 t) ∗ owns (c : Thread nD τ) (st2_3 t) fullShare (iblk2 V c 3 t)
            ∗ owns (c : Thread nD τ) (st2_4 t) fullShare x7
            ∗ owns (c : Thread nD τ) scM2 fullShare (scAt2 V c t.val t.isLt).2) -∗ K ⟨⟩))
      ⊢ wp frame (wpE (defs₀ (F := F)) Variants.none c none) Set.univ (bodyAt2 t) K := by
  have h := kernel_at2 V c t acc hacc x7 K
  rw [fin2_neg h2] at h
  exact h

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  rw [← after2_0 V c t]
theorem leaves2_1 (c : Dev nD) (t : Fin cfg2.N) :
    (dat2 V c).leavesExact 1 t = owns (c : Thread nD τ) (st2_1 t) fullShare (iblk2 V c 1 t) := by
  rw [← after2_1 V c t]
theorem leaves2_2 (c : Dev nD) (t : Fin cfg2.N) :
    (dat2 V c).leavesExact 2 t = owns (c : Thread nD τ) (st2_2 t) fullShare (iblk2 V c 2 t) := by
  rw [← after2_2 V c t]
theorem leaves2_3 (c : Dev nD) (t : Fin cfg2.N) :
    (dat2 V c).leavesExact 3 t = owns (c : Thread nD τ) (st2_3 t) fullShare (iblk2 V c 3 t) := by
  rw [← after2_3 V c t]
theorem leaves2_4_live (c : Dev nD) (t : Fin cfg2.N) (h2 : t.val % 4 = 3) :
    (dat2 V c).leavesExact 4 t = owns (c : Thread nD τ) (st2_4 t) fullShare (scAt2 V c t.val t.isLt).1 := by
  unfold Dat.leavesExact; rw [liveAt2_4 t h2, after2_4]
theorem leaves2_4_idle (c : Dev nD) (t : Fin cfg2.N) (h2 : ¬t.val % 4 = 3) :
    (dat2 V c).leavesExact 4 t = iprop(∃ d, owns (c : Thread nD τ) (st2_4 t) fullShare ((dat2 V c).before 4 t d)) :=
  Dat.leavesExact_idle (dat2 V c) 4 t (idleAt2_4 t h2) (noFlush2_4 t h2)

set_option maxHeartbeats 4000000 in
/-- The body at any point: the inputs' memrefs hold their blocks; the invariant hands the body the accumulator at what the
    point before left (at anything at the first point, where the body resets it) and takes it back at this point's
    contents; the output's buffer comes back at the final payload where the point stores it, else as it was handed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  have hN : t.val < 64 := lt_of_lt_of_eq t.isLt (show cfg2.N = 64 from N_2)
  by_cases h2 : t.val % 4 = 3
  · have hz : t.val ≠ 0 := by omega
    rw [leaves2_4_live V c t h2, PhiS2_castSucc V c t, PhiS2_pos V c _ _ hz]
    iintro ⟨⟨⟨HS, HR⟩, Hg⟩, Ho, ⟨%d0, H0⟩, ⟨%d1, H1⟩, ⟨%d2, H2⟩, ⟨%d3, H3⟩, ⟨%d4, H4⟩⟩
    iapply (kernel_at2_live V c t h2 _ (fun _ => rfl) ((dat2 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [leaves2_4_idle V c t h2]
    by_cases hz : t.val = 0
    · rw [PhiS2_castSucc V c t, PhiS2_zero V c _ _ hz, PhiA2_eq]
      iintro ⟨⟨⟨⟨%a, HS⟩, HR⟩, Hg⟩, Ho, ⟨%d0, H0⟩, ⟨%d1, H1⟩, ⟨%d2, H2⟩, ⟨%d3, H3⟩, ⟨%d4, H4⟩⟩
      iapply (kernel_at2_idle V c t h2 a (fun h => absurd hz h) ((dat2 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (kernel_at2_idle V c t h2 _ (fun _ => rfl) ((dat2 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the entry invariant back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 64 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, HR⟩, Hg⟩
  isplitl [HS HR]
  · isplitl [HS]
    · iexists _; iexact HS
    iexact HR
  iexact Hg

end Cert.KernelIdeal.Hand

end
-- ==== Proof.KI.Run.lean ====
import proofs.«407224_j18210661335624_3_alg».proof.Proof.KI.Reg0
import proofs.«407224_j18210661335624_3_alg».proof.Proof.KI.Reg1
import proofs.«407224_j18210661335624_3_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The whole program as a run: the two host operations, then the three kernel calls, each entered from what the
  one before left in the core's buffers.

  The buffers' contents at the four boundaries are named `W1 … W4`.  A call's result arrays end at what its
  write-backs leave (`Dat.arrAt`), every other buffer as the call found it.  The statistics and the accumulation
  kernels read the projected activations through TWO windows each; the array is then held at two half shares,
  one per window, split at the call's entry and rejoined at its exit.  No call writes an argument array, so the
  three arguments end as launched; the last boundary's contents of the result array are what the value theorems
  of the three calls describe.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Facts
variable (V : (c : Dev nD) → (b : Ref sig .tc) → Buf (Elt F) ((c : Thread nD τ).loc b))
theorem dat0_owed (c : Dev nD) (t) : (dat0 V c).owed t = 0 := rfl
theorem dat0_q (c : Dev nD) (w) : (dat0 V c).q w = fullShare := rfl
theorem dat1_owed (c : Dev nD) (t) : (dat1 V c).owed t = 0 := rfl
theorem dat1_rec (c : Dev nD) (t) : (dat1 V c).recorded t = Set.univ := rfl
theorem dat2_owed (c : Dev nD) (t) : (dat2 V c).owed t = 0 := rfl
theorem dat2_rec (c : Dev nD) (t) : (dat2 V c).recorded t = Set.univ := rfl
end Facts

variable (m : (ℓ : Loc nD τ sig) → Buf (Elt F) ℓ) (ρ : Dev nD → PrngReg)

/-! ## The buffers' contents at each boundary of @main -/

/-- Core `c`'s buffers at launch. -/
abbrev W0 : Dev nD → Valuation τ sig (Elt F) := fun c b => (s₀ m ρ).mem ((c : Dev nD), b)
/-- After the two host operations (the bias as a row, the weights' change of format). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection: its two result arrays at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the statistics kernel: `main_v3` at what its write-backs leave, every other buffer as entered. -/
def W3 (c : Dev nD) : Valuation τ sig (Elt F) :=
  Function.update (W2 m ρ c) (Proc.devRef .tc main_v3) ((dat1 (V2 m ρ) c).arrAt 2 cfg1.N)
abbrev V3 : (c : Dev nD) → (b : Ref sig .tc) → Buf (Elt F) ((c : Thread nD τ).loc b) := fun c b => W3 m ρ c b
theorem W3_v3 (c : Dev nD) : W3 m ρ c (Proc.devRef .tc main_v3) = (dat1 (V2 m ρ) c).arrAt 2 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..
/-- After the accumulation kernel: `main_v4` at what its write-backs leave, every other buffer as entered. -/
def W4 (c : Dev nD) : Valuation τ sig (Elt F) :=
  Function.update (W3 m ρ c) (Proc.devRef .tc main_v4) ((dat2 (V3 m ρ) c).arrAt 4 cfg2.N)
abbrev V4 : (c : Dev nD) → (b : Ref sig .tc) → Buf (Elt F) ((c : Thread nD τ).loc b) := fun c b => W4 m ρ c b
theorem W4_v4 (c : Dev nD) : W4 m ρ c (Proc.devRef .tc main_v4) = (dat2 (V3 m ρ) c).arrAt 4 cfg2.N := by
  unfold W4; exact Function.update_self ..
theorem W4_of_ne (c : Dev nD) (b : Ref sig .tc) (hb : b ≠ main_v4) :
    W4 m ρ c (Proc.devRef .tc b) = W3 m ρ c (Proc.devRef .tc b) := by
  unfold W4; exact Function.update_of_ne (StableHlo.devRef_ne_of_ne hb) ..

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host operation allocates a buffer. -/
theorem hostOps0_fresh' : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The projection as a segment -/

set_option backward.isDefEq.respectTransparency.types false in
/-- The projection over the thread state: entered from every unscoped buffer at `W1`, left at `W2`. Its arrays are
    distinct buffers, split out of the unscoped buffers and put back at the exit contents; the generator register
    goes into the invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => dat0_owed (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => dat0_q (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from dat0_owed (V1 m ρ) c 0]
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => dat0_q (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from dat0_owed (V1 m ρ) c _]
    icases HO with ⟨%W, -, HO⟩; iexists W; iexact HO

/-! ## One array read through two windows: each window holds half of it -/

/-- The two buffers the statistics kernel's windows stand on. -/
abbrev T1 : Finset (DevRef τ sig) := {Proc.devRef .tc main_v2_0, Proc.devRef .tc main_v3}

theorem T1_sub : T1 ⊆ Pipeline.ucRefs τ sig := by
  intro b hb
  rcases Finset.mem_insert.mp hb with rfl | hb
  · exact mem_uc main_v2_0 (by decide)
  · rw [Finset.mem_singleton.mp hb]; exact mem_uc main_v3 (by decide)

/-- The statistics kernel's arrays: the projected activations at a half share for each of the two windows that
    read them, the result array whole. -/
theorem arrays1_eq (c : Dev nD) (dat : Dat τ (Elt F) Unit ℕ (UR sig nD τ) ℕ cfg1 c)
    (h0 : dat.q 0 = fullShare.left) (h1 : dat.q 1 = fullShare.right)
    (Fw : (w : Fin cfg1.W) → Buf (Elt F) ((cfg1.win w).arr.view.loc (c : Thread nD τ))) :
    (dat.arrays Fw : sProp 𝕄)
      = iprop((((c : Thread nD τ).loc main_v2_0) ↦{fullShare.left} Fw 0) ∗ (((c : Thread nD τ).loc main_v2_0) ↦{fullShare.right} Fw 1)
          ∗ (((c : Thread nD τ).loc main_v3) ↦{fullShare} Fw 2)) := by
  have s0 : dat.share 0 = fullShare.left := by unfold Dat.share; rw [if_neg (by decide)]; exact h0
  have s1 : dat.share 1 = fullShare.right := by unfold Dat.share; rw [if_neg (by decide)]; exact h1
  have s2 : dat.share 2 = fullShare := by unfold Dat.share; rw [if_pos (by decide)]
  unfold Dat.arrays
  rw [bigSep_W1, (arr_whole1 0).set_eq_univ, (arr_whole1 2).set_eq_univ, s0, s1, s2]

theorem held_T1 (c : Dev nD) (W : Valuation τ sig (Elt F)) :
    (StableHlo.held (c : Thread nD τ) T1 W : sProp 𝕄)
      = iprop((((c : Thread nD τ).1, Proc.devRef .tc main_v2_0) ↦{fullShare} W (Proc.devRef .tc main_v2_0))
          ∗ (((c : Thread nD τ).1, Proc.devRef .tc main_v3) ↦{fullShare} W (Proc.devRef .tc main_v3))) := by
  unfold StableHlo.held
  rw [show T1 = insert (Proc.devRef .tc main_v2_0) {Proc.devRef .tc main_v3} from rfl,
    BI.bigSep_insert (by decide), BI.bigSep_singleton]
  rfl

/-- ENTRY of the statistics kernel: its arrays out of the unscoped buffers, the projected activations split into
    the two half shares its two reading windows hold. -/
theorem entry1 (c : Dev nD) :
    (StableHlo.held (c : Thread nD τ) (Pipeline.ucRefs τ sig) (W2 m ρ c) : sProp 𝕄)
      ⊢ iprop((dat1 (V2 m ρ) c).arrays ((dat1 (V2 m ρ) c).arrAt · 0)
          ∗ StableHlo.held (c : Thread nD τ) (Pipeline.ucRefs τ sig \ T1) (W2 m ρ c)) := by
  rw [arrays1_eq c (dat1 (V2 m ρ) c) (q1_0 (V2 m ρ) c) (q1_1 (V2 m ρ) c), StableHlo.held_sub_split (c : Thread nD τ) T1_sub (W2 m ρ c), held_T1]
  have e0 : (dat1 (V2 m ρ) c).arrAt 0 0 = W2 m ρ c (Proc.devRef .tc main_v2_0) := A_eq1 (V2 m ρ) c 0
  have e1 : (dat1 (V2 m ρ) c).arrAt 1 0 = W2 m ρ c (Proc.devRef .tc main_v2_0) := A_eq1 (V2 m ρ) c 1
  have e2 : (dat1 (V2 m ρ) c).arrAt 2 0 = W2 m ρ c (Proc.devRef .tc main_v3) := A_eq1 (V2 m ρ) c 2
  rw [e0, e1, e2]
  iintro ⟨⟨Ha, Hb⟩, Hrest⟩
  ihave Ha' := (pointsTo_share (PosShare.mem_left_op_right fullShare)).1 $$ Ha
  icases Ha' with ⟨Hl, Hr⟩
  isplitr [Hrest]
  · isplitl [Hl]; · iexact Hl
    isplitl [Hr]; · iexact Hr
    iexact Hb
  iexact Hrest

/-- EXIT of the statistics kernel: the two halves of the projected activations rejoined, the result array at what
    the write-backs left; every other buffer as entered. -/
theorem exit1 (c : Dev nD) :
    iprop((dat1 (V2 m ρ) c).arrays ((dat1 (V2 m ρ) c).arrAt · cfg1.N)
        ∗ StableHlo.held (c : Thread nD τ) (Pipeline.ucRefs τ sig \ T1) (W2 m ρ c))
      ⊢ (StableHlo.held (c : Thread nD τ) (Pipeline.ucRefs τ sig) (W3 m ρ c) : sProp 𝕄) := by
  rw [arrays1_eq c (dat1 (V2 m ρ) c) (q1_0 (V2 m ρ) c) (q1_1 (V2 m ρ) c), StableHlo.held_sub_split (c : Thread nD τ) T1_sub (W3 m ρ c), held_T1]
  have e0 : (dat1 (V2 m ρ) c).arrAt 0 cfg1.N = W3 m ρ c (Proc.devRef .tc main_v2_0) :=
    (((dat1 (V2 m ρ) c).arrAt_in 0 rfl _).trans (A_eq1 (V2 m ρ) c 0)).trans (W3_of_ne m ρ c main_v2_0 (by decide)).symm
  have e1 : (dat1 (V2 m ρ) c).arrAt 1 cfg1.N = W3 m ρ c (Proc.devRef .tc main_v2_0) :=
    (((dat1 (V2 m ρ) c).arrAt_in 1 rfl _).trans (A_eq1 (V2 m ρ) c 1)).trans (W3_of_ne m ρ c main_v2_0 (by decide)).symm
  have e2 : (dat1 (V2 m ρ) c).arrAt 2 cfg1.N = W3 m ρ c (Proc.devRef .tc main_v3) := (W3_v3 m ρ c).symm
  rw [e0, e1, e2]
  have hrest : (StableHlo.held (c : Thread nD τ) (Pipeline.ucRefs τ sig \ T1) (W3 m ρ c) : sProp 𝕄)
      = StableHlo.held (c : Thread nD τ) (Pipeline.ucRefs τ sig \ T1) (W2 m ρ c) := by
    unfold StableHlo.held
    refine BI.bigSep_congr fun b hb => ?_
    have hb' : b ≠ Proc.devRef .tc main_v3 := fun h => (Finset.mem_sdiff.mp hb).2 (by rw [h]; exact Finset.mem_insert_of_mem (Finset.mem_singleton_self _))
    unfold W3; rw [Function.update_of_ne hb']
  rw [hrest]
  iintro ⟨⟨Hl, Hr, Hb⟩, Hrest⟩
  isplitr [Hrest]
  · isplitr [Hb]
    · iapply (pointsTo_share (PosShare.mem_left_op_right fullShare)).2
      isplitl [Hl]; · iexact Hl
      iexact Hr
    iexact Hb
  iexact Hrest

/-! ## The statistics kernel as a segment -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun c t => dat1_owed (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := StableHlo.held (c : Thread nD τ) (Pipeline.ucRefs τ sig \ T1) (W2 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from dat1_owed (V2 m ρ) c 0]
      icases HO with ⟨%W, HO⟩; iexists W; isplitr; · ipureintro; exact fun _ _ => Or.inl (dat1_rec (V2 m ρ) c 0 ▸ trivial)
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m ρ c)
      isplitl [Ha]; · iexact Ha
      iexact Hrest
    isplitl [HY]; · iexact HY
    unfold Pipeline.Dat.owesAt Pipeline.owesWithin
    rw [show (pdats m ρ 1 c).owed (Fin.last _) = 0 from dat1_owed (V2 m ρ) c _]
    icases HO with ⟨%W, -, HO⟩; iexists W; iexact HO

/-! ## The accumulation kernel: again two windows on the projected activations -/

/-- The four buffers the accumulation kernel's windows stand on. -/
abbrev T2 : Finset (DevRef τ sig) :=
  {Proc.devRef .tc main_v2_0, Proc.devRef .tc main_v3, Proc.devRef .tc main_v2_1, Proc.devRef .tc main_v4}

theorem T2_sub : T2 ⊆ Pipeline.ucRefs τ sig := by
  intro b hb
  rcases Finset.mem_insert.mp hb with rfl | hb
  · exact mem_uc main_v2_0 (by decide)
  rcases Finset.mem_insert.mp hb with rfl | hb
  · exact mem_uc main_v3 (by decide)
  rcases Finset.mem_insert.mp hb with rfl | hb
  · exact mem_uc main_v2_1 (by decide)
  · rw [Finset.mem_singleton.mp hb]; exact mem_uc main_v4 (by decide)

theorem arrays2_eq (c : Dev nD) (dat : Dat τ (Elt F) Unit ℕ (UR sig nD τ) ℕ cfg2 c)
    (h0 : dat.q 0 = fullShare.left) (h1 : dat.q 1 = fullShare.right) (h2 : dat.q 2 = fullShare) (h3 : dat.q 3 = fullShare)
    (Fw : (w : Fin cfg2.W) → Buf (Elt F) ((cfg2.win w).arr.view.loc (c : Thread nD τ))) :
    (dat.arrays Fw : sProp 𝕄)
      = iprop((((c : Thread nD τ).loc main_v2_0) ↦{fullShare.left} Fw 0) ∗ (((c : Thread nD τ).loc main_v2_0) ↦{fullShare.right} Fw 1)
          ∗ (((c : Thread nD τ).loc main_v3) ↦{fullShare} Fw 2) ∗ (((c : Thread nD τ).loc main_v2_1) ↦{fullShare} Fw 3)
          ∗ (((c : Thread nD τ).loc main_v4) ↦{fullShare} Fw 4)) := by
  have s0 : dat.share 0 = fullShare.left := by unfold Dat.share; rw [if_neg (by decide)]; exact h0
  have s1 : dat.share 1 = fullShare.right := by unfold Dat.share; rw [if_neg (by decide)]; exact h1
  have s2 : dat.share 2 = fullShare := by unfold Dat.share; rw [if_neg (by decide)]; exact h2
  have s3 : dat.share 3 = fullShare := by unfold Dat.share; rw [if_neg (by decide)]; exact h3
  have s4 : dat.share 4 = fullShare := by unfold Dat.share; rw [if_pos (by decide)]
  unfold Dat.arrays
  rw [bigSep_W2, (arr_whole2 0).set_eq_univ, (arr_whole2 2).set_eq_univ, (arr_whole2 3).set_eq_univ, (arr_whole2 4).set_eq_univ, s0, s1, s2, s3, s4]

theorem held_T2 (c : Dev nD) (W : Valuation τ sig (Elt F)) :
    (StableHlo.held (c : Thread nD τ) T2 W : sProp 𝕄)
      = iprop((((c : Thread nD τ).1, Proc.devRef .tc main_v2_0) ↦{fullShare} W (Proc.devRef .tc main_v2_0))
          ∗ (((c : Thread nD τ).1, Proc.devRef .tc main_v3) ↦{fullShare} W (Proc.devRef .tc main_v3))
          ∗ (((c : Thread nD τ).1, Proc.devRef .tc main_v2_1) ↦{fullShare} W (Proc.devRef .tc main_v2_1))
          ∗ (((c : Thread nD τ).1, Proc.devRef .tc main_v4) ↦{fullShare} W (Proc.devRef .tc main_v4))) := by
  unfold StableHlo.held
  rw [show T2 = insert (Proc.devRef .tc main_v2_0) (insert (Proc.devRef .tc main_v3) (insert (Proc.devRef .tc main_v2_1) {Proc.devRef .tc main_v4})) from rfl,
    BI.bigSep_insert (by decide), BI.bigSep_insert (by decide), BI.bigSep_insert (by decide), BI.bigSep_singleton]
  rfl

theorem entry2 (c : Dev nD) :
    (StableHlo.held (c : Thread nD τ) (Pipeline.ucRefs τ sig) (W3 m ρ c) : sProp 𝕄)
      ⊢ iprop((dat2 (V3 m ρ) c).arrays ((dat2 (V3 m ρ) c).arrAt · 0)
          ∗ StableHlo.held (c : Thread nD τ) (Pipeline.ucRefs τ sig \ T2) (W3 m ρ c)) := by
  rw [arrays2_eq c (dat2 (V3 m ρ) c) (q2_0 (V3 m ρ) c) (q2_1 (V3 m ρ) c) (q2_2 (V3 m ρ) c) (q2_3 (V3 m ρ) c),
    StableHlo.held_sub_split (c : Thread nD τ) T2_sub (W3 m ρ c), held_T2]
  have e0 : (dat2 (V3 m ρ) c).arrAt 0 0 = W3 m ρ c (Proc.devRef .tc main_v2_0) := A_eq2 (V3 m ρ) c 0
  have e1 : (dat2 (V3 m ρ) c).arrAt 1 0 = W3 m ρ c (Proc.devRef .tc main_v2_0) := A_eq2 (V3 m ρ) c 1
  have e2 : (dat2 (V3 m ρ) c).arrAt 2 0 = W3 m ρ c (Proc.devRef .tc main_v3) := A_eq2 (V3 m ρ) c 2
  have e3 : (dat2 (V3 m ρ) c).arrAt 3 0 = W3 m ρ c (Proc.devRef .tc main_v2_1) := A_eq2 (V3 m ρ) c 3
  have e4 : (dat2 (V3 m ρ) c).arrAt 4 0 = W3 m ρ c (Proc.devRef .tc main_v4) := A_eq2 (V3 m ρ) c 4
  rw [e0, e1, e2, e3, e4]
  iintro ⟨⟨Ha, Hb, Hc, Hd⟩, Hrest⟩
  ihave Ha' := (pointsTo_share (PosShare.mem_left_op_right fullShare)).1 $$ Ha
  icases Ha' with ⟨Hl, Hr⟩
  isplitr [Hrest]
  · isplitl [Hl]; · iexact Hl
    isplitl [Hr]; · iexact Hr
    isplitl [Hb]; · iexact Hb
    isplitl [Hc]; · iexact Hc
    iexact Hd
  iexact Hrest

theorem exit2 (c : Dev nD) :
    iprop((dat2 (V3 m ρ) c).arrays ((dat2 (V3 m ρ) c).arrAt · cfg2.N)
        ∗ StableHlo.held (c : Thread nD τ) (Pipeline.ucRefs τ sig \ T2) (W3 m ρ c))
      ⊢ (StableHlo.held (c : Thread nD τ) (Pipeline.ucRefs τ sig) (W4 m ρ c) : sProp 𝕄) := by
  rw [arrays2_eq c (dat2 (V3 m ρ) c) (q2_0 (V3 m ρ) c) (q2_1 (V3 m ρ) c) (q2_2 (V3 m ρ) c) (q2_3 (V3 m ρ) c),
    StableHlo.held_sub_split (c : Thread nD τ) T2_sub (W4 m ρ c), held_T2]
  have e0 : (dat2 (V3 m ρ) c).arrAt 0 cfg2.N = W4 m ρ c (Proc.devRef .tc main_v2_0) :=
    (((dat2 (V3 m ρ) c).arrAt_in 0 rfl _).trans (A_eq2 (V3 m ρ) c 0)).trans (W4_of_ne m ρ c main_v2_0 (by decide)).symm
  have e1 : (dat2 (V3 m ρ) c).arrAt 1 cfg2.N = W4 m ρ c (Proc.devRef .tc main_v2_0) :=
    (((dat2 (V3 m ρ) c).arrAt_in 1 rfl _).trans (A_eq2 (V3 m ρ) c 1)).trans (W4_of_ne m ρ c main_v2_0 (by decide)).symm
  have e2 : (dat2 (V3 m ρ) c).arrAt 2 cfg2.N = W4 m ρ c (Proc.devRef .tc main_v3) :=
    (((dat2 (V3 m ρ) c).arrAt_in 2 rfl _).trans (A_eq2 (V3 m ρ) c 2)).trans (W4_of_ne m ρ c main_v3 (by decide)).symm
  have e3 : (dat2 (V3 m ρ) c).arrAt 3 cfg2.N = W4 m ρ c (Proc.devRef .tc main_v2_1) :=
    (((dat2 (V3 m ρ) c).arrAt_in 3 rfl _).trans (A_eq2 (V3 m ρ) c 3)).trans (W4_of_ne m ρ c main_v2_1 (by decide)).symm
  have e4 : (dat2 (V3 m ρ) c).arrAt 4 cfg2.N = W4 m ρ c (Proc.devRef .tc main_v4) := (W4_v4 m ρ c).symm
  rw [e0, e1, e2, e3, e4]
  have hrest : (StableHlo.held (c : Thread nD τ) (Pipeline.ucRefs τ sig \ T2) (W4 m ρ c) : sProp 𝕄)
      = StableHlo.held (c : Thread nD τ) (Pipeline.ucRefs τ sig \ T2) (W3 m ρ c) := by
    unfold StableHlo.held
    refine BI.bigSep_congr fun b hb => ?_
    have hb' : b ≠ Proc.devRef .tc main_v4 := fun h => (Finset.mem_sdiff.mp hb).2 (by rw [h]; decide)
    unfold W4; rw [Function.update_of_ne hb']
  rw [hrest]
  iintro ⟨⟨Hl, Hr, Hb, Hc, Hd⟩, Hrest⟩
  isplitr [Hrest]
  · isplitl [Hl Hr]
    · iapply (pointsTo_share (PosShare.mem_left_op_right fullShare)).2
      isplitl [Hl]; · iexact Hl
      iexact Hr
    isplitl [Hb]; · iexact Hb
    isplitl [Hc]; · iexact Hc
    iexact Hd
  iexact Hrest

/-! ## The accumulation kernel as a segment -/

set_option backward.isDefEq.respectTransparency.types false in
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun c t => dat2_owed (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := StableHlo.held (c : Thread nD τ) (Pipeline.ucRefs τ sig \ T2) (W3 m ρ c)
  hentry c := by
    rw [Pipeline.ownSems0_none]
    iintro ⟨⟨Hub, Hp, HO⟩, -, -⟩
    ihave H := (entry2 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from dat2_owed (V3 m ρ) c 0]
      icases HO with ⟨%W, HO⟩; iexists W; isplitr; · ipureintro; exact fun _ _ => Or.inl (dat2_rec (V3 m ρ) c 0 ▸ trivial)
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit2 m ρ c)
        isplitl [Ha]; · iexact Ha
        iexact Hrest
      iexact HY
    unfold Pipeline.Dat.owesAt Pipeline.owesWithin
    rw [show (pdats m ρ 2 c).owed (Fin.last _) = 0 from dat2_owed (V3 m ρ) c _]
    icases HO with ⟨%W, -, HO⟩; iexists W; iexact HO

/-! ## @main as segments, and the launch -/

/-- @main's four segments in order: the host stretch, then the three kernel calls. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing
    faulting, and every final state holds each unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the last boundary holds -/

/-- No host operation and no kernel call writes an argument: it ends as launched. -/
theorem W1_of_not_written (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_written m ρ c main_arg0 (by decide) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_written m ρ c main_arg1 (by decide) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_written m ρ c main_arg2 (by decide) (by decide)
    _ = m ((c : Thread nD τ).loc main_arg2) := rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.KernelIdeal.Hand

end
-- ==== Proof.Spec.lean ====
import Idealize.ShloMosaic.Lib.ValueIdx
import Idealize.ShloMosaic.PureOps.Ideal
import Mathlib.Analysis.SpecialFunctions.Log.Basic
import Mathlib.Analysis.SpecialFunctions.Exp

/-!
  The mathematics of the claim, over the reals.

  With `x : [8, 2048, 1024]`, `w : [1024, 1024]`, `bias : [1024]`:
  * the projection `xp b t e = Σ_d x b t d · w d e + bias e`;
  * the scaled correlation `sc b t s = (Σ_e xp b t e · xp b s e) · (1/32)` (32 = √1024);
  * the causal column normaliser: for a key position `s` only the rows `t ≥ s` count,
    `lse b s = log Σ_{t ≥ s} exp (sc b t s)`;
  * the result `out b t d = Σ_{s ≤ t} exp (sc b t s − lse b s) · x b s d`.
  The reference normalises each column through its maximum `colMax` and the sum `colSum` of the
  shifted exponentials; `refOut` is that form, and it is the same function (`Cert.Math`).
  Arrays of extended reals that hold real numbers are written `emb1 … emb3`.
-/

noncomputable section

namespace Cert.Spec

open Idealize.ShloMosaic

/-- A rank-3 array of extended reals holding the reals `f`. -/
def emb3 {n0 n1 n2 : Nat} (f : Fin n0 → Fin n1 → Fin n2 → ℝ) : (⟨3, ![n0, n1, n2]⟩ : Shape).Idx → EReal :=
  fun i => ((f (i 0) (i 1) (i 2) : ℝ) : EReal)

/-- A rank-2 array of extended reals holding the reals `f`. -/
def emb2 {n0 n1 : Nat} (f : Fin n0 → Fin n1 → ℝ) : (⟨2, ![n0, n1]⟩ : Shape).Idx → EReal :=
  fun i => ((f (i 0) (i 1) : ℝ) : EReal)

/-- A rank-1 array of extended reals holding the reals `f`. -/
def emb1 {n0 : Nat} (f : Fin n0 → ℝ) : (⟨1, ![n0]⟩ : Shape).Idx → EReal :=
  fun i => ((f (i 0) : ℝ) : EReal)

theorem emb3_apply {n0 n1 n2 : Nat} (f : Fin n0 → Fin n1 → Fin n2 → ℝ) (a : Fin n0) (b : Fin n1) (c : Fin n2) :
    emb3 f (ValueIdx.ix3 a b c) = ((f a b c : ℝ) : EReal) := rfl

theorem emb2_apply {n0 n1 : Nat} (f : Fin n0 → Fin n1 → ℝ) (a : Fin n0) (b : Fin n1) :
    emb2 f (ValueIdx.ix2 a b) = ((f a b : ℝ) : EReal) := rfl

theorem emb1_apply {n0 : Nat} (f : Fin n0 → ℝ) (a : Fin n0) :
    emb1 f (ValueIdx.ix1 a) = ((f a : ℝ) : EReal) := rfl

/-- Activations `[batch, position, feature]`. -/
abbrev Act := Fin 8 → Fin 2048 → Fin 1024 → ℝ

/-- The dense projection: `xp b t e = Σ_d x b t d · w d e + bias e`. -/
def xp (x : Act) (w : Fin 1024 → Fin 1024 → ℝ) (bias : Fin 1024 → ℝ) : Act :=
  fun b t e => (∑ d : Fin 1024, x b t d * w d e) + bias e

/-- The scaled correlation of rows `t` and `s` of batch `b`: `(Σ_e p b t e · p b s e) · (1/32)`. -/
def sc (p : Act) (b : Fin 8) (t s : Fin 2048) : ℝ :=
  (∑ e : Fin 1024, p b t e * p b s e) * (1 / 32)

/-- The causal column normaliser: `log Σ_{t ≥ s} exp (sc b t s)`. -/
def lse (p : Act) (b : Fin 8) (s : Fin 2048) : ℝ :=
  Real.log (∑ t ∈ Finset.univ.filter (fun t : Fin 2048 => s ≤ t), Real.exp (sc p b t s))

/-- Causal accumulation with a given column normaliser `l`:
    `Σ_{s ≤ t} exp (sc b t s − l b s) · x b s d`. -/
def outWith (p : Act) (l : Fin 8 → Fin 2048 → ℝ) (x : Act) : Act :=
  fun b t d => ∑ s ∈ Finset.univ.filter (fun s : Fin 2048 => s ≤ t), Real.exp (sc p b t s - l b s) * x b s d

/-- The kernel's result: the causal accumulation normalised by `lse`. -/
def out (p : Act) (x : Act) : Act := outWith p (lse p) x

/-- The largest correlation of column `s` among the rows `t ≥ s`. -/
def colMax (p : Act) (b : Fin 8) (s : Fin 2048) : ℝ :=
  (Finset.univ.filter (fun t : Fin 2048 => s ≤ t)).sup' ⟨s, by simp⟩ (fun t => sc p b t s)

/-- The sum over the rows `t ≥ s` of the exponentials shifted by the column's maximum. -/
def colSum (p : Act) (b : Fin 8) (s : Fin 2048) : ℝ :=
  ∑ t ∈ Finset.univ.filter (fun t : Fin 2048 => s ≤ t), Real.exp (sc p b t s - colMax p b s)

/-- The reference's form: each column normalised through its maximum and the sum of shifted exponentials,
    the entries above the diagonal (`s > t`) zero. -/
def refOut (p : Act) (x : Act) : Act :=
  fun b t d => ∑ s : Fin 2048, (if s ≤ t then Real.exp (sc p b t s - colMax p b s) / colSum p b s else 0) * x b s d

end Cert.Spec

end
-- ==== Proof.Val.Val0.lean ====
import proofs.«407224_j18210661335624_3_alg».proof.Proof.KI.Reg0
import proofs.«407224_j18210661335624_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The value of the projection call over the extended reals.

  Entered with the activations `x`, the weights `w` and the bias row `bias` (arrays of real numbers), the call
  leaves in its first result the projection `xp b t e = Σ_d x b t d · w d e + bias e` and in its second the
  activations themselves: rounding to the narrow type is the identity over the extended reals.

  Each grid point (i, j) writes the block of rows `1024·j … 1024·j + 1023` of batch `i`; the sixteen blocks tile
  the arrays, and the block written at a point is the block of the stated function.
-/

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The contraction of the projection, read at an index -/

theorem lhs_proj_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_proj_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_proj_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_proj_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into the zero accumulator, entry (p, q): the sum over k of A p k · B k q. -/
theorem matmul_proj_apply (A B : FVec Ideal S1024x1024 .bf16) (p q : Fin 1024) :
    matmul dot_S1024x1024_S1024x1024_S1024x1024_1_0_0_1_n_n none A B (constant (F := Ideal) S1024x1024 .f32 0x00000000#32) (ix2 p q)
      = ∑ k : Fin 1024, A (ix2 p k) * B (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- The projected block at (a, p, q): the row p of the activation block against the column q of the weights,
    plus the bias at q. -/
theorem proj_pay_apply (x0 : Vec Ideal S1x1024x1024 .f32) (x1 : Vec Ideal S1024x1024 .bf16) (x2 : Vec Ideal S1x1024 .f32)
    (a : Fin 1) (p q : Fin 1024) :
    k0_pay2 x0 x1 x2 (ix3 a p q) = (∑ k : Fin 1024, x0 (ix3 (0 : Fin 1) p k) * x1 (ix2 k q)) + x2 (ix2 (0 : Fin 1) q) := by
  unfold k0_pay2 k0_pay1
  dsimp only
  rw [shapeCast_ab_1ab_apply, truncf_apply, addf_apply, broadcastTo_1b_ab_apply, shapeCast_self, shapeCast_self, matmul_proj_apply]
  simp only [truncf_apply, shapeCast_1ab_ab_apply]

/-- The rounded input block at (a, p, q) is the input block there. -/
theorem round_pay_apply (x0 : Vec Ideal S1x1024x1024 .f32) (a : Fin 1) (p q : Fin 1024) :
    k0_pay3 x0 (ix3 a p q) = x0 (ix3 (0 : Fin 1) p q) := by
  unfold k0_pay3 k0_pay1
  dsimp only
  rw [shapeCast_ab_1ab_apply, truncf_apply, shapeCast_1ab_ab_apply]

/-- A finite sum of reals, taken in the extended reals. -/
theorem coe_sum_real {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ## One entry of the projected block, from the real arrays behind the three blocks read -/

/-- If row `p` of the activation block holds row `r` of batch `b` of `x`, the weight block holds `w` and the bias
    block holds `bias`, the projected block at (a, p, q) is `xp b r q`. -/
theorem proj_entry (x0 : Vec Ideal S1x1024x1024 .f32) (x1 : Vec Ideal S1024x1024 .bf16) (x2 : Vec Ideal S1x1024 .f32)
    (xr : Cert.Spec.Act) (wr : Fin 1024 → Fin 1024 → ℝ) (br : Fin 1024 → ℝ) (b : Fin 8) (r : Fin 2048)
    (a : Fin 1) (p q : Fin 1024)
    (h0 : ∀ k : Fin 1024, x0 (ix3 (0 : Fin 1) p k) = ((xr b r k : ℝ) : EReal))
    (h1 : ∀ k : Fin 1024, x1 (ix2 k q) = ((wr k q : ℝ) : EReal))
    (h2 : x2 (ix2 (0 : Fin 1) q) = ((br q : ℝ) : EReal)) :
    k0_pay2 x0 x1 x2 (ix3 a p q) = ((Cert.Spec.xp xr wr br b r q : ℝ) : EReal) := by
  rw [proj_pay_apply, h2]
  simp only [h0, h1]
  unfold Cert.Spec.xp
  rw [EReal.coe_add, coe_sum_real]
  simp only [EReal.coe_mul]

/-! ## Where the blocks lie -/

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the activation block moves with the result blocks, the weights and the bias stay,
    and the result blocks' indices are in range. -/
theorem idx_facts0 : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 7 ∧ win0_3.index t (1 : Fin 3) ≤ 1 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0 :=
  (by decide +kernel : ∀ t : Fin grid0.N, _)

/-- Every block of the results is some point's. -/
theorem idx_onto0_3 : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])
theorem idx_onto0_4 : ∀ (q0 : Fin 8) (q1 : Fin 2), ∃ t : Fin cfg0.N, win0_4.index t = ![q0.val, q1.val, 0] :=
  (by decide +kernel : ∀ (q0 : Fin 8) (q1 : Fin 2), ∃ t : Fin grid0.N, win0_4.index t = ![q0.val, q1.val, 0])

/-- An index of the array is in point `t`'s block iff each coordinate is in the block's range on its axis. -/
theorem mem_blk0_3 (t : Fin cfg0.N) (i : S8x2048x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v2_0).slice (win0_3.rect t)).set ↔ _
  rw [View.set_slice_whole, Rect.mem_set_unit]
  exact Iff.rfl
theorem mem_blk0_4 (t : Fin cfg0.N) (i : S8x2048x1024.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v2_1).slice (win0_4.rect t)).set ↔ _
  rw [View.set_slice_whole, Rect.mem_set_unit]
  exact Iff.rfl

/-- The blocks tile the array: (b, r, ·) lies in the block of the point whose indices are (b, r / 1024, 0). -/
theorem covered0_3 (i : S8x2048x1024.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ := idx_onto0_3 ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk0_3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega
theorem covered0_4 (i : S8x2048x1024.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 1024 := (i 2).isLt
  obtain ⟨t, ht⟩ := idx_onto0_4 ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-! ## What each point writes back -/

section Region0
variable (V : (c : Dev nD) → (b : Ref sig .tc) → Buf (Elt Ideal) ((c : Thread nD τ).loc b))

/-- What point `t` writes back to the first result is block `t` of the projection. -/
theorem flushed0_3_eq (c : Dev nD) (xr : Cert.Spec.Act) (wr : Fin 1024 → Fin 1024 → ℝ) (br : Fin 1024 → ℝ)
    (hx : V c main_arg0 = Cert.Spec.emb3 xr) (hw : V c main_v1 = Cert.Spec.emb2 wr)
    (hb : V c main_v0 = Cert.Spec.emb2 (fun (_ : Fin 1) e => br e)) (t : Fin cfg0.N) :
    (dat0 (F := Ideal) V c).flushed 3 t = ((cfg0.win 3).blk t).view.read (Elt Ideal) (Cert.Spec.emb3 (Cert.Spec.xp xr wr br)) := by
  show (cfg0.win 3).cut (grid0.coords t) ((dat0 (F := Ideal) V c).after 3 t) = _
  rw [after0_3]
  unfold out0_3
  rw [View.canon_unit_zero hz3]
  simp only [View.ld_unit_zero (S := S1x1024x1024) hz3, View.ld_unit_zero (S := S1024x1024) hz2, View.ld_unit_zero (S := S1x1024) hz2]
  obtain ⟨e00, e01, e02, e10, e11, e20, e21, b30, b31, e32, -, -, -⟩ := idx_facts0 t
  funext j
  obtain ⟨a, p, q, rfl⟩ : ∃ (a : Fin 1) (p q : Fin 1024), j = ix3 a p q := ⟨j 0, j 1, j 2, eq_ix3 j⟩
  have ha : a.val = 0 := by omega
  show k0_pay2 (iblk0 V c 0 t) (iblk0 V c 1 t) (iblk0 V c 2 t) (ix3 a p q)
    = Cert.Spec.emb3 (Cert.Spec.xp xr wr br) (((cfg0.win 3).blk t).view.emb (ix3 a p q))
  refine (proj_entry _ _ _ xr wr br ⟨win0_3.index t (0 : Fin 3), by omega⟩ ⟨win0_3.index t (1 : Fin 3) * 1024 + p.val, by have := p.isLt; omega⟩ a p q ?_ ?_ ?_).trans ?_
  · intro k
    show V c main_arg0 (((cfg0.win 0).blk t).view.emb (ix3 (0 : Fin 1) p k)) = _
    rw [hx]
    show ((xr _ _ _ : ℝ) : EReal) = _
    congr 2
    · apply Fin.ext
      show win0_0.index t (0 : Fin 3) * 1 + 1 * 0 = win0_3.index t (0 : Fin 3); omega
    · apply Fin.ext
      show win0_0.index t (1 : Fin 3) * 1024 + 1 * p.val = win0_3.index t (1 : Fin 3) * 1024 + p.val; omega
    · apply Fin.ext
      show win0_0.index t (2 : Fin 3) * 1024 + 1 * k.val = k.val; omega
  · intro k
    show V c main_v1 (((cfg0.win 1).blk t).view.emb (ix2 k q)) = _
    rw [hw]
    show ((wr _ _ : ℝ) : EReal) = _
    congr 2
    · apply Fin.ext
      show win0_1.index t (0 : Fin 2) * 1024 + 1 * k.val = k.val; omega
    · apply Fin.ext
      show win0_1.index t (1 : Fin 2) * 1024 + 1 * q.val = q.val; omega
  · show V c main_v0 (((cfg0.win 2).blk t).view.emb (ix2 (0 : Fin 1) q)) = _
    rw [hb]
    show ((br _ : ℝ) : EReal) = _
    congr 2
    apply Fin.ext
    show win0_2.index t (1 : Fin 2) * 1024 + 1 * q.val = q.val; omega
  · show _ = ((Cert.Spec.xp xr wr br _ _ _ : ℝ) : EReal)
    congr 2
    · apply Fin.ext
      show win0_3.index t (0 : Fin 3) = win0_3.index t (0 : Fin 3) * 1 + 1 * a.val; omega
    · apply Fin.ext
      show win0_3.index t (1 : Fin 3) * 1024 + p.val = win0_3.index t (1 : Fin 3) * 1024 + 1 * p.val; omega
    · apply Fin.ext
      show q.val = win0_3.index t (2 : Fin 3) * 1024 + 1 * q.val; omega

/-- What point `t` writes back to the second result is block `t` of the activations. -/
theorem flushed0_4_eq (c : Dev nD) (xr : Cert.Spec.Act) (hx : V c main_arg0 = Cert.Spec.emb3 xr) (t : Fin cfg0.N) :
    (dat0 (F := Ideal) V c).flushed 4 t = ((cfg0.win 4).blk t).view.read (Elt Ideal) (Cert.Spec.emb3 xr) := by
  show (cfg0.win 4).cut (grid0.coords t) ((dat0 (F := Ideal) V c).after 4 t) = _
  rw [after0_4]
  unfold out0_4
  rw [View.canon_unit_zero hz3]
  simp only [View.ld_unit_zero (S := S1x1024x1024) hz3]
  obtain ⟨e00, e01, e02, -, -, -, -, b30, b31, e32, e40, e41, e42⟩ := idx_facts0 t
  funext j
  obtain ⟨a, p, q, rfl⟩ : ∃ (a : Fin 1) (p q : Fin 1024), j = ix3 a p q := ⟨j 0, j 1, j 2, eq_ix3 j⟩
  have ha : a.val = 0 := by omega
  show k0_pay3 (iblk0 V c 0 t) (ix3 a p q) = Cert.Spec.emb3 xr (((cfg0.win 4).blk t).view.emb (ix3 a p q))
  rw [round_pay_apply]
  have e : ((cfg0.win 0).blk t).view.emb (ix3 (0 : Fin 1) p q) = ((cfg0.win 4).blk t).view.emb (ix3 a p q) := by
    funext d; apply Fin.ext
    match d with
    | ⟨0, _⟩ => show win0_0.index t (0 : Fin 3) * 1 + 1 * 0 = win0_4.index t (0 : Fin 3) * 1 + 1 * a.val; omega
    | ⟨1, _⟩ => show win0_0.index t (1 : Fin 3) * 1024 + 1 * p.val = win0_4.index t (1 : Fin 3) * 1024 + 1 * p.val; omega
    | ⟨2, _⟩ => show win0_0.index t (2 : Fin 3) * 1024 + 1 * q.val = win0_4.index t (2 : Fin 3) * 1024 + 1 * q.val; omega
  show V c main_arg0 (((cfg0.win 0).blk t).view.emb (ix3 (0 : Fin 1) p q)) = _
  rw [hx, e]

/-! ## The arrays after the call -/

/-- After the call the first result holds the projection. -/
theorem arrAt0_3 (c : Dev nD) (xr : Cert.Spec.Act) (wr : Fin 1024 → Fin 1024 → ℝ) (br : Fin 1024 → ℝ)
    (hx : V c main_arg0 = Cert.Spec.emb3 xr) (hw : V c main_v1 = Cert.Spec.emb2 wr)
    (hb : V c main_v0 = Cert.Spec.emb2 (fun (_ : Fin 1) e => br e)) :
    (dat0 (F := Ideal) V c).arrAt 3 cfg0.N = Cert.Spec.emb3 (Cert.Spec.xp xr wr br) :=
  (dat0 (F := Ideal) V c).arrAt_eq_of_cover 3 (Cert.Spec.emb3 (Cert.Spec.xp xr wr br))
    (fun t _ => flushed0_3_eq V c xr wr br hx hw hb t) covered0_3

/-- After the call the second result holds the activations. -/
theorem arrAt0_4 (c : Dev nD) (xr : Cert.Spec.Act) (hx : V c main_arg0 = Cert.Spec.emb3 xr) :
    (dat0 (F := Ideal) V c).arrAt 4 cfg0.N = Cert.Spec.emb3 xr :=
  (dat0 (F := Ideal) V c).arrAt_eq_of_cover 4 (Cert.Spec.emb3 xr)
    (fun t _ => flushed0_4_eq V c xr hx t) covered0_4

end Region0

end Cert.KernelIdeal.Val

end
-- ==== Proof.LibIdealReal.lean ====
/-
  The ideal float values on extended reals that ARE real numbers.

  At the ideal instance every float operation is its textbook operation on `EReal`. When the
  operands are coercions of reals the result is the coercion of the real operation; this file
  states that, one lemma per operation, in two spellings: on `EReal`'s own operations
  (`coe_add_coe`, …) and on the `FloatOps` fields read at `Ideal` (`addf_coe`, …). It also
  states the few corners a masked softmax meets (`⊥` as the mask value: `exp ⊥ = 0`,
  `⊥ - r = ⊥`, `max ⊥ x = x`), how the coercion passes through finite sums and through a
  maximum over a non-empty finite set, and the extended reals that a few f32 words denote.
-/
import Idealize.ShloMosaic.PureOps.Ideal
import Idealize.ShloMosaic.PureOps.Ideal.Laws
import Mathlib.Data.EReal.Basic
import Mathlib.Data.EReal.Operations
import Mathlib.Data.EReal.Inv
import Mathlib.Analysis.Real.Sqrt
import Mathlib.Analysis.SpecialFunctions.Exp
import Mathlib.Analysis.SpecialFunctions.Log.Basic
import Mathlib.Algebra.BigOperators.Group.Finset.Basic
import Mathlib.Data.Finset.Lattice.Fold

noncomputable section

namespace Cert.LibIdealReal

open Idealize.ShloMosaic

/-! ## Finite sums -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) :=
  coe_finset_sum Finset.univ f

/-- A sum of coercions is the coercion of the sum (the direction a value proof rewrites in). -/
theorem finset_sum_coe {ι : Type*} (s : Finset ι) (f : ι → ℝ) :
    ∑ i ∈ s, (f i : EReal) = ((∑ i ∈ s, f i : ℝ) : EReal) :=
  (coe_finset_sum s f).symm

/-- The same over a whole finite type. -/
theorem fintype_sum_coe {ι : Type*} [Fintype ι] (f : ι → ℝ) :
    ∑ i, (f i : EReal) = ((∑ i, f i : ℝ) : EReal) :=
  (coe_fintype_sum f).symm

/-- A sum of products of coercions (a contraction's sum) is the coercion of the real sum of products. -/
theorem fintype_sum_coe_mul_coe {ι : Type*} [Fintype ι] (f g : ι → ℝ) :
    ∑ i, (f i : EReal) * (g i : EReal) = ((∑ i, f i * g i : ℝ) : EReal) := by
  rw [coe_fintype_sum]
  exact Finset.sum_congr rfl fun i _ => (EReal.coe_mul (f i) (g i)).symm

/-- A masked sum: the terms outside `P` are `0`, so the sum is the coercion of the filtered real sum. -/
theorem fintype_sum_ite_coe {ι : Type*} [Fintype ι] (P : ι → Prop) [DecidablePred P] (f : ι → ℝ) :
    ∑ i, (if P i then (f i : EReal) else 0) = ((∑ i ∈ Finset.univ.filter P, f i : ℝ) : EReal) := by
  rw [coe_finset_sum, Finset.sum_filter]

/-! ## The arithmetic operations on coercions -/

/-- `↑a + ↑b = ↑(a + b)`. -/
theorem coe_add_coe (a b : ℝ) : (a : EReal) + (b : EReal) = ((a + b : ℝ) : EReal) := (EReal.coe_add a b).symm
/-- `↑a - ↑b = ↑(a - b)`. -/
theorem coe_sub_coe (a b : ℝ) : (a : EReal) - (b : EReal) = ((a - b : ℝ) : EReal) := (EReal.coe_sub a b).symm
/-- `↑a * ↑b = ↑(a * b)`. -/
theorem coe_mul_coe (a b : ℝ) : (a : EReal) * (b : EReal) = ((a * b : ℝ) : EReal) := (EReal.coe_mul a b).symm
/-- `-↑a = ↑(-a)`. -/
theorem neg_coe_eq (a : ℝ) : -(a : EReal) = ((-a : ℝ) : EReal) := (EReal.coe_neg a).symm
/-- `max ↑a ↑b = ↑(max a b)`. -/
theorem max_coe_coe (a b : ℝ) : max (a : EReal) (b : EReal) = ((max a b : ℝ) : EReal) :=
  (EReal.coe_strictMono.monotone.map_max).symm
/-- `min ↑a ↑b = ↑(min a b)`. -/
theorem min_coe_coe (a b : ℝ) : min (a : EReal) (b : EReal) = ((min a b : ℝ) : EReal) :=
  (EReal.coe_strictMono.monotone.map_min).symm

/-- The ideal quotient of two reals, the divisor not zero, is the real quotient. -/
theorem div_coe_coe (a : ℝ) {b : ℝ} (h : b ≠ 0) : Ideal.div (a : EReal) (b : EReal) = ((a / b : ℝ) : EReal) := by
  rw [Ideal.div, if_neg (by exact_mod_cast h), ← EReal.coe_inv, ← EReal.coe_mul, div_eq_mul_inv]

/-- `0 / ↑r = 0` for a positive real `r`. -/
theorem zero_div_coe {r : ℝ} (h : 0 < r) : Ideal.div 0 (r : EReal) = 0 := by
  rw [Ideal.div, if_neg (by exact_mod_cast h.ne'), zero_mul]

/-- The ideal exponential of a real. -/
theorem exp_coe (r : ℝ) : Ideal.exp (r : EReal) = ((Real.exp r : ℝ) : EReal) := rfl

/-- The ideal logarithm of a positive real. -/
theorem log_coe {r : ℝ} (h : 0 < r) : Ideal.log (r : EReal) = ((Real.log r : ℝ) : EReal) := by
  rw [Ideal.log_coe, if_neg (not_le.mpr h)]

/-- The ideal square root of a real that is not negative. -/
theorem sqrt_coe {r : ℝ} (h : 0 ≤ r) : Ideal.sqrt (r : EReal) = ((Real.sqrt r : ℝ) : EReal) := by
  rw [Ideal.sqrt_coe, if_neg (not_lt.mpr h)]

/-! ## The mask value `⊥` -/

/-- `exp ⊥ = 0`. -/
theorem exp_bot : Ideal.exp ⊥ = 0 := rfl
/-- `⊥ - ↑r = ⊥`. -/
theorem bot_sub_coe (r : ℝ) : (⊥ : EReal) - (r : EReal) = ⊥ := EReal.bot_sub _
/-- `↑r + ⊥ = ⊥`. -/
theorem coe_add_bot (r : ℝ) : (r : EReal) + ⊥ = ⊥ := EReal.add_bot _
/-- `⊥ + ↑r = ⊥`. -/
theorem bot_add_coe (r : ℝ) : (⊥ : EReal) + (r : EReal) = ⊥ := EReal.bot_add _
/-- `exp (⊥ - ↑r) = 0`: a masked entry shifted by a real maximum contributes nothing. -/
theorem exp_bot_sub_coe (r : ℝ) : Ideal.exp ((⊥ : EReal) - (r : EReal)) = 0 := by
  rw [bot_sub_coe]; rfl
/-- `max ⊥ x = x`. -/
theorem bot_max (x : EReal) : max ⊥ x = x := max_eq_right bot_le
/-- `max x ⊥ = x`. -/
theorem max_bot (x : EReal) : max x ⊥ = x := max_eq_left bot_le
/-- `↑r ≠ ⊥`. -/
theorem coe_ne_bot (r : ℝ) : (r : EReal) ≠ ⊥ := EReal.coe_ne_bot r

/-! ## The `FloatOps` fields at `Ideal` on coercions -/

section Fields
variable {φ : FTy}

/-- `addf` of two reals. -/
theorem addf_coe (a b : ℝ) : FloatOps.addf (F := Ideal) (φ := φ) (a : EReal) (b : EReal) = ((a + b : ℝ) : EReal) :=
  coe_add_coe a b
/-- `subf` of two reals. -/
theorem subf_coe (a b : ℝ) : FloatOps.subf (F := Ideal) (φ := φ) (a : EReal) (b : EReal) = ((a - b : ℝ) : EReal) :=
  coe_sub_coe a b
/-- `mulf` of two reals. -/
theorem mulf_coe (a b : ℝ) : FloatOps.mulf (F := Ideal) (φ := φ) (a : EReal) (b : EReal) = ((a * b : ℝ) : EReal) :=
  coe_mul_coe a b
/-- `maximumf` of two reals. -/
theorem maximumf_coe (a b : ℝ) :
    FloatOps.maximumf (F := Ideal) (φ := φ) (a : EReal) (b : EReal) = ((max a b : ℝ) : EReal) :=
  max_coe_coe a b
/-- `maximumf` against the mask value on the left. -/
theorem maximumf_bot_left (x : Ideal φ) : FloatOps.maximumf (F := Ideal) (φ := φ) (⊥ : EReal) x = x := bot_max x
/-- `maximumf` against the mask value on the right. -/
theorem maximumf_bot_right (x : Ideal φ) : FloatOps.maximumf (F := Ideal) (φ := φ) x (⊥ : EReal) = x := max_bot x
/-- `divf` of two reals, the divisor not zero. -/
theorem divf_coe (a : ℝ) {b : ℝ} (h : b ≠ 0) :
    FloatOps.divf (F := Ideal) (φ := φ) (a : EReal) (b : EReal) = ((a / b : ℝ) : EReal) :=
  div_coe_coe a h
/-- The host's quotient of two reals, the divisor not zero. -/
theorem hostDivf_coe (a : ℝ) {b : ℝ} (h : b ≠ 0) :
    FloatOps.hostDivf (F := Ideal) (φ := φ) (a : EReal) (b : EReal) = ((a / b : ℝ) : EReal) :=
  div_coe_coe a h
/-- `exp` of a real. -/
theorem expf_coe (r : ℝ) : FloatOps.exp (F := Ideal) (φ := φ) (r : EReal) = ((Real.exp r : ℝ) : EReal) := rfl
/-- `exp` of the mask value. -/
theorem expf_bot : FloatOps.exp (F := Ideal) (φ := φ) (⊥ : EReal) = 0 := rfl
/-- `log` of a positive real. -/
theorem logf_coe {r : ℝ} (h : 0 < r) : FloatOps.log (F := Ideal) (φ := φ) (r : EReal) = ((Real.log r : ℝ) : EReal) :=
  log_coe h
/-- `sqrt` of a real that is not negative. -/
theorem sqrtf_coe {r : ℝ} (h : 0 ≤ r) : FloatOps.sqrt (F := Ideal) (φ := φ) (r : EReal) = ((Real.sqrt r : ℝ) : EReal) :=
  sqrt_coe h
/-- The host's `exp` of a real. -/
theorem hostExp_coe (r : ℝ) : FloatOps.hostUnary (F := Ideal) (φ := φ) .exp (r : EReal) = ((Real.exp r : ℝ) : EReal) := rfl
/-- The host's `exp` of the mask value. -/
theorem hostExp_bot : FloatOps.hostUnary (F := Ideal) (φ := φ) .exp (⊥ : EReal) = 0 := rfl
/-- The host's `log` of a positive real. -/
theorem hostLog_coe {r : ℝ} (h : 0 < r) :
    FloatOps.hostUnary (F := Ideal) (φ := φ) .log (r : EReal) = ((Real.log r : ℝ) : EReal) := log_coe h
/-- The host's `sqrt` of a real that is not negative. -/
theorem hostSqrt_coe {r : ℝ} (h : 0 ≤ r) :
    FloatOps.hostUnary (F := Ideal) (φ := φ) .sqrt (r : EReal) = ((Real.sqrt r : ℝ) : EReal) := sqrt_coe h

end Fields

/-! ## A maximum over a non-empty finite set -/

/-- The supremum in `EReal` of coercions over a non-empty finite set is the coercion of the real maximum. -/
theorem finset_sup_coe {ι : Type*} (s : Finset ι) (hs : s.Nonempty) (f : ι → ℝ) :
    s.sup (fun i => (f i : EReal)) = ((s.sup' hs f : ℝ) : EReal) := by
  rw [← Finset.sup'_eq_sup hs]
  exact (Finset.comp_sup'_eq_sup'_comp hs (fun r : ℝ => (r : EReal))
    (fun x y => EReal.coe_strictMono.monotone.map_max)).symm

/-- A fold of `max` from `⊥` is the supremum. -/
theorem fold_max_bot {ι : Type*} (s : Finset ι) (g : ι → EReal) : s.fold max ⊥ g = s.sup g := rfl

/-- So a fold of `max` from `⊥` over coercions, the set non-empty, is the coercion of the real maximum. -/
theorem fold_max_bot_coe {ι : Type*} (s : Finset ι) (hs : s.Nonempty) (f : ι → ℝ) :
    s.fold max ⊥ (fun i => (f i : EReal)) = ((s.sup' hs f : ℝ) : EReal) := by
  rw [fold_max_bot, finset_sup_coe s hs f]

/-! ## The f32 words of a scaled, masked softmax -/

/-- `0x3D000000` denotes `1/32`. -/
theorem ofBits_inv32 : Ideal.ofBits .f32 0x3D000000#32 = ((1 / 32 : ℝ) : EReal) := by
  simp [Ideal.ofBits, Ideal.ieee, -EReal.coe_mul]; norm_num

/-- `0x44800000` denotes `1024`. -/
theorem ofBits_1024 : Ideal.ofBits .f32 0x44800000#32 = ((1024 : ℝ) : EReal) := by
  simp [Ideal.ofBits, Ideal.ieee, -EReal.coe_mul]; norm_num

/-- `0x00000000` denotes `0`. -/
theorem ofBits_zero : Ideal.ofBits .f32 0x00000000#32 = 0 := Ideal.ofBits_zero_f32

/-- `0x00000000` denotes the coercion of the real `0`. -/
theorem ofBits_zero_coe : Ideal.ofBits .f32 0x00000000#32 = ((0 : ℝ) : EReal) := Ideal.ofBits_zero_f32

/-- `0xFF800000`, f32's `-∞`, denotes `⊥`. -/
theorem ofBits_neg_inf : Ideal.ofBits .f32 0xFF800000#32 = ⊥ := by
  simp [Ideal.ofBits, Ideal.ieee]

/-- `√1024 = 32`. -/
theorem sqrt_1024 : Real.sqrt 1024 = 32 := by
  rw [show (1024 : ℝ) = 32 ^ 2 by norm_num]
  exact Real.sqrt_sq (by norm_num)

/-- The ideal square root of `1024` is `32`. -/
theorem ideal_sqrt_1024 : Ideal.sqrt ((1024 : ℝ) : EReal) = ((32 : ℝ) : EReal) := by
  rw [sqrt_coe (by norm_num), sqrt_1024]

/-- Dividing a real by `√1024` at the ideal values is multiplying it by `1/32`. -/
theorem div_sqrt_1024 (a : ℝ) :
    Ideal.div (a : EReal) (Ideal.sqrt ((1024 : ℝ) : EReal)) = ((a * (1 / 32) : ℝ) : EReal) := by
  rw [ideal_sqrt_1024, div_coe_coe a (by norm_num), div_eq_mul_one_div]

end Cert.LibIdealReal

end
-- ==== Proof.Val.Pay1.lean ====
import proofs.«407224_j18210661335624_3_alg».proof.Proof.Gen.KernelIdeal.Skeleton
import proofs.«407224_j18210661335624_3_alg».proof.Proof.Spec
import Idealize.ShloMosaic.Lib.ValueLayout
import Idealize.ShloMosaic.PureOps.Ideal.Laws
import Idealize.ShloMosaic.PureOps.IdealRules
import Idealize.ShloMosaic.Lib.StableHlo.Predicate
import proofs.«407224_j18210661335624_3_alg».proof.Proof.LibIdealReal
import Mathlib.Algebra.BigOperators.Fin
import Mathlib.Data.Finset.Fold

/-!
  The statistics kernel's arithmetic, read entry by entry over the extended reals.

  A grid point of the statistics kernel sees a block of 1024 key rows (columns i of the score
  block) and a block of 1024 query rows (rows j).  Its score block is
  s j i = (Σ_d xt j d · xs i d) · (1/32) where row ki·1024 + j is at or below column
  qi·1024 + i, and -∞ elsewhere; the running pair (m, l) of a column is updated to
  m' = max m (max_j s j i) and l' = exp (m − m') · l + Σ_j exp (s j i − m'); the last point of a
  column block writes m + log l.
-/

noncomputable section

namespace Cert.KernelIdeal.Val1

open Idealize.ShloMosaic Idealize.ShloMosaic.ValueIdx Cert.KernelIdeal Cert.KernelIdeal.Gen Cert.LibIdealReal

/-! ## The contraction Σ_d xt j d · xs i d -/

theorem lhs_dot_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_dot_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_dot_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_dot_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of the query block with the transposed key block, into the zero accumulator, at row j and
    column i: the sum over the feature axis. -/
theorem matmul_at (xt xs : FVec Ideal S1024x1024 .bf16) (j i : Fin 1024) :
    matmul dot_S1024x1024_S1024x1024_S1024x1024_1_1_0_0_n_n none xt xs (constant (F := Ideal) S1024x1024 .f32 0x00000000#32) (ix2 j i)
      = ∑ d : Fin 1024, xt (ix2 j d) * xs (ix2 i d) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 j i) ((contrEquiv1 dot_S1024x1024_S1024x1024_S1024x1024_1_1_0_0_n_n 1024 rfl rfl).symm k) = ix2 j k := funext fun a => Fin.ext (by
    match a with
    | ⟨0, _⟩ => exact lhs_dot_0 _ _
    | ⟨1, _⟩ => exact (lhs_dot_1 _ _).trans hk)
  have er : dot_S1024x1024_S1024x1024_S1024x1024_1_1_0_0_n_n.rhsIdx (ix2 j i) ((contrEquiv1 dot_S1024x1024_S1024x1024_S1024x1024_1_1_0_0_n_n 1024 rfl rfl).symm k) = ix2 i k := funext fun a => Fin.ext (by
    match a with
    | ⟨0, _⟩ => exact rhs_dot_0 _ _
    | ⟨1, _⟩ => exact (rhs_dot_1 _ _).trans hk)
  rw [el, er]

/-! ## The causal mask: row ki·1024 + j against column qi·1024 + i -/

theorem toNat_pos (k : ℕ) (hk : k < 2) (j : Fin 1024) :
    (IntOp.addi (Scalar.muli (BitVec.ofNat 32 k) 1024#32) (BitVec.ofNat 32 j.val)).toNat = k * 1024 + j.val := by
  have hj := j.isLt
  show (BitVec.ofNat 32 k * 1024#32 + BitVec.ofNat 32 j.val).toNat = _
  rw [BitVec.toNat_add, BitVec.toNat_mul, BitVec.toNat_ofNat, BitVec.toNat_ofNat, BitVec.toNat_ofNat]
  omega

theorem mask_at (qi ki : ℕ) (hq : qi < 2) (hk : ki < 2) (j i : Fin 1024) :
    cmpi .sge (addi (broadcast S1024x1024 (Scalar.muli (BitVec.ofNat 32 ki) 1024#32)) (iota .tc S1024x1024 32 [0] iota_S1024x1024_d0_w32))
        (addi (broadcast S1024x1024 (Scalar.muli (BitVec.ofNat 32 qi) 1024#32)) (iota .tc S1024x1024 32 [1] iota_S1024x1024_d1_w32)) (ix2 j i)
      = if qi * 1024 + i.val ≤ ki * 1024 + j.val then 1#1 else 0#1 := by
  show IntOp.cmpi .sge (IntOp.addi (Scalar.muli (BitVec.ofNat 32 ki) 1024#32) (BitVec.ofNat 32 (0 * 1024 + j.val)))
      (IntOp.addi (Scalar.muli (BitVec.ofNat 32 qi) 1024#32) (BitVec.ofNat 32 (0 * 1024 + i.val))) = _
  rw [Nat.zero_mul, Nat.zero_add, Nat.zero_add]
  have hj := j.isLt
  have hi := i.isLt
  have ha := toNat_pos ki hk j
  have hb := toNat_pos qi hq i
  have hiff := StableHlo.Predicate.sge_iff_toNat
    (a := IntOp.addi (Scalar.muli (BitVec.ofNat 32 ki) 1024#32) (BitVec.ofNat 32 j.val))
    (b := IntOp.addi (Scalar.muli (BitVec.ofNat 32 qi) 1024#32) (BitVec.ofNat 32 i.val)) (by omega) (by omega)
  rw [ha, hb] at hiff
  by_cases h : qi * 1024 + i.val ≤ ki * 1024 + j.val
  · rw [if_pos h]; exact hiff.mpr h
  · rw [if_neg h]; exact eq_zero_of_ne_one fun hc => h (hiff.mp hc)

/-- The masked entries' stand-in is -∞. -/
theorem neg_big : Named.named (F := Ideal) Cert.KernelIdeal.κ "neg_big" (φ := .f32) 0xFF333332#32 = (⊥ : EReal) :=
  IdealRules.named_const.ideal_named_scalar _ _ _ _ rfl

/-- The score block at row j, column i. -/
theorem pay5_at (qi ki : ℕ) (hq : qi < 2) (hk : ki < 2) (xs xt : Vec Ideal S1x1024x1024 .bf16) (j i : Fin 1024) :
    k1_pay5 (F := Ideal) (BitVec.ofNat 32 qi) (BitVec.ofNat 32 ki) xs xt (ix2 j i)
      = if qi * 1024 + i.val ≤ ki * 1024 + j.val
          then (∑ d : Fin 1024, xt (ix3 (0 : Fin 1) j d) * xs (ix3 (0 : Fin 1) i d)) * Ideal.ofBits .f32 0x3D000000#32
          else ⊥ := by
  unfold k1_pay5
  dsimp only
  refine (select_apply _ _ _ _).trans ?_
  refine (congrArg (fun c => Scalar.select c _ _) (mask_at qi ki hq hk j i)).trans ?_
  by_cases h : qi * 1024 + i.val ≤ ki * 1024 + j.val
  · rw [if_pos h, if_pos h]
    refine (select_one _ _).trans ?_
    refine (mulf_apply _ _ _).trans ?_
    refine congrArg (· * _) ?_
    refine (matmul_at _ _ j i).trans ?_
    refine Finset.sum_congr rfl fun d _ => ?_
    exact congrArg₂ (· * ·) (shapeCast_1ab_ab_apply xt _ j d) (shapeCast_1ab_ab_apply xs _ i d)
  · rw [if_neg h, if_neg h]
    refine (select_zero _ _).trans ?_
    exact neg_big

/-! ## Column reductions of a score block -/

/-- The row that a column index and a row coordinate name. -/
theorem lift_col (i : Fin 1024) (k : Fin 1024) :
    reduces_S1024x1024_S1024.lift (ix1 i) k = ix2 k i := by
  funext a
  refine Fin.ext ?_
  match a with
  | ⟨0, _⟩ => rfl
  | ⟨1, _⟩ => rfl

/-- The column maximum: the fold of max from -∞ over the rows. -/
theorem colmax_at (src : FVec Ideal S1024x1024 .f32) (i : Fin 1024) :
    multiReduction .maximumf [0] S1024 src 0xFF800000#32 reduces_S1024x1024_S1024 (.inl rfl) rfl (ix1 i)
      = Finset.univ.fold max ⊥ fun k : Fin 1024 => src (ix2 k i) := by
  refine (Ideal.multiReduction_maximumf_single src _ _ _ _ (ix1 i)).trans ?_
  show Finset.univ.fold max (Ideal.ofBits .f32 0xFF800000#32)
      (fun k : Fin 1024 => src (reduces_S1024x1024_S1024.lift (ix1 i) k)) = _
  rw [ofBits_neg_inf]
  exact congrArg (fun g => Finset.univ.fold max ⊥ g) (funext fun k => congrArg src (lift_col i k))

/-- The column sum over the rows. -/
theorem colsum_at (src : FVec Ideal S1024x1024 .f32) (i : Fin 1024) :
    multiReduction .add [0] S1024 src 0x00000000#32 reduces_S1024x1024_S1024 (.inl rfl) rfl (ix1 i)
      = ∑ k : Fin 1024, src (ix2 k i) := by
  refine (Ideal.multiReduction_add_single src _ _ _ _ (ix1 i)).trans ?_
  show ∑ k : Fin 1024, src (reduces_S1024x1024_S1024.lift (ix1 i) k) = _
  exact Finset.sum_congr rfl fun k _ => congrArg src (lift_col i k)

/-! ## The payloads of the running pair, read at a column -/

/-- The new running maximum of column i. -/
theorem pay6_at (a1 a2 : BitVec 32) (xs xt : Vec Ideal S1x1024x1024 .bf16) (m : Vec Ideal S1x1024 .f32) (i : Fin 1024) :
    k1_pay6 (F := Ideal) a1 a2 xs xt m (ix2 (0 : Fin 1) i)
      = max (m (ix2 (0 : Fin 1) i))
          (Finset.univ.fold max ⊥ fun k : Fin 1024 => k1_pay5 (F := Ideal) a1 a2 xs xt (ix2 k i)) := by
  unfold k1_pay6
  dsimp only
  refine (maximumf_apply _ _ _).trans ?_
  refine congrArg (max _) ?_
  refine (shapeCast_a_1a_apply _ _ (0 : Fin 1) i).trans ?_
  exact colmax_at _ i

/-- The new running sum of column i. -/
theorem pay7_at (a1 a2 : BitVec 32) (xs xt : Vec Ideal S1x1024x1024 .bf16) (m m2 l : Vec Ideal S1x1024 .f32) (i : Fin 1024) :
    k1_pay7 (F := Ideal) a1 a2 xs xt m m2 l (ix2 (0 : Fin 1) i)
      = Ideal.exp (m2 (ix2 (0 : Fin 1) i) - k1_pay6 (F := Ideal) a1 a2 xs xt m (ix2 (0 : Fin 1) i)) * l (ix2 (0 : Fin 1) i)
        + ∑ k : Fin 1024, Ideal.exp (k1_pay5 (F := Ideal) a1 a2 xs xt (ix2 k i)
            - k1_pay6 (F := Ideal) a1 a2 xs xt m (ix2 (0 : Fin 1) i)) := by
  unfold k1_pay7
  dsimp only
  refine (congrFun (shapeCast_self _ _) _).trans ?_
  refine (addf_apply _ _ _).trans ?_
  refine congrArg₂ (· + ·) rfl ?_
  refine (shapeCast_a_1a_apply _ _ (0 : Fin 1) i).trans ?_
  refine (colsum_at _ i).trans ?_
  refine Finset.sum_congr rfl fun k _ => ?_
  show Ideal.exp (k1_pay5 (F := Ideal) a1 a2 xs xt (ix2 k i)
      - broadcastTo S1024x1024 (k1_pay6 (F := Ideal) a1 a2 xs xt m) broadcasts_S1x1024_S1024x1024 (ix2 k i)) = _
  exact congrArg (fun z => Ideal.exp (_ - z)) (broadcastTo_1b_ab_apply _ _ k i)

/-- What the last point of a column block writes: m + log l. -/
theorem pay4_at (m l : Vec Ideal S1x1024 .f32) (u v : Fin 1) (i : Fin 1024) :
    k1_pay4 (F := Ideal) m l (ix3 u v i) = m (ix2 v i) + Ideal.log (l (ix2 v i)) := by
  unfold k1_pay4
  exact shapeCast_ab_1ab_apply _ _ u v i

/-- The stored running maximum is the computed one. -/
theorem pay3_eq (v : FVec Ideal S1x1024 .f32) : k1_pay3 (F := Ideal) v = v := by
  unfold k1_pay3
  exact shapeCast_self _ _

/-- A reset column's maximum is -∞ ... -/
theorem pay1_at (j : S1x1024.Idx) : k1_pay1 (F := Ideal) j = ⊥ := by
  unfold k1_pay1
  refine (congrFun (shapeCast_self _ _) _).trans ?_
  exact ofBits_neg_inf

/-- ... and its sum is 0. -/
theorem pay2_at (j : S1x1024.Idx) : k1_pay2 (F := Ideal) j = 0 := by
  unfold k1_pay2
  refine (congrFun (shapeCast_self _ _) _).trans ?_
  exact ofBits_zero

/-! ## The running pair of a column over the reals

After the rows of a set have been seen, a column's pair (m, l) is described by one real number E, the
sum of exp of the scores seen: either nothing has been seen (E = 0, m = -∞, l = 0), or m is a real
number M and l = E · exp (−M).  Which real M is does not matter: m + log l = log E. -/

/-- The pair (m, l) stands for the sum E of the exponentials of the scores seen so far. -/
def Stat (E : ℝ) (m l : EReal) : Prop :=
  (E = 0 ∧ m = ⊥ ∧ l = 0) ∨ (0 < E ∧ ∃ M : ℝ, m = (M : EReal) ∧ l = ((E * Real.exp (-M) : ℝ) : EReal))

theorem stat_init : Stat 0 ⊥ 0 := Or.inl ⟨rfl, rfl, rfl⟩

/-- At the end m + log l is the logarithm of the sum. -/
theorem stat_final {E : ℝ} {m l : EReal} (h : Stat E m l) (hE : 0 < E) :
    m + Ideal.log l = ((Real.log E : ℝ) : EReal) := by
  rcases h with ⟨h0, _, _⟩ | ⟨_, M, rfl, rfl⟩
  · exact absurd h0 hE.ne'
  · rw [log_coe (mul_pos hE (Real.exp_pos _)), coe_add_coe, Real.log_mul hE.ne' (Real.exp_pos _).ne', Real.log_exp]
    congr 1; ring

/-- One update by a block of scores s, real (v j) on the rows with P and -∞ elsewhere, at least one row with P:
    the sum grows by the exponentials of the block's real scores. -/
theorem stat_step {ι : Type} [Fintype ι] (P : ι → Prop) [DecidablePred P] (v : ι → ℝ) (hne : ∃ j, P j)
    {E : ℝ} {m l : EReal} (hst : Stat E m l) (s : ι → EReal) (hs : ∀ j, s j = if P j then (v j : EReal) else ⊥) :
    Stat (E + ∑ j, if P j then Real.exp (v j) else 0)
      (max m (Finset.univ.fold max ⊥ s))
      (Ideal.exp (m - max m (Finset.univ.fold max ⊥ s)) * l
        + ∑ j, Ideal.exp (s j - max m (Finset.univ.fold max ⊥ s))) := by
  obtain ⟨j0, hj0⟩ := hne
  have hc_top : Finset.univ.fold max ⊥ s < ⊤ :=
    (Finset.fold_max_lt _).2 ⟨bot_lt_top, fun j _ => by
      rw [hs j]; split_ifs
      · exact EReal.coe_lt_top _
      · exact bot_lt_top⟩
  have hc_ge : (v j0 : EReal) ≤ Finset.univ.fold max ⊥ s :=
    (Finset.le_fold_max _).2 (Or.inr ⟨j0, Finset.mem_univ _, by rw [hs j0, if_pos hj0]⟩)
  have hm_top : m < ⊤ := by
    rcases hst with ⟨_, rfl, _⟩ | ⟨_, M, rfl, _⟩
    · exact bot_lt_top
    · exact EReal.coe_lt_top M
  obtain ⟨M', hM'⟩ : ∃ M' : ℝ, max m (Finset.univ.fold max ⊥ s) = (M' : EReal) :=
    ⟨(max m (Finset.univ.fold max ⊥ s)).toReal, (EReal.coe_toReal (max_lt hm_top hc_top).ne
      (ne_of_gt (lt_of_lt_of_le (EReal.bot_lt_coe _) (hc_ge.trans (le_max_right _ _))))).symm⟩
  rw [hM']
  have hsum : ∑ j, Ideal.exp (s j - (M' : EReal))
      = (((∑ j, if P j then Real.exp (v j) else 0) * Real.exp (-M') : ℝ) : EReal) := by
    rw [Finset.sum_mul, coe_fintype_sum]
    refine Finset.sum_congr rfl fun j _ => ?_
    rw [hs j]
    by_cases hP : P j
    · rw [if_pos hP, if_pos hP, Cert.LibIdealReal.coe_sub_coe, exp_coe, sub_eq_add_neg, Real.exp_add]
    · rw [if_neg hP, if_neg hP, exp_bot_sub_coe, zero_mul, EReal.coe_zero]
  have hpos : 0 < ∑ j, if P j then Real.exp (v j) else 0 :=
    Finset.sum_pos' (fun j _ => by
      split_ifs
      · exact (Real.exp_pos _).le
      · exact le_rfl) ⟨j0, Finset.mem_univ _, by rw [if_pos hj0]; exact Real.exp_pos _⟩
  rw [hsum]
  rcases hst with ⟨rfl, rfl, rfl⟩ | ⟨hE, M, rfl, rfl⟩
  · refine Or.inr ⟨by rw [zero_add]; exact hpos, M', rfl, ?_⟩
    rw [mul_zero, zero_add, zero_add]
  · refine Or.inr ⟨add_pos hE hpos, M', rfl, ?_⟩
    rw [Cert.LibIdealReal.coe_sub_coe, exp_coe, coe_mul_coe, coe_add_coe]
    congr 1
    have h1 : Real.exp M * Real.exp (-M) = 1 := by rw [← Real.exp_add, add_neg_cancel, Real.exp_zero]
    rw [sub_eq_add_neg, Real.exp_add]
    linear_combination (Real.exp (-M') * E) * h1

/-! ## One update of a column from the blocks' reals -/

/-- The scaled score of query row j (rows pt) against key row i (rows ps). -/
def scv (pt ps : Fin 1024 → Fin 1024 → ℝ) (j i : Fin 1024) : ℝ := (∑ d : Fin 1024, pt j d * ps i d) * (1 / 32)

/-- The score block over blocks that hold reals: the real score where the row is at or below the column, -∞ above. -/
theorem pay5_real (qi ki : ℕ) (hq : qi < 2) (hk : ki < 2) (xs xt : Vec Ideal S1x1024x1024 .bf16)
    (ps pt : Fin 1024 → Fin 1024 → ℝ)
    (hxs : ∀ i d, xs (ix3 (0 : Fin 1) i d) = ((ps i d : ℝ) : EReal))
    (hxt : ∀ j d, xt (ix3 (0 : Fin 1) j d) = ((pt j d : ℝ) : EReal)) (j i : Fin 1024) :
    k1_pay5 (F := Ideal) (BitVec.ofNat 32 qi) (BitVec.ofNat 32 ki) xs xt (ix2 j i)
      = if qi * 1024 + i.val ≤ ki * 1024 + j.val then ((scv pt ps j i : ℝ) : EReal) else ⊥ := by
  rw [pay5_at qi ki hq hk]
  by_cases h : qi * 1024 + i.val ≤ ki * 1024 + j.val
  · rw [if_pos h, if_pos h, ofBits_inv32]
    unfold scv
    rw [EReal.coe_mul]
    refine congrArg (· * _) ?_
    exact (Finset.sum_congr rfl fun d _ => by rw [hxt j d, hxs i d]).trans (fintype_sum_coe_mul_coe _ _)
  · rw [if_neg h, if_neg h]

/-- One update of column i: the sum it stands for grows by the exponentials of the block's scores on the rows at or
    below the column. -/
theorem col_update (qi ki : ℕ) (hq : qi < 2) (hk : ki < 2) (xs xt : Vec Ideal S1x1024x1024 .bf16)
    (ps pt : Fin 1024 → Fin 1024 → ℝ)
    (hxs : ∀ i d, xs (ix3 (0 : Fin 1) i d) = ((ps i d : ℝ) : EReal))
    (hxt : ∀ j d, xt (ix3 (0 : Fin 1) j d) = ((pt j d : ℝ) : EReal))
    (m l : Vec Ideal S1x1024 .f32) (i : Fin 1024) {E : ℝ}
    (hst : Stat E (m (ix2 (0 : Fin 1) i)) (l (ix2 (0 : Fin 1) i)))
    (hne : ∃ j : Fin 1024, qi * 1024 + i.val ≤ ki * 1024 + j.val) :
    Stat (E + ∑ j : Fin 1024, if qi * 1024 + i.val ≤ ki * 1024 + j.val then Real.exp (scv pt ps j i) else 0)
      (k1_pay3 (F := Ideal) (k1_pay6 (F := Ideal) (BitVec.ofNat 32 qi) (BitVec.ofNat 32 ki) xs xt m) (ix2 (0 : Fin 1) i))
      (k1_pay7 (F := Ideal) (BitVec.ofNat 32 qi) (BitVec.ofNat 32 ki) xs xt m m l (ix2 (0 : Fin 1) i)) := by
  rw [pay3_eq, pay7_at, pay6_at]
  exact stat_step (fun j : Fin 1024 => qi * 1024 + i.val ≤ ki * 1024 + j.val) (fun j => scv pt ps j i) hne hst _
    (fun j => pay5_real qi ki hq hk xs xt ps pt hxs hxt j i)

/-- A reset column stands for the empty sum. -/
theorem col_reset (i : Fin 1024) :
    Stat 0 (k1_pay1 (F := Ideal) (ix2 (0 : Fin 1) i)) (k1_pay2 (F := Ideal) (ix2 (0 : Fin 1) i)) := by
  rw [pay1_at, pay2_at]; exact stat_init

/-- What is written for column i at the end: the logarithm of the sum the pair stands for. -/
theorem col_final (m l : Vec Ideal S1x1024 .f32) (u v : Fin 1) (i : Fin 1024) {E : ℝ}
    (hst : Stat E (m (ix2 (0 : Fin 1) i)) (l (ix2 (0 : Fin 1) i))) (hE : 0 < E) :
    k1_pay4 (F := Ideal) m l (ix3 u v i) = ((Real.log E : ℝ) : EReal) := by
  obtain rfl : v = 0 := Subsingleton.elim _ _
  rw [pay4_at]
  exact stat_final hst hE

/-! ## The column normaliser of the specification, block by block -/

/-- The 1024 rows of block blk of batch b. -/
def rowsOf (p : Cert.Spec.Act) (b : Fin 8) (blk : ℕ) (hblk : blk < 2) : Fin 1024 → Fin 1024 → ℝ :=
  fun j d => p b ⟨blk * 1024 + j.val, by omega⟩ d

theorem scv_rowsOf (p : Cert.Spec.Act) (b : Fin 8) (kb qb : ℕ) (hkb : kb < 2) (hqb : qb < 2) (j i : Fin 1024) :
    scv (rowsOf p b kb hkb) (rowsOf p b qb hqb) j i
      = Cert.Spec.sc p b ⟨kb * 1024 + j.val, by omega⟩ ⟨qb * 1024 + i.val, by omega⟩ := rfl

/-- A sum over the 2048 positions is the sum over the two blocks of 1024. -/
theorem sum_halves (f : Fin 2048 → ℝ) :
    ∑ t, f t = (∑ j : Fin 1024, f ⟨0 * 1024 + j.val, by omega⟩) + ∑ j : Fin 1024, f ⟨1 * 1024 + j.val, by omega⟩ := by
  refine (Fin.sum_univ_add (a := 1024) (b := 1024) (f := f)).trans ?_
  refine congrArg₂ (· + ·) (Finset.sum_congr rfl fun j _ => congrArg f (Fin.ext ?_))
    (Finset.sum_congr rfl fun j _ => congrArg f (Fin.ext ?_))
  · show j.val = 0 * 1024 + j.val; omega
  · show 1024 + j.val = 1 * 1024 + j.val; omega

/-- The normaliser of column qb·1024 + i: the logarithm of the two blocks' sums of exponentials over the rows at or
    below the column. -/
theorem lse_blocks (p : Cert.Spec.Act) (b : Fin 8) (qb : ℕ) (hqb : qb < 2) (i : Fin 1024) :
    Cert.Spec.lse p b ⟨qb * 1024 + i.val, by omega⟩
      = Real.log ((∑ j : Fin 1024, if qb * 1024 + i.val ≤ 0 * 1024 + j.val
            then Real.exp (scv (rowsOf p b 0 (by omega)) (rowsOf p b qb hqb) j i) else 0)
          + ∑ j : Fin 1024, if qb * 1024 + i.val ≤ 1 * 1024 + j.val
            then Real.exp (scv (rowsOf p b 1 (by omega)) (rowsOf p b qb hqb) j i) else 0) := by
  unfold Cert.Spec.lse
  rw [Finset.sum_filter, sum_halves]
  rfl

/-! ## The two column blocks of the statistic -/

theorem ite_exp_sum_nonneg {ι : Type} [Fintype ι] (P : ι → Prop) [DecidablePred P] (v : ι → ℝ) :
    0 ≤ ∑ j, if P j then Real.exp (v j) else 0 :=
  Finset.sum_nonneg fun j _ => by
    split_ifs
    · exact (Real.exp_pos _).le
    · exact le_rfl

theorem ite_exp_sum_pos {ι : Type} [Fintype ι] (P : ι → Prop) [DecidablePred P] (v : ι → ℝ) (hne : ∃ j, P j) :
    0 < ∑ j, if P j then Real.exp (v j) else 0 := by
  obtain ⟨j0, hj0⟩ := hne
  exact Finset.sum_pos' (fun j _ => by
    split_ifs
    · exact (Real.exp_pos _).le
    · exact le_rfl) ⟨j0, Finset.mem_univ _, by rw [if_pos hj0]; exact Real.exp_pos _⟩

/-- Key block 0 (columns 0 … 1023) sees both query blocks: reset and update by query block 0 (the rows from the diagonal
    down), update by query block 1 (every row), and m + log l is the specification's normaliser of the column. -/
theorem lse_key0 (p : Cert.Spec.Act) (b : Fin 8)
    (xsA xsB xt0 xt1 : Vec Ideal S1x1024x1024 .bf16)
    (hxsA : ∀ i d, xsA (ix3 (0 : Fin 1) i d) = ((rowsOf p b 0 (by omega) i d : ℝ) : EReal))
    (hxsB : ∀ i d, xsB (ix3 (0 : Fin 1) i d) = ((rowsOf p b 0 (by omega) i d : ℝ) : EReal))
    (hxt0 : ∀ j d, xt0 (ix3 (0 : Fin 1) j d) = ((rowsOf p b 0 (by omega) j d : ℝ) : EReal))
    (hxt1 : ∀ j d, xt1 (ix3 (0 : Fin 1) j d) = ((rowsOf p b 1 (by omega) j d : ℝ) : EReal))
    (m1 l1 : Vec Ideal S1x1024 .f32)
    (hm1 : m1 = k1_pay3 (F := Ideal) (k1_pay6 (F := Ideal) 0#32 0#32 xsA xt0 (k1_pay1 (F := Ideal))))
    (hl1 : l1 = k1_pay7 (F := Ideal) 0#32 0#32 xsA xt0 (k1_pay1 (F := Ideal)) (k1_pay1 (F := Ideal)) (k1_pay2 (F := Ideal)))
    (u v : Fin 1) (i : Fin 1024) :
    k1_pay4 (F := Ideal) (k1_pay3 (F := Ideal) (k1_pay6 (F := Ideal) 0#32 1#32 xsB xt1 m1))
        (k1_pay7 (F := Ideal) 0#32 1#32 xsB xt1 m1 m1 l1) (ix3 u v i)
      = ((Cert.Spec.lse p b ⟨0 * 1024 + i.val, by omega⟩ : ℝ) : EReal) := by
  subst hm1 hl1
  have h1 := col_update 0 0 (by omega) (by omega) xsA xt0 _ _ hxsA hxt0 (k1_pay1 (F := Ideal)) (k1_pay2 (F := Ideal)) i (col_reset i) ⟨i, le_rfl⟩
  have h2 := col_update 0 1 (by omega) (by omega) xsB xt1 _ _ hxsB hxt1 _ _ i h1 ⟨i, by omega⟩
  have hp1 := ite_exp_sum_pos (fun j : Fin 1024 => 0 * 1024 + i.val ≤ 0 * 1024 + j.val)
    (fun j => scv (rowsOf p b 0 (by omega)) (rowsOf p b 0 (by omega)) j i) ⟨i, le_rfl⟩
  have hp2 := ite_exp_sum_nonneg (fun j : Fin 1024 => 0 * 1024 + i.val ≤ 1 * 1024 + j.val)
    (fun j => scv (rowsOf p b 1 (by omega)) (rowsOf p b 0 (by omega)) j i)
  refine (col_final _ _ u v i h2 (by linarith)).trans ?_
  rw [lse_blocks p b 0 (by omega) i, zero_add]

/-- Key block 1 (columns 1024 … 2047) sees query block 1 only: reset, one update (the rows from the diagonal down). -/
theorem lse_key1 (p : Cert.Spec.Act) (b : Fin 8)
    (xs xt : Vec Ideal S1x1024x1024 .bf16)
    (hxs : ∀ i d, xs (ix3 (0 : Fin 1) i d) = ((rowsOf p b 1 (by omega) i d : ℝ) : EReal))
    (hxt : ∀ j d, xt (ix3 (0 : Fin 1) j d) = ((rowsOf p b 1 (by omega) j d : ℝ) : EReal))
    (u v : Fin 1) (i : Fin 1024) :
    k1_pay4 (F := Ideal) (k1_pay3 (F := Ideal) (k1_pay6 (F := Ideal) 1#32 1#32 xs xt (k1_pay1 (F := Ideal))))
        (k1_pay7 (F := Ideal) 1#32 1#32 xs xt (k1_pay1 (F := Ideal)) (k1_pay1 (F := Ideal)) (k1_pay2 (F := Ideal))) (ix3 u v i)
      = ((Cert.Spec.lse p b ⟨1 * 1024 + i.val, by omega⟩ : ℝ) : EReal) := by
  have h1 := col_update 1 1 (by omega) (by omega) xs xt _ _ hxs hxt (k1_pay1 (F := Ideal)) (k1_pay2 (F := Ideal)) i (col_reset i) ⟨i, le_rfl⟩
  have hp1 := ite_exp_sum_pos (fun j : Fin 1024 => 1 * 1024 + i.val ≤ 1 * 1024 + j.val)
    (fun j => scv (rowsOf p b 1 (by omega)) (rowsOf p b 1 (by omega)) j i) ⟨i, le_rfl⟩
  refine (col_final _ _ u v i h1 (by linarith)).trans ?_
  rw [lse_blocks p b 1 (by omega) i, zero_add]
  have h0 : (∑ j : Fin 1024, if 1 * 1024 + i.val ≤ 0 * 1024 + j.val
      then Real.exp (scv (rowsOf p b 0 (by omega)) (rowsOf p b 1 (by omega)) j i) else 0) = 0 :=
    Finset.sum_eq_zero fun j _ => if_neg (by have := j.isLt; omega)
  rw [h0, zero_add]

end Cert.KernelIdeal.Val1

end
-- ==== Proof.Val.Val1.lean ====
import proofs.«407224_j18210661335624_3_alg».proof.Proof.KI.Reg1
import proofs.«407224_j18210661335624_3_alg».proof.Proof.Val.Pay1
import Idealize.ShloMosaic.Lib.Pipeline.Value
import Idealize.ShloMosaic.Lib.ValueIdx
import Idealize.ShloMosaic.Lib.ValueLayout

/-!
  What the statistics call leaves in its result array: the causal column normaliser.

  The grid is (batch, key block, query block), the query block fastest: point t has batch t / 4, key block
  (t / 2) % 2 and query block t % 2.  The result block (batch, 0, key block) is written back at the points with
  query block 1.  For key block 0 such a point has updated the column pair twice (query blocks 0 and 1); for key
  block 1 once (query block 1, the block before it having been skipped after the reset).  In both cases what is
  written for column i is the logarithm of the sum of the exponentials of the scores of the rows at or below the
  column: the specification's normaliser.
-/

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The index maps over the grid: the key block's and the result block's indices follow the batch and the key block,
    the query block's index is the larger of the two block numbers. -/
theorem idx_facts1 : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = max (t.val % 2) (t.val / 2 % 2)
    ∧ win1_1.index t (2 : Fin 3) = 0
    ∧ win1_2.index t (0 : Fin 3) = t.val / 4 ∧ win1_2.index t (1 : Fin 3) = 0 ∧ win1_2.index t (2 : Fin 3) = t.val / 2 % 2 :=
  (by decide +kernel : ∀ t : Fin grid1.N, _)

/-- An index of the result array is in point t's block iff each coordinate is in the block's range on its axis. -/
theorem mem_blk1_2 (t : Fin cfg1.N) (i : S8x1x2048.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_v3).slice (win1_2.rect t)).set ↔ _
  rw [View.set_slice_whole, Rect.mem_set_unit]
  exact Iff.rfl

/-- The written blocks tile the result: (b, 0, s) lies in the block of the point 4·b + 2·(s / 1024) + 1. -/
theorem covered1_2 (i : S8x1x2048.Idx) :
    ∃ t : Fin cfg1.N, (cfg1.win 2).flush t = true ∧ i ∈ ((cfg1.win 2).blk t).view.set := by
  have hN : cfg1.N = 32 := N_1
  have hi0 : (i 0).val < 8 := (i 0).isLt
  have hi1 : (i 1).val < 1 := (i 1).isLt
  have hi2 : (i 2).val < 2048 := (i 2).isLt
  let t : Fin cfg1.N := ⟨4 * (i 0).val + 2 * ((i 2).val / 1024) + 1, by omega⟩
  have htv : t.val = 4 * (i 0).val + 2 * ((i 2).val / 1024) + 1 := rfl
  obtain ⟨-, -, -, -, -, -, e0, e1, e2⟩ := idx_facts1 t
  refine ⟨t, (flush1_2 t).mpr (by omega), ?_⟩
  rw [mem_blk1_2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1024 ≤ (i 2).val ∧ (i 2).val < win1_2.index t (2 : Fin 3) * 1024 + 1024; omega

section Region1

variable (V : (c : Dev nD) → (b : Ref sig .tc) → Buf (Elt Ideal) ((c : Thread nD τ).loc b))

/-- The key block at point t holds the rows of block (t / 2) % 2 of batch t / 4. -/
theorem xs_read (c : Dev nD) (p : Cert.Spec.Act) (hp : V c main_v2_0 = Cert.Spec.emb3 p) (t : Fin cfg1.N)
    (bb : Fin 8) (hb : t.val / 4 = bb.val) (qb : ℕ) (hqb : qb < 2) (hq : t.val / 2 % 2 = qb) (i d : Fin 1024) :
    (iblk1 V c 0 t : Vec Ideal S1x1024x1024 .bf16) (ix3 (0 : Fin 1) i d) = ((rowsOf p bb qb hqb i d : ℝ) : EReal) := by
  obtain ⟨e0, e1, e2, -⟩ := idx_facts1 t
  have e : ((cfg1.win 0).blk t).view.emb (ix3 (0 : Fin 1) i d)
      = ix3 bb (⟨qb * 1024 + i.val, by omega⟩ : Fin 2048) d := by
    funext a; apply Fin.ext
    match a with
    | ⟨0, _⟩ => show win1_0.index t (0 : Fin 3) * 1 + 1 * 0 = bb.val; omega
    | ⟨1, _⟩ => show win1_0.index t (1 : Fin 3) * 1024 + 1 * i.val = qb * 1024 + i.val; omega
    | ⟨2, _⟩ => show win1_0.index t (2 : Fin 3) * 1024 + 1 * d.val = d.val; omega
  show V c main_v2_0 (((cfg1.win 0).blk t).view.emb (ix3 (0 : Fin 1) i d)) = _
  rw [hp, e, Cert.Spec.emb3_apply]
  rfl

/-- The query block at point t holds the rows of block max (t % 2) ((t / 2) % 2) of batch t / 4. -/
theorem xt_read (c : Dev nD) (p : Cert.Spec.Act) (hp : V c main_v2_0 = Cert.Spec.emb3 p) (t : Fin cfg1.N)
    (bb : Fin 8) (hb : t.val / 4 = bb.val) (kb : ℕ) (hkb : kb < 2) (hk : max (t.val % 2) (t.val / 2 % 2) = kb)
    (j d : Fin 1024) :
    (iblk1 V c 1 t : Vec Ideal S1x1024x1024 .bf16) (ix3 (0 : Fin 1) j d) = ((rowsOf p bb kb hkb j d : ℝ) : EReal) := by
  obtain ⟨-, -, -, e0, e1, e2, -⟩ := idx_facts1 t
  have e : ((cfg1.win 1).blk t).view.emb (ix3 (0 : Fin 1) j d)
      = ix3 bb (⟨kb * 1024 + j.val, by omega⟩ : Fin 2048) d := by
    funext a; apply Fin.ext
    match a with
    | ⟨0, _⟩ => show win1_1.index t (0 : Fin 3) * 1 + 1 * 0 = bb.val; omega
    | ⟨1, _⟩ => show win1_1.index t (1 : Fin 3) * 1024 + 1 * j.val = kb * 1024 + j.val; omega
    | ⟨2, _⟩ => show win1_1.index t (2 : Fin 3) * 1024 + 1 * d.val = d.val; omega
  show V c main_v2_0 (((cfg1.win 1).blk t).view.emb (ix3 (0 : Fin 1) j d)) = _
  rw [hp, e, Cert.Spec.emb3_apply]
  rfl

/-- At a point with query block 1 the statistic block holds the normaliser of the columns of the point's key block. -/
theorem sc_flush (c : Dev nD) (p : Cert.Spec.Act) (hp : V c main_v2_0 = Cert.Spec.emb3 p) (t : Fin cfg1.N)
    (ht : t.val % 2 = 1) (bb : Fin 8) (hb : t.val / 4 = bb.val) (qb : ℕ) (hqb : qb < 2) (hq : t.val / 2 % 2 = qb)
    (u v : Fin 1) (i : Fin 1024) :
    (scAt1 V c t.val t.isLt).1 (ix3 u v i)
      = ((Cert.Spec.lse p bb ⟨qb * 1024 + i.val, by omega⟩ : ℝ) : EReal) := by
  have hN : cfg1.N = 32 := N_1
  have h4 : t.val % 4 = 1 ∨ t.val % 4 = 3 := by omega
  rcases h4 with h | h
  · obtain rfl : qb = 0 := by omega
    have hlt : t.val - 1 < cfg1.N := Nat.lt_of_le_of_lt (Nat.sub_le _ _) t.isLt
    have hM := scAt1_reset_update V c ⟨t.val - 1, hlt⟩ (show (t.val - 1) % 4 = 0 by omega)
    have hm : (scAt1 V c (t.val - 1) hlt).2.1
        = k1_pay3 (F := Ideal) (k1_pay6 (F := Ideal) 0#32 0#32 (iblk1 V c 0 ⟨t.val - 1, hlt⟩) (iblk1 V c 1 ⟨t.val - 1, hlt⟩)
            (k1_pay1 (F := Ideal))) := by rw [hM]; rfl
    have hl : (scAt1 V c (t.val - 1) hlt).2.2
        = k1_pay7 (F := Ideal) 0#32 0#32 (iblk1 V c 0 ⟨t.val - 1, hlt⟩) (iblk1 V c 1 ⟨t.val - 1, hlt⟩)
            (k1_pay1 (F := Ideal)) (k1_pay1 (F := Ideal)) (k1_pay2 (F := Ideal)) := by rw [hM]; rfl
    refine (congrFun (congrArg Prod.fst (scAt1_update_final0 V c t h)) (ix3 u v i)).trans ?_
    show k1_pay4 (F := Ideal) (k1_pay3 (F := Ideal) (k1_pay6 (F := Ideal) 0#32 1#32 (iblk1 V c 0 t) (iblk1 V c 1 t) (scAt1 V c (t.val - 1) hlt).2.1))
      (k1_pay7 (F := Ideal) 0#32 1#32 (iblk1 V c 0 t) (iblk1 V c 1 t) (scAt1 V c (t.val - 1) hlt).2.1 (scAt1 V c (t.val - 1) hlt).2.1
        (scAt1 V c (t.val - 1) hlt).2.2) (ix3 u v i) = _
    exact lse_key0 p bb (iblk1 V c 0 ⟨t.val - 1, hlt⟩) (iblk1 V c 0 t) (iblk1 V c 1 ⟨t.val - 1, hlt⟩) (iblk1 V c 1 t)
      (xs_read V c p hp ⟨t.val - 1, hlt⟩ bb (show (t.val - 1) / 4 = bb.val by omega) 0 (by omega) (show (t.val - 1) / 2 % 2 = 0 by omega))
      (xs_read V c p hp t bb hb 0 (by omega) hq)
      (xt_read V c p hp ⟨t.val - 1, hlt⟩ bb (show (t.val - 1) / 4 = bb.val by omega) 0 (by omega)
        (show max ((t.val - 1) % 2) ((t.val - 1) / 2 % 2) = 0 by omega))
      (xt_read V c p hp t bb hb 1 (by omega) (show max (t.val % 2) (t.val / 2 % 2) = 1 by omega))
      (scAt1 V c (t.val - 1) hlt).2.1 (scAt1 V c (t.val - 1) hlt).2.2 hm hl u v i
  · obtain rfl : qb = 1 := by omega
    have hlt : t.val - 1 < cfg1.N := Nat.lt_of_le_of_lt (Nat.sub_le _ _) t.isLt
    have hM := scAt1_reset_only V c ⟨t.val - 1, hlt⟩ (show (t.val - 1) % 4 = 2 by omega)
    refine (congrFun (congrArg Prod.fst (scAt1_update_final1 V c t h)) (ix3 u v i)).trans ?_
    have hm : (scAt1 V c (t.val - 1) hlt).2.1 = k1_pay1 (F := Ideal) := by rw [hM]; rfl
    have hl : (scAt1 V c (t.val - 1) hlt).2.2 = k1_pay2 (F := Ideal) := by rw [hM]; rfl
    show k1_pay4 (F := Ideal) (k1_pay3 (F := Ideal) (k1_pay6 (F := Ideal) 1#32 1#32 (iblk1 V c 0 t) (iblk1 V c 1 t) (scAt1 V c (t.val - 1) hlt).2.1))
      (k1_pay7 (F := Ideal) 1#32 1#32 (iblk1 V c 0 t) (iblk1 V c 1 t) (scAt1 V c (t.val - 1) hlt).2.1 (scAt1 V c (t.val - 1) hlt).2.1
        (scAt1 V c (t.val - 1) hlt).2.2) (ix3 u v i) = _
    rw [hm, hl]
    exact lse_key1 p bb (iblk1 V c 0 t) (iblk1 V c 1 t)
      (xs_read V c p hp t bb hb 1 (by omega) hq)
      (xt_read V c p hp t bb hb 1 (by omega) (show max (t.val % 2) (t.val / 2 % 2) = 1 by omega)) u v i

/-- What a point with query block 1 writes back is its block of the normaliser. -/
theorem flushed1_2_eq (c : Dev nD) (p : Cert.Spec.Act) (hp : V c main_v2_0 = Cert.Spec.emb3 p) (t : Fin cfg1.N)
    (hf : (cfg1.win 2).flush t = true) :
    (dat1 (F := Ideal) V c).flushed 2 t
      = ((cfg1.win 2).blk t).view.read (Elt Ideal) (Cert.Spec.emb3 (fun b (_ : Fin 1) s => Cert.Spec.lse p b s)) := by
  have hN : cfg1.N = 32 := N_1
  have ht : t.val % 2 = 1 := (flush1_2 t).mp hf
  have htl := t.isLt
  show (cfg1.win 2).cut (grid1.coords t) ((dat1 (F := Ideal) V c).after 2 t) = _
  rw [after1_2]
  obtain ⟨-, -, -, -, -, -, e0, e1, e2⟩ := idx_facts1 t
  funext j
  obtain ⟨u, v, i, rfl⟩ : ∃ (u v : Fin 1) (i : Fin 1024), j = ix3 u v i := ⟨j 0, j 1, j 2, eq_ix3 j⟩
  have hu : u.val = 0 := by omega
  have hv : v.val = 0 := by omega
  show (scAt1 V c t.val t.isLt).1 (ix3 u v i)
    = Cert.Spec.emb3 (fun b (_ : Fin 1) s => Cert.Spec.lse p b s) (((cfg1.win 2).blk t).view.emb (ix3 u v i))
  have e : ((cfg1.win 2).blk t).view.emb (ix3 u v i)
      = ix3 (⟨t.val / 4, by omega⟩ : Fin 8) (0 : Fin 1) (⟨t.val / 2 % 2 * 1024 + i.val, by omega⟩ : Fin 2048) := by
    funext a; apply Fin.ext
    match a with
    | ⟨0, _⟩ => show win1_2.index t (0 : Fin 3) * 1 + 1 * u.val = t.val / 4; omega
    | ⟨1, _⟩ => show win1_2.index t (1 : Fin 3) * 1 + 1 * v.val = 0; omega
    | ⟨2, _⟩ => show win1_2.index t (2 : Fin 3) * 1024 + 1 * i.val = t.val / 2 % 2 * 1024 + i.val; omega
  rw [e, Cert.Spec.emb3_apply]
  exact sc_flush V c p hp t ht ⟨t.val / 4, by omega⟩ rfl (t.val / 2 % 2) (by omega) rfl u v i

/-- After the call the statistics array holds the causal column normaliser of every batch and key position. -/
theorem arrAt1_2 (c : Dev nD) (p : Cert.Spec.Act) (hp : V c main_v2_0 = Cert.Spec.emb3 p) :
    (dat1 (F := Ideal) V c).arrAt 2 cfg1.N = Cert.Spec.emb3 (fun b (_ : Fin 1) s => Cert.Spec.lse p b s) :=
  (dat1 (F := Ideal) V c).arrAt_eq_of_cover 2 (Cert.Spec.emb3 (fun b (_ : Fin 1) s => Cert.Spec.lse p b s))
    (fun t hf => flushed1_2_eq V c p hp t hf) covered1_2

end Region1

end Cert.KernelIdeal.Val1

end
-- ==== Proof.Val.Pay2.lean ====
import proofs.«407224_j18210661335624_3_alg».proof.Proof.Gen.KernelIdeal.Skeleton
import proofs.«407224_j18210661335624_3_alg».proof.Proof.Spec
import proofs.«407224_j18210661335624_3_alg».proof.Proof.LibIdealReal
import Idealize.ShloMosaic.Lib.Pipeline.Value
import Idealize.ShloMosaic.Lib.ValueLayout
import Idealize.ShloMosaic.Lib.ValueIdx
import Idealize.ShloMosaic.Lib.ValueIdxCoords
import Idealize.ShloMosaic.Lib.Affine
import Idealize.ShloMosaic.PureOps.Ideal.Laws
import Idealize.ShloMosaic.PureOps.IdealRules

/-!
  The accumulation step of the third kernel, read at an index over the extended reals.

  One update adds to the accumulator, at row j of the query block and feature d, the sum over the 512 keys j' of
  the key block of  exp (score(j, j') − lse(j')) · x(j', d),  where the score is the scaled correlation when the
  key's position does not exceed the query's and −∞ otherwise (so that the exponential is 0).  Summed over the
  key blocks this is the causal accumulation Cert.Spec.outWith.
-/

noncomputable section

namespace Cert.KernelIdeal.Val2

open Cert.KernelIdeal Cert.KernelIdeal.Gen Idealize.ShloMosaic Idealize.ShloMosaic.ValueIdx

/-! ## The two products' operand indices -/

theorem lhsA_0 (i : S1024x512.Idx) (q : dot_S1024x1024_S512x1024_S1024x512_1_1_0_0_n_n.contr.Idx) : (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhsA_1 (i : S1024x512.Idx) (q : dot_S1024x1024_S512x1024_S1024x512_1_1_0_0_n_n.contr.Idx) : (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhsA_0 (i : S1024x512.Idx) (q : dot_S1024x1024_S512x1024_S1024x512_1_1_0_0_n_n.contr.Idx) : (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhsA_1 (i : S1024x512.Idx) (q : dot_S1024x1024_S512x1024_S1024x512_1_1_0_0_n_n.contr.Idx) : (dot_S1024x1024_S512x1024_S1024x512_1_1_0_0_n_n.rhsIdx i q 1).val = (q ⟨0, by decide⟩).val :=
  dot_S1024x1024_S512x1024_S1024x512_1_1_0_0_n_n.rhsIdx_val_of_single rfl i q

theorem lhsB_0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhsB_1 (i : S1024x1024.Idx) (q : dot_S1024x512_S512x1024_S1024x1024_1_0_0_1_n_n.contr.Idx) : (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhsB_0 (i : S1024x1024.Idx) (q : dot_S1024x512_S512x1024_S1024x1024_1_0_0_1_n_n.contr.Idx) : (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhsB_1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The correlation product at (j, j'): the sum over the 1024 features of query row j times key row j'. -/
theorem matmulA_apply (l : FVec Ideal S1024x1024 .bf16) (r : FVec Ideal S512x1024 .bf16) (j : Fin 1024) (j' : Fin 512) :
    matmul dot_S1024x1024_S512x1024_S1024x512_1_1_0_0_n_n none l r (constant S1024x512 .f32 0x00000000#32) (ix2 j j') = ∑ e : Fin 1024, l (ix2 j e) * r (ix2 j' e) := by
  simp only [matmul]
  rw [Ideal.matmul_constant_zero_apply, ← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 j j') ((ValueIdx.contrEquiv1 dot_S1024x1024_S512x1024_S1024x512_1_1_0_0_n_n 1024 rfl rfl).symm k) = ix2 j k := funext fun a => Fin.ext (by
    match a with
    | ⟨0, _⟩ => exact lhsA_0 _ _
    | ⟨1, _⟩ => exact (lhsA_1 _ _).trans hk)
  have er : dot_S1024x1024_S512x1024_S1024x512_1_1_0_0_n_n.rhsIdx (ix2 j j') ((ValueIdx.contrEquiv1 dot_S1024x1024_S512x1024_S1024x512_1_1_0_0_n_n 1024 rfl rfl).symm k) = ix2 j' k := funext fun a => Fin.ext (by
    match a with
    | ⟨0, _⟩ => exact rhsA_0 _ _
    | ⟨1, _⟩ => exact (rhsA_1 _ _).trans hk)
  rw [el, er]

/-- The value product at (j, d): the sum over the 512 keys of the weight of key j' times row j' of the values. -/
theorem matmulB_apply (l : FVec Ideal S1024x512 .bf16) (r : FVec Ideal S512x1024 .bf16) (j : Fin 1024) (d : Fin 1024) :
    matmul dot_S1024x512_S512x1024_S1024x1024_1_0_0_1_n_n none l r (constant S1024x1024 .f32 0x00000000#32) (ix2 j d) = ∑ j' : Fin 512, l (ix2 j j') * r (ix2 j' d) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 j d) ((ValueIdx.contrEquiv1 dot_S1024x512_S512x1024_S1024x1024_1_0_0_1_n_n 512 rfl rfl).symm k) = ix2 j k := funext fun a => Fin.ext (by
    match a with
    | ⟨0, _⟩ => exact lhsB_0 _ _
    | ⟨1, _⟩ => exact (lhsB_1 _ _).trans hk)
  have er : dot_S1024x512_S512x1024_S1024x1024_1_0_0_1_n_n.rhsIdx (ix2 j d) ((ValueIdx.contrEquiv1 dot_S1024x512_S512x1024_S1024x1024_1_0_0_1_n_n 512 rfl rfl).symm k) = ix2 k d := funext fun a => Fin.ext (by
    match a with
    | ⟨0, _⟩ => exact (rhsB_0 _ _).trans hk
    | ⟨1, _⟩ => exact rhsB_1 _ _)
  rw [el, er]

/-! ## The causal mask bit -/

/-- A word below 2³¹ read signed is the number. -/
theorem toInt_ofNat_small (m : Nat) (h : m < 2 ^ 31) : (BitVec.ofNat 32 m).toInt = (m : Int) := by
  have h1 : (BitVec.ofNat 32 m).toNat = m := by rw [BitVec.toNat_ofNat]; exact Nat.mod_eq_of_lt (by omega)
  rw [BitVec.toInt_eq_toNat_of_lt (by rw [h1]; omega), h1]

/-- A grid coordinate times a block extent plus a coordinate inside the block, read signed: the position. -/
theorem toInt_block (a n c : Nat) (h : a * n + c < 2 ^ 31) :
    (IntOp.addi (Scalar.muli (BitVec.ofNat 32 a) (BitVec.ofNat 32 n)) (BitVec.ofNat 32 c)).toInt = ((a * n + c : Nat) : Int) := by
  have e : IntOp.addi (Scalar.muli (BitVec.ofNat 32 a) (BitVec.ofNat 32 n)) (BitVec.ofNat 32 c) = BitVec.ofNat 32 (a * n + c) := by
    simp only [IntOp.addi, Scalar.muli, IntOp.muli, BitVec.ofNat_add, BitVec.ofNat_mul]
  rw [e, toInt_ofNat_small _ h]

/-- The mask bit at (j, j') of the point (b, ti, si): the key's position si·512 + j' does not exceed the query's ti·1024 + j. -/
theorem mask_apply (i : grid2.Coords) (j : Fin 1024) (j' : Fin 512) :
    cmpi .sle (addi (broadcast S1024x512 (Scalar.muli (BitVec.ofNat 32 (i 2).val) 512#32)) (iota .tc S1024x512 32 [1] iota_S1024x512_d1_w32))
      (addi (broadcast S1024x512 (Scalar.muli (BitVec.ofNat 32 (i 1).val) 1024#32)) (iota .tc S1024x512 32 [0] iota_S1024x512_d0_w32)) (ix2 j j')
      = if (i 2).val * 512 + j'.val ≤ (i 1).val * 1024 + j.val then 1#1 else 0#1 := by
  have h1 : (i 1).val < 2 := (i 1).isLt
  have h2 : (i 2).val < 4 := (i 2).isLt
  have hj := j.isLt
  have hj' := j'.isLt
  show IntOp.cmpi .sle (IntOp.addi (Scalar.muli (BitVec.ofNat 32 (i 2).val) 512#32) (iota .tc S1024x512 32 [1] iota_S1024x512_d1_w32 (ix2 j j')))
      (IntOp.addi (Scalar.muli (BitVec.ofNat 32 (i 1).val) 1024#32) (iota .tc S1024x512 32 [0] iota_S1024x512_d0_w32 (ix2 j j'))) = _
  rw [iota_single_apply, iota_single_apply]
  have eL := toInt_block (i 2).val 512 j'.val (by omega)
  have eR := toInt_block (i 1).val 1024 j.val (by omega)
  by_cases h : (i 2).val * 512 + j'.val ≤ (i 1).val * 1024 + j.val
  · rw [if_pos h]
    refine IntOp.cmpi_sle.mpr ?_
    show (IntOp.addi (Scalar.muli (BitVec.ofNat 32 (i 2).val) (BitVec.ofNat 32 512)) (BitVec.ofNat 32 j'.val)).toInt ≤ (IntOp.addi (Scalar.muli (BitVec.ofNat 32 (i 1).val) (BitVec.ofNat 32 1024)) (BitVec.ofNat 32 j.val)).toInt
    rw [eL, eR]; exact_mod_cast h
  · rw [if_neg h]
    refine eq_zero_of_ne_one fun hc => h ?_
    have := IntOp.cmpi_sle.mp hc
    change (IntOp.addi (Scalar.muli (BitVec.ofNat 32 (i 2).val) (BitVec.ofNat 32 512)) (BitVec.ofNat 32 j'.val)).toInt ≤ (IntOp.addi (Scalar.muli (BitVec.ofNat 32 (i 1).val) (BitVec.ofNat 32 1024)) (BitVec.ofNat 32 j.val)).toInt at this
    rw [eL, eR] at this; exact_mod_cast this

/-! ## The update at an index -/

theorem shapeCast_11a_1a_apply {α : Type} {a : ℕ} (x : (⟨3, ![1, 1, a]⟩ : Shape).Idx → α)
    (h : (⟨3, ![1, 1, a]⟩ : Shape).ShapeCasts ⟨2, ![1, a]⟩) (u : Fin 1) (c : Fin a) :
    shapeCast ⟨2, ![1, a]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * a + c.val = u.val * a + c.val
    rw [hu])

/-- The masking constant is −∞ over the extended reals. -/
theorem negBig : Named.named (F := Ideal) κ "neg_big" (φ := .f32) 0xFF333332#32 = (⊥ : EReal) :=
  IdealRules.named_const.ideal_named_scalar _ _ _ _ rfl

/-- The weight of key j' for query j: exp (score · 1/32 − lse) where the key's position does not exceed the query's, else
    exp (−∞ − lse) = 0. -/
theorem weight_apply (i : grid2.Coords) (sA : FVec Ideal S1024x512 .f32) (lsv : FVec Ideal S1x512 .f32) (j : Fin 1024) (j' : Fin 512)
    (s l : ℝ) (hs : sA (ix2 j j') = ((s : ℝ) : EReal)) (hl : lsv (ix2 (0 : Fin 1) j') = ((l : ℝ) : EReal)) :
    truncf .bf16 (exp (subf (select
        (cmpi .sle (addi (broadcast S1024x512 (Scalar.muli (BitVec.ofNat 32 (i 2).val) 512#32)) (iota .tc S1024x512 32 [1] iota_S1024x512_d1_w32))
          (addi (broadcast S1024x512 (Scalar.muli (BitVec.ofNat 32 (i 1).val) 1024#32)) (iota .tc S1024x512 32 [0] iota_S1024x512_d0_w32)))
        (mulf sA (broadcast S1024x512 (Scalar.ofBits .f32 0x3D000000#32)))
        (broadcast S1024x512 (Named.named κ "neg_big" 0xFF333332#32)))
      (broadcastTo S1024x512 lsv broadcasts_S1x512_S1024x512))) bitsLt_bf16_f32 (ix2 j j')
      = (((if (i 2).val * 512 + j'.val ≤ (i 1).val * 1024 + j.val then Real.exp (s * (1 / 32) - l) else 0 : ℝ)) : EReal) := by
  show Ideal.exp (Scalar.select
      (cmpi .sle (addi (broadcast S1024x512 (Scalar.muli (BitVec.ofNat 32 (i 2).val) 512#32)) (iota .tc S1024x512 32 [1] iota_S1024x512_d1_w32))
          (addi (broadcast S1024x512 (Scalar.muli (BitVec.ofNat 32 (i 1).val) 1024#32)) (iota .tc S1024x512 32 [0] iota_S1024x512_d0_w32)) (ix2 j j'))
      (sA (ix2 j j') * Ideal.ofBits .f32 0x3D000000#32) (Named.named (F := Ideal) κ "neg_big" (φ := .f32) 0xFF333332#32)
      - broadcastTo S1024x512 lsv broadcasts_S1x512_S1024x512 (ix2 j j')) = _
  rw [mask_apply, broadcastTo_1b_ab_apply, hs, hl, negBig, Cert.LibIdealReal.ofBits_inv32]
  by_cases h : (i 2).val * 512 + j'.val ≤ (i 1).val * 1024 + j.val
  · rw [if_pos h, if_pos h, select_one, Cert.LibIdealReal.coe_mul_coe, Cert.LibIdealReal.coe_sub_coe]
    rfl
  · rw [if_neg h, if_neg h, select_zero, Cert.LibIdealReal.exp_bot_sub_coe]
    rfl

/-- THE UPDATE AT AN INDEX. With the query block holding the reals P, the key block Q, the normaliser block L and the
    value block X, one update adds to the accumulator at (j, d) the sum over the block's 512 keys j' of
    exp ((Σ_e P j e · Q j' e) · 1/32 − L j') · X j' d, the keys past the query's position contributing 0. -/
theorem k2_pay2_apply (i : grid2.Coords) (xt : Vec Ideal S1x1024x1024 .bf16) (xs : Vec Ideal S1x512x1024 .bf16)
    (ls : Vec Ideal S1x1x512 .f32) (a0 : Vec Ideal S1024x1024 .f32) (xr : Vec Ideal S1x512x1024 .bf16)
    (P : Fin 1024 → Fin 1024 → ℝ) (Q : Fin 512 → Fin 1024 → ℝ) (L : Fin 512 → ℝ) (X : Fin 512 → Fin 1024 → ℝ)
    (hxt : ∀ j e, xt (ix3 (0 : Fin 1) j e) = ((P j e : ℝ) : EReal)) (hxs : ∀ j' e, xs (ix3 (0 : Fin 1) j' e) = ((Q j' e : ℝ) : EReal))
    (hls : ∀ j', ls (ix3 (0 : Fin 1) (0 : Fin 1) j') = ((L j' : ℝ) : EReal)) (hxr : ∀ j' d, xr (ix3 (0 : Fin 1) j' d) = ((X j' d : ℝ) : EReal))
    (j d : Fin 1024) :
    k2_pay2 (F := Ideal) i xt xs ls a0 xr (ix2 j d)
      = a0 (ix2 j d) + ((∑ j' : Fin 512, (if (i 2).val * 512 + j'.val ≤ (i 1).val * 1024 + j.val
            then Real.exp ((∑ e : Fin 1024, P j e * Q j' e) * (1 / 32) - L j') else 0) * X j' d : ℝ) : EReal) := by
  unfold k2_pay2
  refine (congrFun (shapeCast_self _ _) _).trans ?_
  refine congrArg (a0 (ix2 j d) + ·) ?_
  refine (matmulB_apply _ _ j d).trans ?_
  refine Eq.trans ?_ (Cert.LibIdealReal.coe_fintype_sum _).symm
  refine Finset.sum_congr rfl fun j' _ => ?_
  rw [EReal.coe_mul]
  refine congrArg₂ (· * ·) ?_ ((shapeCast_1ab_ab_apply xr _ j' d).trans (hxr j' d))
  refine weight_apply i _ _ j j' _ _ ?_ ((shapeCast_11a_1a_apply ls _ _ j').trans (hls j'))
  refine (matmulA_apply _ _ j j').trans ?_
  refine Eq.trans ?_ (Cert.LibIdealReal.coe_fintype_sum _).symm
  refine Finset.sum_congr rfl fun e _ => ?_
  rw [EReal.coe_mul]
  exact congrArg₂ (· * ·) ((shapeCast_1ab_ab_apply xt _ j e).trans (hxt j e)) ((shapeCast_1ab_ab_apply xs _ j' e).trans (hxs j' e))

/-- The same with the accumulator's entry a real: the result is the real sum. -/
theorem k2_pay2_apply_real (i : grid2.Coords) (xt : Vec Ideal S1x1024x1024 .bf16) (xs : Vec Ideal S1x512x1024 .bf16)
    (ls : Vec Ideal S1x1x512 .f32) (a0 : Vec Ideal S1024x1024 .f32) (xr : Vec Ideal S1x512x1024 .bf16)
    (P : Fin 1024 → Fin 1024 → ℝ) (Q : Fin 512 → Fin 1024 → ℝ) (L : Fin 512 → ℝ) (X : Fin 512 → Fin 1024 → ℝ)
    (hxt : ∀ j e, xt (ix3 (0 : Fin 1) j e) = ((P j e : ℝ) : EReal)) (hxs : ∀ j' e, xs (ix3 (0 : Fin 1) j' e) = ((Q j' e : ℝ) : EReal))
    (hls : ∀ j', ls (ix3 (0 : Fin 1) (0 : Fin 1) j') = ((L j' : ℝ) : EReal)) (hxr : ∀ j' d, xr (ix3 (0 : Fin 1) j' d) = ((X j' d : ℝ) : EReal))
    (j d : Fin 1024) (A : ℝ) (ha : a0 (ix2 j d) = ((A : ℝ) : EReal)) :
    k2_pay2 (F := Ideal) i xt xs ls a0 xr (ix2 j d)
      = ((A + ∑ j' : Fin 512, (if (i 2).val * 512 + j'.val ≤ (i 1).val * 1024 + j.val
            then Real.exp ((∑ e : Fin 1024, P j e * Q j' e) * (1 / 32) - L j') else 0) * X j' d : ℝ) : EReal) := by
  rw [k2_pay2_apply i xt xs ls a0 xr P Q L X hxt hxs hls hxr j d, ha, EReal.coe_add]

/-! ## The reset and the final store at an index -/

/-- The reset value is 0 everywhere. -/
theorem k2_pay1_apply (idx : S1024x1024.Idx) : k2_pay1 (F := Ideal) idx = ((0 : ℝ) : EReal) := by
  unfold k2_pay1
  refine (congrFun (shapeCast_self _ _) _).trans ?_
  exact Cert.LibIdealReal.ofBits_zero_coe

/-- The stored block at (u, j, d) is the accumulator at (j, d). -/
theorem k2_pay3_apply (a : Vec Ideal S1024x1024 .f32) (u : Fin 1) (j d : Fin 1024) :
    k2_pay3 (F := Ideal) a (ix3 u j d) = a (ix2 j d) := by
  unfold k2_pay3
  exact shapeCast_ab_1ab_apply a _ u j d

/-! ## The key blocks add up to the causal sum -/

open Cert.Spec

/-- The position of row j of query block ti. -/
def qpos (ti : Fin 2) (j : Fin 1024) : Fin 2048 := ⟨ti.val * 1024 + j.val, by have := ti.isLt; have := j.isLt; omega⟩
/-- The position of row j' of key block si. -/
def kpos (si : Fin 4) (j' : Fin 512) : Fin 2048 := ⟨si.val * 512 + j'.val, by have := si.isLt; have := j'.isLt; omega⟩

/-- One key block's contribution to the accumulator at (j, d), over the reals. -/
def blk (p : Act) (l : Fin 8 → Fin 2048 → ℝ) (x : Act) (b : Fin 8) (ti : Fin 2) (si : Fin 4) (j d : Fin 1024) : ℝ :=
  ∑ j' : Fin 512, (if si.val * 512 + j'.val ≤ ti.val * 1024 + j.val
      then Real.exp (sc p b (qpos ti j) (kpos si j') - l b (kpos si j')) else 0) * x b (kpos si j') d

/-- A key block that lies wholly past the query block contributes nothing. -/
theorem blk_eq_zero (p : Act) (l : Fin 8 → Fin 2048 → ℝ) (x : Act) (b : Fin 8) (ti : Fin 2) (si : Fin 4) (j d : Fin 1024)
    (h : ¬ si.val * 512 < (ti.val + 1) * 1024) : blk p l x b ti si j d = 0 := by
  unfold blk
  refine Finset.sum_eq_zero fun j' _ => ?_
  rw [if_neg (by have := j.isLt; omega), zero_mul]

/-- The four key blocks' contributions add up to the causal accumulation of the specification. -/
theorem sum_blk (p : Act) (l : Fin 8 → Fin 2048 → ℝ) (x : Act) (b : Fin 8) (ti : Fin 2) (j d : Fin 1024) :
    ∑ si : Fin 4, blk p l x b ti si j d = outWith p l x b (qpos ti j) d := by
  unfold outWith blk
  rw [Finset.sum_filter, ← Equiv.sum_comp (finProdFinEquiv (m := 4) (n := 512)), Fintype.sum_prod_type]
  refine Finset.sum_congr rfl fun si _ => Finset.sum_congr rfl fun j' _ => ?_
  have e : finProdFinEquiv (m := 4) (n := 512) (si, j') = kpos si j' := Fin.ext (by
    show j'.val + 512 * si.val = si.val * 512 + j'.val
    omega)
  rw [e]
  by_cases h : si.val * 512 + j'.val ≤ ti.val * 1024 + j.val
  · rw [if_pos h, if_pos (show kpos si j' ≤ qpos ti j from h)]
  · rw [if_neg h, if_neg (show ¬ kpos si j' ≤ qpos ti j from h), zero_mul]

end Cert.KernelIdeal.Val2

end
-- ==== Proof.Val.Val2.lean ====
import proofs.«407224_j18210661335624_3_alg».proof.Proof.KI.Reg2
import proofs.«407224_j18210661335624_3_alg».proof.Proof.Val.Pay2
import Idealize.ShloMosaic.Lib.Pipeline.Value
import Idealize.ShloMosaic.Lib.ValueIdx
import Idealize.ShloMosaic.Lib.ValueIdxCoords
import Idealize.ShloMosaic.Lib.ValueLayout
import Idealize.ShloMosaic.Lib.Decide

/-!
  What the accumulation kernel leaves in its output array, over the extended reals.

  The grid point t = 8·b + 4·ti + si works on batch b, query tile ti (rows ti·1024 … ti·1024 + 1023) and key block si
  (rows si·512 … si·512 + 511). Along the four points of one query tile the accumulator is reset, then gains the
  contribution of each key block that starts before the tile's end (the others lie wholly past every query of the tile and
  would contribute 0), and the last point stores it. With the three input arrays holding reals, the four contributions add
  up to the causal sum  Σ_{s ≤ t} exp (sc p b t s − l b s) · x b s d  of the specification, and the stored blocks tile the
  output array.
-/

set_option maxRecDepth 16384
set_option synthInstance.maxSize 4096

noncomputable section

namespace Cert.KernelIdeal.Val2

open Cert.KernelIdeal Cert.KernelIdeal.Gen Cert.KernelIdeal.Hand
open Idealize.ShloMosaic Idealize.ShloMosaic.TcCoe Idealize.ShloMosaic.ValueIdx
open Idealize.SL Idealize.SL.Sem
open Cert.Spec

/-! ## The index maps over the grid, and the blocks read off the arrays -/

/-- The grid point's coordinates and every window's block indices, as functions of the point's number t = 8·b + 4·ti + si. -/
theorem idx_facts2 : ∀ t : Fin cfg2.N,
    ((grid2.coords t) 1).val = t.val / 4 % 2 ∧ ((grid2.coords t) 2).val = t.val % 4
    ∧ win2_0.index t (0 : Fin 3) = t.val / 8 ∧ win2_0.index t (1 : Fin 3) = t.val / 4 % 2 ∧ win2_0.index t (2 : Fin 3) = 0
    ∧ win2_1.index t (0 : Fin 3) = t.val / 8 ∧ win2_1.index t (1 : Fin 3) = min (t.val % 4) (2 * (t.val / 4 % 2) + 1) ∧ win2_1.index t (2 : Fin 3) = 0
    ∧ win2_2.index t (0 : Fin 3) = t.val / 8 ∧ win2_2.index t (1 : Fin 3) = 0 ∧ win2_2.index t (2 : Fin 3) = min (t.val % 4) (2 * (t.val / 4 % 2) + 1)
    ∧ win2_3.index t (0 : Fin 3) = t.val / 8 ∧ win2_3.index t (1 : Fin 3) = min (t.val % 4) (2 * (t.val / 4 % 2) + 1) ∧ win2_3.index t (2 : Fin 3) = 0
    ∧ win2_4.index t (0 : Fin 3) = t.val / 8 ∧ win2_4.index t (1 : Fin 3) = t.val / 4 % 2 ∧ win2_4.index t (2 : Fin 3) = 0 :=
  (by decide +kernel : ∀ t : Fin grid2.N, _)

section Reads
variable {F : FTy → Type} [FloatOps F] [Named F]
variable (V : (c : Dev nD) → (b : Ref sig .tc) → Buf (Elt F) ((c : Thread nD τ).loc b))

/-- The query block at a point, read at (0, j, e): the array at (b, ti·1024 + j, e). -/
theorem iblk2_0_apply (c : Dev nD) (t : Fin cfg2.N) (j e : Fin 1024) (i : S8x2048x1024.Idx)
    (h0 : (i 0).val = t.val / 8) (h1 : (i 1).val = t.val / 4 % 2 * 1024 + j.val) (h2 : (i 2).val = e.val) :
    iblk2 V c 0 t (ix3 (0 : Fin 1) j e) = V c main_v2_0 i := by
  obtain ⟨-, -, e0, e1, e2, -⟩ := idx_facts2 t
  show V c main_v2_0 (((cfg2.win 0).blk t).view.emb (ix3 (0 : Fin 1) j e)) = V c main_v2_0 i
  refine congrArg (V c main_v2_0) (funext fun a => Fin.ext ?_)
  match a with
  | ⟨0, _⟩ => show win2_0.index t (0 : Fin 3) * 1 + 1 * 0 = (i 0).val; omega
  | ⟨1, _⟩ => show win2_0.index t (1 : Fin 3) * 1024 + 1 * j.val = (i 1).val; omega
  | ⟨2, _⟩ => show win2_0.index t (2 : Fin 3) * 1024 + 1 * e.val = (i 2).val; omega

/-- The key block at a point where the key-block index is not clamped, read at (0, j', e): the array at (b, si·512 + j', e). -/
theorem iblk2_1_apply (c : Dev nD) (t : Fin cfg2.N) (hup : t.val % 4 < 2 * (t.val / 4 % 2 + 1)) (j' : Fin 512) (e : Fin 1024) (i : S8x2048x1024.Idx)
    (h0 : (i 0).val = t.val / 8) (h1 : (i 1).val = t.val % 4 * 512 + j'.val) (h2 : (i 2).val = e.val) :
    iblk2 V c 1 t (ix3 (0 : Fin 1) j' e) = V c main_v2_0 i := by
  obtain ⟨-, -, -, -, -, e0, e1, e2, -⟩ := idx_facts2 t
  show V c main_v2_0 (((cfg2.win 1).blk t).view.emb (ix3 (0 : Fin 1) j' e)) = V c main_v2_0 i
  refine congrArg (V c main_v2_0) (funext fun a => Fin.ext ?_)
  match a with
  | ⟨0, _⟩ => show win2_1.index t (0 : Fin 3) * 1 + 1 * 0 = (i 0).val; omega
  | ⟨1, _⟩ => show win2_1.index t (1 : Fin 3) * 512 + 1 * j'.val = (i 1).val; omega
  | ⟨2, _⟩ => show win2_1.index t (2 : Fin 3) * 1024 + 1 * e.val = (i 2).val; omega

/-- The normaliser block at such a point, read at (0, 0, j'): the array at (b, 0, si·512 + j'). -/
theorem iblk2_2_apply (c : Dev nD) (t : Fin cfg2.N) (hup : t.val % 4 < 2 * (t.val / 4 % 2 + 1)) (j' : Fin 512) (i : S8x1x2048.Idx)
    (h0 : (i 0).val = t.val / 8) (h1 : (i 1).val = 0) (h2 : (i 2).val = t.val % 4 * 512 + j'.val) :
    iblk2 V c 2 t (ix3 (0 : Fin 1) (0 : Fin 1) j') = V c main_v3 i := by
  obtain ⟨-, -, -, -, -, -, -, -, e0, e1, e2, -⟩ := idx_facts2 t
  show V c main_v3 (((cfg2.win 2).blk t).view.emb (ix3 (0 : Fin 1) (0 : Fin 1) j')) = V c main_v3 i
  refine congrArg (V c main_v3) (funext fun a => Fin.ext ?_)
  match a with
  | ⟨0, _⟩ => show win2_2.index t (0 : Fin 3) * 1 + 1 * 0 = (i 0).val; omega
  | ⟨1, _⟩ => show win2_2.index t (1 : Fin 3) * 1 + 1 * 0 = (i 1).val; omega
  | ⟨2, _⟩ => show win2_2.index t (2 : Fin 3) * 512 + 1 * j'.val = (i 2).val; omega

/-- The value block at such a point, read at (0, j', d): the array at (b, si·512 + j', d). -/
theorem iblk2_3_apply (c : Dev nD) (t : Fin cfg2.N) (hup : t.val % 4 < 2 * (t.val / 4 % 2 + 1)) (j' : Fin 512) (d : Fin 1024) (i : S8x2048x1024.Idx)
    (h0 : (i 0).val = t.val / 8) (h1 : (i 1).val = t.val % 4 * 512 + j'.val) (h2 : (i 2).val = d.val) :
    iblk2 V c 3 t (ix3 (0 : Fin 1) j' d) = V c main_v2_1 i := by
  obtain ⟨-, -, -, -, -, -, -, -, -, -, -, e0, e1, e2, -⟩ := idx_facts2 t
  show V c main_v2_1 (((cfg2.win 3).blk t).view.emb (ix3 (0 : Fin 1) j' d)) = V c main_v2_1 i
  refine congrArg (V c main_v2_1) (funext fun a => Fin.ext ?_)
  match a with
  | ⟨0, _⟩ => show win2_3.index t (0 : Fin 3) * 1 + 1 * 0 = (i 0).val; omega
  | ⟨1, _⟩ => show win2_3.index t (1 : Fin 3) * 512 + 1 * j'.val = (i 1).val; omega
  | ⟨2, _⟩ => show win2_3.index t (2 : Fin 3) * 1024 + 1 * d.val = (i 2).val; omega

end Reads

/-! ## The output's blocks cover the array -/

/-- An index of the output array is in point t's block iff each coordinate is in the block's range on its axis. -/
theorem mem_blk2_4 (t : Fin cfg2.N) (i : S8x2048x1024.Idx) :
    i ∈ ((cfg2.win 4).blk t).view.set ↔ ∀ a : Fin 3, win2_4.index t a * S1x1024x1024.size a ≤ (i a).val ∧ (i a).val < win2_4.index t a * S1x1024x1024.size a + S1x1024x1024.size a := by
  show i ∈ ((View.whole main_v4).slice (win2_4.rect t)).set ↔ _
  rw [View.set_slice_whole, Rect.mem_set_unit]
  exact Iff.rfl

/-- Every index (b, r, d) of the output array is in the block of the last key-block point of its query tile, 8·b + 4·(r / 1024) + 3,
    which writes its block back. -/
theorem cover2_4 (i : S8x2048x1024.Idx) :
    ∃ t : Fin cfg2.N, (cfg2.win 4).flush t = true ∧ i ∈ ((cfg2.win 4).blk t).view.set := by
  have hi0 : (i 0).val < 8 := (i 0).isLt
  have hi1 : (i 1).val < 2048 := (i 1).isLt
  have hi2 : (i 2).val < 1024 := (i 2).isLt
  have hN : cfg2.N = 64 := N_2
  let t : Fin cfg2.N := ⟨8 * (i 0).val + 4 * ((i 1).val / 1024) + 3, by rw [hN]; omega⟩
  have htv : t.val = 8 * (i 0).val + 4 * ((i 1).val / 1024) + 3 := rfl
  obtain ⟨-, -, -, -, -, -, -, -, -, -, -, -, -, -, e0, e1, e2⟩ := idx_facts2 t
  refine ⟨t, (flush2_4 t).mpr (by omega), ?_⟩
  rw [mem_blk2_4]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 1024 ≤ (i 1).val ∧ (i 1).val < win2_4.index t (1 : Fin 3) * 1024 + 1024; omega
  | ⟨2, _⟩ => show win2_4.index t (2 : Fin 3) * 1024 ≤ (i 2).val ∧ (i 2).val < win2_4.index t (2 : Fin 3) * 1024 + 1024; omega

/-! ## One update of the accumulator, over the arrays -/

section Step
variable (c : Dev nD) (p : Act) (l : Fin 8 → Fin 2048 → ℝ) (xr : Act)
variable (W : (c : Dev nD) → (b : Ref sig .tc) → Buf (Elt Ideal) ((c : Thread nD τ).loc b))

/-- ONE UPDATE. At a point of batch b, query tile ti and key block si that updates, from an accumulator holding the real A at (j, d)
    the payload leaves A plus the key block's contribution there. -/
theorem step_update2 (hp : W c main_v2_0 = emb3 p) (hl : W c main_v3 = emb3 (fun b (_ : Fin 1) s => l b s)) (hx : W c main_v2_1 = emb3 xr)
    (t : Fin cfg2.N) (b : Fin 8) (ti : Fin 2) (si : Fin 4) (ht : t.val = 8 * b.val + 4 * ti.val + si.val)
    (hup : si.val < 2 * (ti.val + 1)) (a0 : Vec Ideal S1024x1024 .f32) (j d : Fin 1024) (A : ℝ) (ha : a0 (ix2 j d) = ((A : ℝ) : EReal)) :
    k2_pay2 (F := Ideal) (grid2.coords t) (iblk2 W c 0 t) (iblk2 W c 1 t) (iblk2 W c 2 t) a0 (iblk2 W c 3 t) (ix2 j d)
      = ((A + blk p l xr b ti si j d : ℝ) : EReal) := by
  have hb := b.isLt; have hti := ti.isLt; have hsi := si.isLt
  have e8 : t.val / 8 = b.val := by omega
  have e4 : t.val / 4 % 2 = ti.val := by omega
  have e1 : t.val % 4 = si.val := by omega
  have hup' : t.val % 4 < 2 * (t.val / 4 % 2 + 1) := by omega
  obtain ⟨c1, c2, -⟩ := idx_facts2 t
  refine (k2_pay2_apply_real (grid2.coords t) (iblk2 W c 0 t) (iblk2 W c 1 t) (iblk2 W c 2 t) a0 (iblk2 W c 3 t)
    (fun j e => p b (qpos ti j) e) (fun j' e => p b (kpos si j') e) (fun j' => l b (kpos si j')) (fun j' d => xr b (kpos si j') d)
    (fun j e => ?_) (fun j' e => ?_) (fun j' => ?_) (fun j' d => ?_) j d A ha).trans ?_
  · refine (iblk2_0_apply W c t j e (ix3 b (qpos ti j) e) (by show b.val = _; omega) (by show ti.val * 1024 + j.val = _; omega) rfl).trans ?_
    rw [hp]; rfl
  · refine (iblk2_1_apply W c t hup' j' e (ix3 b (kpos si j') e) (by show b.val = _; omega) (by show si.val * 512 + j'.val = _; omega) rfl).trans ?_
    rw [hp]; rfl
  · refine (iblk2_2_apply W c t hup' j' (ix3 b (0 : Fin 1) (kpos si j')) (by show b.val = _; omega) rfl (by show si.val * 512 + j'.val = _; omega)).trans ?_
    rw [hl]; rfl
  · refine (iblk2_3_apply W c t hup' j' d (ix3 b (kpos si j') d) (by show b.val = _; omega) (by show si.val * 512 + j'.val = _; omega) rfl).trans ?_
    rw [hx]; rfl
  · rw [c1, c2, e4, e1]; rfl

end Step

/-! ## The four points of one output block -/

section Chain
variable (c : Dev nD) (p : Act) (l : Fin 8 → Fin 2048 → ℝ) (xr : Act)
variable (W : (c : Dev nD) → (b : Ref sig .tc) → Buf (Elt Ideal) ((c : Thread nD τ).loc b))

theorem scAt2_congr (n n' : ℕ) (h : n = n') (hn : n < cfg2.N) (hn' : n' < cfg2.N) : scAt2 W c n hn = scAt2 W c n' hn' := by
  subst h; rfl

/-- After the first key block of a query tile the accumulator holds that block's contribution. -/
theorem acc_first2 (hp : W c main_v2_0 = emb3 p) (hl : W c main_v3 = emb3 (fun b (_ : Fin 1) s => l b s)) (hx : W c main_v2_1 = emb3 xr)
    (b : Fin 8) (ti : Fin 2) (j d : Fin 1024) (hn : 8 * b.val + 4 * ti.val + 0 < cfg2.N) :
    (scAt2 W c (8 * b.val + 4 * ti.val + 0) hn).2 (ix2 j d) = ((blk p l xr b ti 0 j d : ℝ) : EReal) := by
  have hti := ti.isLt
  have h := scAt2_reset W c ⟨8 * b.val + 4 * ti.val + 0, hn⟩ (by show (8 * b.val + 4 * ti.val + 0) % 4 = 0; omega)
  refine (congrFun h (ix2 j d)).trans ?_
  refine (step_update2 c p l xr W hp hl hx ⟨8 * b.val + 4 * ti.val + 0, hn⟩ b ti 0 rfl (by show 0 < 2 * (ti.val + 1); omega) (k2_pay1 (F := Ideal)) j d 0 (k2_pay1_apply (ix2 j d))).trans ?_
  rw [zero_add]

/-- A later key block adds its contribution: by the update where the block starts before the end of the query tile, and by
    being 0 where the point is skipped. -/
theorem acc_succ2 (hp : W c main_v2_0 = emb3 p) (hl : W c main_v3 = emb3 (fun b (_ : Fin 1) s => l b s)) (hx : W c main_v2_1 = emb3 xr)
    (b : Fin 8) (ti : Fin 2) (k : ℕ) (hk : k + 1 < 4) (j d : Fin 1024) (S : ℝ) (hn' : 8 * b.val + 4 * ti.val + k < cfg2.N)
    (hprev : (scAt2 W c (8 * b.val + 4 * ti.val + k) hn').2 (ix2 j d) = ((S : ℝ) : EReal)) (hn : 8 * b.val + 4 * ti.val + (k + 1) < cfg2.N) :
    (scAt2 W c (8 * b.val + 4 * ti.val + (k + 1)) hn).2 (ix2 j d) = ((S + blk p l xr b ti ⟨k + 1, hk⟩ j d : ℝ) : EReal) := by
  have hti := ti.isLt
  have h0 : (8 * b.val + 4 * ti.val + (k + 1)) % 4 ≠ 0 := by omega
  have epred : scAt2 W c (8 * b.val + 4 * ti.val + (k + 1) - 1) (Nat.lt_of_le_of_lt (Nat.sub_le _ _) hn) = scAt2 W c (8 * b.val + 4 * ti.val + k) hn' :=
    scAt2_congr c W _ _ (by omega) _ _
  by_cases hup : k + 1 < 2 * (ti.val + 1)
  · have h := scAt2_update W c ⟨8 * b.val + 4 * ti.val + (k + 1), hn⟩ h0 (by show (8 * b.val + 4 * ti.val + (k + 1)) % 4 < 2 * ((8 * b.val + 4 * ti.val + (k + 1)) / 4 % 2 + 1); omega)
    refine (congrFun h (ix2 j d)).trans ?_
    exact step_update2 c p l xr W hp hl hx ⟨8 * b.val + 4 * ti.val + (k + 1), hn⟩ b ti ⟨k + 1, hk⟩ rfl hup _ j d S
      ((congrFun (congrArg Prod.snd epred) (ix2 j d)).trans hprev)
  · have h := scAt2_skip W c ⟨8 * b.val + 4 * ti.val + (k + 1), hn⟩ h0 (by show ¬ (8 * b.val + 4 * ti.val + (k + 1)) % 4 < 2 * ((8 * b.val + 4 * ti.val + (k + 1)) / 4 % 2 + 1); omega)
    refine (congrFun h (ix2 j d)).trans ?_
    refine ((congrFun (congrArg Prod.snd epred) (ix2 j d)).trans hprev).trans ?_
    rw [blk_eq_zero p l xr b ti ⟨k + 1, hk⟩ j d (by show ¬ (k + 1) * 512 < (ti.val + 1) * 1024; omega), add_zero]

/-- After the last key block of query tile (b, ti) the accumulator holds the causal accumulation of the specification. -/
theorem acc_last2 (hp : W c main_v2_0 = emb3 p) (hl : W c main_v3 = emb3 (fun b (_ : Fin 1) s => l b s)) (hx : W c main_v2_1 = emb3 xr)
    (b : Fin 8) (ti : Fin 2) (j d : Fin 1024) (hn : 8 * b.val + 4 * ti.val + 3 < cfg2.N) :
    (scAt2 W c (8 * b.val + 4 * ti.val + 3) hn).2 (ix2 j d) = ((outWith p l xr b (qpos ti j) d : ℝ) : EReal) := by
  have hN : cfg2.N = 64 := N_2
  have hb := b.isLt; have hti := ti.isLt
  have a0 := acc_first2 c p l xr W hp hl hx b ti j d (by rw [hN]; omega)
  have a1 := acc_succ2 c p l xr W hp hl hx b ti 0 (by omega) j d _ _ a0 (by rw [hN]; omega)
  have a2 := acc_succ2 c p l xr W hp hl hx b ti 1 (by omega) j d _ _ a1 (by rw [hN]; omega)
  have a3 := acc_succ2 c p l xr W hp hl hx b ti 2 (by omega) j d _ _ a2 (by rw [hN]; omega)
  refine a3.trans (congrArg _ ?_)
  rw [← sum_blk p l xr b ti j d, Fin.sum_univ_four]
  rfl

end Chain

/-! ## The block a last key-block point stores -/

/-- An array holding reals read at an index given by its coordinates. -/
theorem emb3_of_coords {n0 n1 n2 : ℕ} (f : Fin n0 → Fin n1 → Fin n2 → ℝ) (i : (⟨3, ![n0, n1, n2]⟩ : Shape).Idx) (a : Fin n0) (b : Fin n1) (c : Fin n2)
    (h0 : (i 0).val = a.val) (h1 : (i 1).val = b.val) (h2 : (i 2).val = c.val) : emb3 f i = ((f a b c : ℝ) : EReal) := by
  have e : i = ix3 a b c := funext fun x => Fin.ext (match x with | ⟨0, _⟩ => h0 | ⟨1, _⟩ => h1 | ⟨2, _⟩ => h2)
  rw [e]; rfl

section Out
variable (c : Dev nD) (p : Act) (l : Fin 8 → Fin 2048 → ℝ) (xr : Act)
variable (W : (c : Dev nD) → (b : Ref sig .tc) → Buf (Elt Ideal) ((c : Thread nD τ).loc b))

/-- What a last key-block point (t ≡ 3 mod 4) holds for its output block, read at (u, j, d), is the specification's causal accumulation
    at the array index under it. -/
theorem out_block2 (hp : W c main_v2_0 = emb3 p) (hl : W c main_v3 = emb3 (fun b (_ : Fin 1) s => l b s)) (hx : W c main_v2_1 = emb3 xr)
    (t : Fin cfg2.N) (h3 : t.val % 4 = 3) (u : Fin 1) (j d : Fin 1024) :
    (scAt2 W c t.val t.isLt).1 (ix3 u j d) = emb3 (outWith p l xr) (((cfg2.win 4).blk t).view.emb (ix3 u j d)) := by
  have hN : cfg2.N = 64 := N_2
  have ht : t.val < 64 := lt_of_lt_of_eq t.isLt hN
  obtain ⟨-, -, -, -, -, -, -, -, -, -, -, -, -, -, e0, e1, e2⟩ := idx_facts2 t
  let b : Fin 8 := ⟨t.val / 8, by omega⟩
  let ti : Fin 2 := ⟨t.val / 4 % 2, by omega⟩
  have hb : b.val = t.val / 8 := rfl
  have hti : ti.val = t.val / 4 % 2 := rfl
  have hn : 8 * b.val + 4 * ti.val + 3 < cfg2.N := by rw [hN]; omega
  have econg : scAt2 W c t.val t.isLt = scAt2 W c (8 * b.val + 4 * ti.val + 3) hn := scAt2_congr c W _ _ (by omega) _ _
  rw [scAt2_fst W c t]
  refine (k2_pay3_apply _ u j d).trans ?_
  refine ((congrFun (congrArg Prod.snd econg) (ix2 j d)).trans (acc_last2 c p l xr W hp hl hx b ti j d hn)).trans ?_
  refine (emb3_of_coords (outWith p l xr) _ b (qpos ti j) d ?_ ?_ ?_).symm
  · show win2_4.index t (0 : Fin 3) * 1 + 1 * u.val = t.val / 8; omega
  · show win2_4.index t (1 : Fin 3) * 1024 + 1 * j.val = t.val / 4 % 2 * 1024 + j.val; omega
  · show win2_4.index t (2 : Fin 3) * 1024 + 1 * d.val = d.val; omega

end Out

/-! ## The output array after the region -/

section Final
variable (V : (c : Dev nD) → (b : Ref sig .tc) → Buf (Elt Ideal) ((c : Thread nD τ).loc b))

/-- What a point that writes its block back writes is its block of the specification's array: for any proof data of the region
    whose output block after a point is the final payload of the accumulator there. -/
theorem flushed_of2 (c : Dev nD) (dat : Pipeline.Dat τ (Elt Ideal) Unit ℕ (UR sig nD τ) ℕ cfg2 c)
    (hafter : ∀ t : Fin cfg2.N, dat.after 4 t = (scAt2 V c t.val t.isLt).1)
    (p : Act) (l : Fin 8 → Fin 2048 → ℝ) (xr : Act)
    (hp : V c main_v2_0 = emb3 p) (hl : V c main_v3 = emb3 (fun b (_ : Fin 1) s => l b s)) (hx : V c main_v2_1 = emb3 xr)
    (t : Fin cfg2.N) (hf : (cfg2.win 4).flush t = true) :
    dat.flushed 4 t = ((cfg2.win 4).blk t).view.read (Elt Ideal) (emb3 (outWith p l xr)) := by
  have h3 : t.val % 4 = 3 := (flush2_4 t).mp hf
  show (cfg2.win 4).cut (grid2.coords t) (dat.after 4 t) = _
  rw [hafter]
  funext y
  obtain ⟨u, j, d, rfl⟩ : ∃ (u : Fin 1) (j d : Fin 1024), y = ix3 u j d := ⟨y 0, y 1, y 2, eq_ix3 y⟩
  exact out_block2 c p l xr V hp hl hx t h3 u j d

/-- The stored blocks tile the output array, so it ends holding the specification's array. -/
theorem arrAt_of2 (c : Dev nD) (dat : Pipeline.Dat τ (Elt Ideal) Unit ℕ (UR sig nD τ) ℕ cfg2 c)
    (hafter : ∀ t : Fin cfg2.N, dat.after 4 t = (scAt2 V c t.val t.isLt).1)
    (p : Act) (l : Fin 8 → Fin 2048 → ℝ) (xr : Act)
    (hp : V c main_v2_0 = emb3 p) (hl : V c main_v3 = emb3 (fun b (_ : Fin 1) s => l b s)) (hx : V c main_v2_1 = emb3 xr) :
    dat.arrAt 4 cfg2.N = emb3 (outWith p l xr) :=
  dat.arrAt_eq_of_cover 4 (emb3 (outWith p l xr)) (fun t hf => flushed_of2 V c dat hafter p l xr hp hl hx t hf) cover2_4

/-- THE OUTPUT ARRAY after the accumulation region: the causal accumulation of the specification, index by index. -/
theorem arrAt2_4 (c : Dev nD) (p : Act) (l : Fin 8 → Fin 2048 → ℝ) (xr : Act)
    (hp : V c main_v2_0 = emb3 p) (hl : V c main_v3 = emb3 (fun b (_ : Fin 1) s => l b s)) (hx : V c main_v2_1 = emb3 xr) :
    (dat2 (F := Ideal) V c).arrAt 4 cfg2.N = emb3 (outWith p l xr) :=
  arrAt_of2 V c (dat2 (F := Ideal) V c) (after2_4 V c) p l xr hp hl hx

end Final

end Cert.KernelIdeal.Val2

end
-- ==== Proof.Val.Host.lean ====
import proofs.«407224_j18210661335624_3_alg».proof.Proof.Gen.KernelIdeal.Launch
import proofs.«407224_j18210661335624_3_alg».proof.Proof.Spec
import Idealize.ShloMosaic.Lib.StableHlo.Run
import Idealize.ShloMosaic.Lib.Pipeline.Value
import Idealize.ShloMosaic.Lib.ValueIdx
import Idealize.ShloMosaic.Lib.ValueLayout

/-!
  What the two host operations before the first kernel call leave, over the extended reals: the bias vector
  `[1024]` re-declared as one row `[1, 1024]`, and the weight matrix rounded to the narrow type, which over the
  extended reals is the matrix itself.
-/

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

/-- The bias row after the two operations: entry (0, e) is `bias e`. -/
theorem after_hostOps0_v0 (W : Valuation τ sig (Elt Ideal)) (br : Fin 1024 → ℝ)
    (h : W (Proc.devRef .tc main_arg2) = Cert.Spec.emb1 br) :
    StableHlo.after (hostOps0 (F := Ideal)) W (Proc.devRef .tc main_v0) = Cert.Spec.emb2 (fun (_ : Fin 1) e => br e) := by
  simp only [hostOps0]
  after_results
  rw [h]
  funext i
  obtain ⟨a, q, rfl⟩ : ∃ (a : Fin 1) (q : Fin 1024), i = ix2 a q := ⟨i 0, i 1, eq_ix2 i⟩
  show shapeCast S1x1024 (Cert.Spec.emb1 br) shapeCasts_S1024_S1x1024 (ix2 a q) = _
  rw [shapeCast_a_1a_apply]
  rfl

/-- The weights after the two operations: the matrix itself. -/
theorem after_hostOps0_v1 (W : Valuation τ sig (Elt Ideal)) (wr : Fin 1024 → Fin 1024 → ℝ)
    (h : W (Proc.devRef .tc main_arg1) = Cert.Spec.emb2 wr) :
    StableHlo.after (hostOps0 (F := Ideal)) W (Proc.devRef .tc main_v1) = Cert.Spec.emb2 wr := by
  simp only [hostOps0]
  after_results
  rw [h]
  rfl

end Cert.KernelIdeal.Val

end
-- ==== Proof.Val.Final.lean ====
import proofs.«407224_j18210661335624_3_alg».proof.Proof.KI.Run
import proofs.«407224_j18210661335624_3_alg».proof.Proof.Val.Val0
import proofs.«407224_j18210661335624_3_alg».proof.Proof.Val.Val1
import proofs.«407224_j18210661335624_3_alg».proof.Proof.Val.Val2
import proofs.«407224_j18210661335624_3_alg».proof.Proof.Val.Host

/-!
  The value of the whole program at the ideal instance: what the result array holds after the three calls,
  for inputs that hold real numbers.
-/

noncomputable section

namespace Cert.KernelIdeal.Val

open Cert.KernelIdeal Cert.KernelIdeal.Gen Cert.KernelIdeal.Hand Cert.KernelIdeal.Val1 Cert.KernelIdeal.Val2 Cert.Spec
open Idealize.ShloMosaic Idealize.ShloMosaic.TcCoe Idealize.SL.Sem
open Idealize.ShloMosaic.Pipeline (Dat)

/-- What the program leaves in its result array: the three calls' values composed.  The projection leaves
    `xp x w bias` and a copy of `x`; the statistics kernel leaves the column normalisers `lse` of the projected
    activations; the accumulation kernel leaves the causal accumulation normalised by them. -/
theorem W4_main_v4 (m : (ℓ : Loc nD τ sig) → Buf (Elt Ideal) ℓ) (ρ : Dev nD → PrngReg) (c : Dev nD)
    (xr : Act) (wr : Fin 1024 → Fin 1024 → ℝ) (br : Fin 1024 → ℝ)
    (hx : m ((c : Thread nD τ).loc main_arg0) = emb3 xr) (hw : m ((c : Thread nD τ).loc main_arg1) = emb2 wr)
    (hb : m ((c : Thread nD τ).loc main_arg2) = emb1 br) :
    W4 (F := Ideal) m ρ c (Proc.devRef .tc main_v4) = emb3 (out (xp xr wr br) xr) := by
  have h1x : V1 m ρ c main_arg0 = emb3 xr := (W1_of_not_written m ρ c main_arg0 (by decide) (by decide)).trans hx
  have h1w : V1 m ρ c main_v1 = emb2 wr := after_hostOps0_v1 (W0 m ρ c) wr hw
  have h1b : V1 m ρ c main_v0 = emb2 (fun (_ : Fin 1) e => br e) := after_hostOps0_v0 (W0 m ρ c) br hb
  have h2p : V2 m ρ c main_v2_0 = emb3 (xp xr wr br) := (W2_arr m ρ c 3).trans (arrAt0_3 (V1 m ρ) c xr wr br h1x h1w h1b)
  have h2x : V2 m ρ c main_v2_1 = emb3 xr := (W2_arr m ρ c 4).trans (arrAt0_4 (V1 m ρ) c xr h1x)
  have h3l : V3 m ρ c main_v3 = emb3 (fun b (_ : Fin 1) s => lse (xp xr wr br) b s) :=
    (W3_v3 m ρ c).trans (arrAt1_2 (V2 m ρ) c (xp xr wr br) h2p)
  have h3p : V3 m ρ c main_v2_0 = emb3 (xp xr wr br) := (W3_of_ne m ρ c main_v2_0 (by decide)).trans h2p
  have h3x : V3 m ρ c main_v2_1 = emb3 xr := (W3_of_ne m ρ c main_v2_1 (by decide)).trans h2x
  exact (W4_v4 m ρ c).trans (arrAt2_4 (V3 m ρ) c (xp xr wr br) (lse (xp xr wr br)) xr h3p h3l h3x)

end Cert.KernelIdeal.Val

end
-- ==== Proof.RefConsts.lean ====
import proofs.«407224_j18210661335624_3_alg».proof.Proof.LibIdealReal

/-!
  The float constants the reference spells, as the extended reals their patterns denote.
-/

noncomputable section

namespace Cert.RefConsts

open Idealize.ShloMosaic

/-- The pattern of `+0.0` denotes `0`. -/
theorem ofBits_zero : Ideal.ofBits .f32 0x00000000#32 = 0 := Cert.LibIdealReal.ofBits_zero

/-- The pattern of `1024.0` denotes the real `1024`. -/
theorem ofBits_1024 : Ideal.ofBits .f32 0x44800000#32 = ((1024 : ℝ) : EReal) := Cert.LibIdealReal.ofBits_1024

/-- The pattern of `-inf` denotes the bottom element. -/
theorem ofBits_neg_inf : Ideal.ofBits .f32 0xFF800000#32 = ⊥ := Cert.LibIdealReal.ofBits_neg_inf

/-- The square root of `1024` is `32`. -/
theorem sqrt_1024 : Ideal.sqrt ((1024 : ℝ) : EReal) = ((32 : ℝ) : EReal) := Cert.LibIdealReal.ideal_sqrt_1024

end Cert.RefConsts

end
-- ==== Proof.Ref1.lean ====
import proofs.«407224_j18210661335624_3_alg».proof.Proof.Gen.ReferenceIdeal.Read
import proofs.«407224_j18210661335624_3_alg».proof.Proof.Spec
import proofs.«407224_j18210661335624_3_alg».proof.Proof.RefConsts
import Idealize.ShloMosaic.Lib.StableHlo.Predicate
import Idealize.ShloMosaic.Lib.ValueIdx

/-!
  The reference, operation by operation, on arguments that hold real numbers: the projection, the scaled
  correlation, the causal mask and the masked correlation, each read at an index as the real number (or the
  bottom element) it is.
-/

noncomputable section

namespace Cert.RefValue

open Cert.ReferenceIdeal Cert.ReferenceIdeal.Gen Cert.ReferenceIdeal.Read Idealize.ShloMosaic Cert.Spec

/-- The embedding of the reals in the extended reals commutes with finite sums. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

variable (xr : Act) (wr : Fin 1024 → Fin 1024 → ℝ) (br : Fin 1024 → ℝ)

/-- The activations as an array of extended reals. -/
abbrev X : (⟨S8x2048x1024, .f32⟩ : BufTy).Contents (Elt Ideal) := emb3 xr
/-- The weights as an array of extended reals. -/
abbrev Wm : (⟨S1024x1024, .f32⟩ : BufTy).Contents (Elt Ideal) := emb2 wr
/-- The bias as an array of extended reals. -/
abbrev Bv : (⟨S1024, .f32⟩ : BufTy).Contents (Elt Ideal) := emb1 br

/-- The product `x · w` at an index is the real sum. -/
theorem v0_apply (i : S8x2048x1024.Idx) :
    val_main_v0 (F := Ideal) (X xr) (Wm wr) i
      = ((∑ d : Fin 1024, xr (i 0) (i 1) d * wr d (i 2) : ℝ) : EReal) := by
  rw [val_main_v0_apply, coe_sum]
  refine Finset.sum_congr rfl fun k _ => ?_
  rw [EReal.coe_mul]
  rfl

/-- The projection `x · w + bias` at an index is `xp`. -/
theorem v3_apply (i : S8x2048x1024.Idx) :
    val_main_v3 (F := Ideal) (X xr) (Wm wr) (Bv br) i = ((xp xr wr br (i 0) (i 1) (i 2) : ℝ) : EReal) := by
  rw [val_main_v3_apply, val_main_v2_apply, val_main_v1_apply, v0_apply, Ideal.addf_def]
  show _ + ((br (i 2) : ℝ) : EReal) = _
  rw [← EReal.coe_add]
  rfl

/-- The correlation of rows `t` and `s` at an index is the real sum over the features. -/
theorem v4_apply (i : S8x2048x2048.Idx) :
    val_main_v4 (F := Ideal) (X xr) (Wm wr) (Bv br) i
      = ((∑ e : Fin 1024, xp xr wr br (i 0) (i 1) e * xp xr wr br (i 0) (i 2) e : ℝ) : EReal) := by
  rw [val_main_v4_apply, coe_sum]
  refine Finset.sum_congr rfl fun k _ => ?_
  rw [v3_apply, v3_apply, EReal.coe_mul]
  rfl

/-- The divisor: the square root of `1024` is `32` everywhere. -/
theorem v6_apply (i : S8x2048x2048.Idx) : val_main_v6 (F := Ideal) i = ((32 : ℝ) : EReal) := by
  rw [val_main_v6_apply, val_main_v5_apply, val_main_cst_apply, Ideal.hostUnary_sqrt_def, Ideal.ofBits_def,
    Cert.RefConsts.ofBits_1024, Cert.RefConsts.sqrt_1024]

/-- The scaled correlation at an index is `sc`. -/
theorem v7_apply (i : S8x2048x2048.Idx) :
    val_main_v7 (F := Ideal) (X xr) (Wm wr) (Bv br) i = ((sc (xp xr wr br) (i 0) (i 1) (i 2) : ℝ) : EReal) := by
  rw [val_main_v7_apply, v4_apply, v6_apply, Ideal.hostDivf_def, Ideal.div_coe (by norm_num : (32 : ℝ) ≠ 0),
    ← EReal.coe_mul]
  rfl

/-- A position below `2048` is its own 32-bit word. -/
theorem toNat_ofNat_small {n : Nat} (h : n < 2048) : (BitVec.ofNat 32 n).toNat = n := by
  rw [BitVec.toNat_ofNat]; omega

/-- The causal mask: `0` on and below the diagonal (`s ≤ t`), the bottom element above it. -/
theorem v9_apply (i : S2048x2048.Idx) :
    val_main_v9 (F := Ideal) i = if (i 1).val ≤ (i 0).val then (0 : EReal) else ⊥ := by
  rw [val_main_v9_apply, val_main_call0_v4_apply, val_main_call0_v2_apply, val_main_call0_v0_apply,
    val_main_call0_v1_apply, val_main_call0_c_apply, val_main_call0_v3_apply, val_main_call0_v5_apply,
    val_main_call0_cst_apply, val_main_v8_apply, val_main_cst_0_apply, Ideal.ofBits_def, Ideal.ofBits_def,
    Cert.RefConsts.ofBits_zero, Cert.RefConsts.ofBits_neg_inf]
  have h0 : (i 0).val < 2048 := (i 0).isLt
  have h1 : (i 1).val < 2048 := (i 1).isLt
  have ha : IntOp.addi (BitVec.ofNat 32 (i 0).val) 0#32 = BitVec.ofNat 32 (i 0).val := by
    unfold IntOp.addi; exact BitVec.add_zero _
  rw [ha]
  have e0 := toNat_ofNat_small h0
  have e1 := toNat_ofNat_small h1
  have hiff := StableHlo.Predicate.sge_iff_toNat (a := BitVec.ofNat 32 (i 0).val) (b := BitVec.ofNat 32 (i 1).val)
    (by rw [e0]; omega) (by rw [e1]; omega)
  rw [e0, e1] at hiff
  by_cases h : (i 1).val ≤ (i 0).val
  · rw [if_pos h, hiff.2 h]; exact ValueIdx.select_one _ _
  · rw [if_neg h, ValueIdx.eq_zero_of_ne_one (fun e => h (hiff.1 e))]; exact ValueIdx.select_zero _ _

/-- The masked correlation: `sc` where `s ≤ t`, the bottom element where `s > t`. -/
theorem v12_apply (i : S8x2048x2048.Idx) :
    val_main_v12 (F := Ideal) (X xr) (Wm wr) (Bv br) i
      = if (i 2).val ≤ (i 1).val then ((sc (xp xr wr br) (i 0) (i 1) (i 2) : ℝ) : EReal) else ⊥ := by
  rw [val_main_v12_apply, v7_apply, val_main_v11_apply, val_main_v10_apply, v9_apply, Ideal.addf_def]
  show _ + (if (i 2).val ≤ (i 1).val then (0 : EReal) else ⊥) = _
  by_cases h : (i 2).val ≤ (i 1).val
  · rw [if_pos h, if_pos h, add_zero]
  · rw [if_neg h, if_neg h, EReal.add_bot]

end Cert.RefValue

end
-- ==== Proof.Ref2.lean ====
import proofs.«407224_j18210661335624_3_alg».proof.Proof.Ref1
import Idealize.ShloMosaic.PureOps.Reduce
import Idealize.ShloMosaic.PureOps.Ideal.Laws
import Mathlib.Data.Finset.Fold
import Mathlib.Data.Finset.Lattice.Fold

/-!
  The reference from the column maximum on: the maximum over the rows `t ≥ s` of a column, the shifted
  exponentials, their sum, the normalised weights and the final product with the activations.
-/

noncomputable section

namespace Cert.RefValue

open Cert.ReferenceIdeal Cert.ReferenceIdeal.Gen Cert.ReferenceIdeal.Read Idealize.ShloMosaic Cert.Spec

/-- The maximum, from the bottom element, of a column whose rows above the diagonal hold the bottom element
    is the largest entry among the rows `t ≥ s`: carried by the universal property of the maximum. -/
theorem fold_max_masked (g : Fin 2048 → ℝ) (s : Fin 2048) :
    (Finset.univ : Finset (Fin 2048)).fold max (⊥ : EReal)
        (fun k => if s.val ≤ k.val then ((g k : ℝ) : EReal) else ⊥)
      = (((Finset.univ.filter (fun t : Fin 2048 => s ≤ t)).sup' ⟨s, by simp⟩ g : ℝ) : EReal) := by
  apply le_antisymm
  · rw [Finset.fold_max_le]
    refine ⟨bot_le, fun k _ => ?_⟩
    by_cases h : s.val ≤ k.val
    · rw [if_pos h, EReal.coe_le_coe_iff]
      exact Finset.le_sup' g (Finset.mem_filter.2 ⟨Finset.mem_univ k, Fin.le_def.2 h⟩)
    · rw [if_neg h]; exact bot_le
  · rw [Finset.le_fold_max]
    right
    obtain ⟨k, hk, e⟩ := Finset.exists_mem_eq_sup' (s := Finset.univ.filter (fun t : Fin 2048 => s ≤ t)) ⟨s, by simp⟩ g
    refine ⟨k, Finset.mem_univ k, ?_⟩
    have hsk : s.val ≤ k.val := Fin.le_def.1 (Finset.mem_filter.1 hk).2
    rw [if_pos hsk, e]

variable (xr : Act) (wr : Fin 1024 → Fin 1024 → ℝ) (br : Fin 1024 → ℝ)

theorem reduces_d1 : S8x2048x2048.Reduces [1] S8x2048 := by decide

/-- The column index `(b, s)` with the row `k` put back is `(b, k, s)`. -/
theorem lift_d1 (j : S8x2048.Idx) (k : Fin 2048) :
    reduces_d1.lift j k = ValueIdx.ix3 (j 0) k (j 1) := by
  funext c; apply Fin.ext
  match c with
  | ⟨0, _⟩ => rfl
  | ⟨1, _⟩ => rfl
  | ⟨2, _⟩ => rfl

/-- The column maximum at `(b, s)` is `colMax`. -/
theorem v13_apply (j : S8x2048.Idx) :
    val_main_v13 (F := Ideal) (X xr) (Wm wr) (Bv br) j = ((colMax (xp xr wr br) (j 0) (j 1) : ℝ) : EReal) := by
  unfold val_main_v13
  rw [Host.reduce_eq_fold_single FloatOps.maximumf _ _ reducesTo_S8x2048x2048_S8x2048_d1 reduces_d1 h_S_ j,
    val_main_cst_1_apply, Ideal.ofBits_def, Cert.RefConsts.ofBits_neg_inf]
  have hf : (val_main_v12 (F := Ideal) (X xr) (Wm wr) (Bv br) ∘ reduces_d1.lift j)
      = fun k : Fin 2048 => if (j 1).val ≤ k.val then ((sc (xp xr wr br) (j 0) k (j 1) : ℝ) : EReal) else ⊥ :=
    funext fun k => (congrArg (val_main_v12 (F := Ideal) (X xr) (Wm wr) (Bv br)) (lift_d1 j k)).trans
      (v12_apply xr wr br (ValueIdx.ix3 (j 0) k (j 1)))
  rw [hf]
  exact fold_max_masked (fun k => sc (xp xr wr br) (j 0) k (j 1)) (j 1)

/-- The constant the maximum is taken against once more is the bottom element, so the maximum stays. -/
theorem v15_apply (j : S8x2048.Idx) :
    val_main_v15 (F := Ideal) (X xr) (Wm wr) (Bv br) j = ((colMax (xp xr wr br) (j 0) (j 1) : ℝ) : EReal) := by
  rw [val_main_v15_apply, v13_apply, val_main_v14_apply, val_main_cst_2_apply, Ideal.ofBits_def,
    Cert.RefConsts.ofBits_neg_inf, Ideal.maximumf_def]
  exact max_eq_right bot_le

/-- The column maximum copied down the rows. -/
theorem v17_apply (i : S8x2048x2048.Idx) :
    val_main_v17 (F := Ideal) (X xr) (Wm wr) (Bv br) i = ((colMax (xp xr wr br) (i 0) (i 2) : ℝ) : EReal) := by
  rw [val_main_v17_apply, val_main_v16_apply, v15_apply]
  rfl

/-- The shifted exponential: `exp (sc − colMax)` where `s ≤ t`, and `0` above the diagonal. -/
theorem v19_apply (i : S8x2048x2048.Idx) :
    val_main_v19 (F := Ideal) (X xr) (Wm wr) (Bv br) i
      = if (i 2).val ≤ (i 1).val then
          ((Real.exp (sc (xp xr wr br) (i 0) (i 1) (i 2) - colMax (xp xr wr br) (i 0) (i 2)) : ℝ) : EReal)
        else 0 := by
  rw [val_main_v19_apply, val_main_v18_apply, v12_apply, v17_apply, Ideal.hostUnary_exp_def, Ideal.subf_def]
  by_cases h : (i 2).val ≤ (i 1).val
  · rw [if_pos h, if_pos h, ← EReal.coe_sub, Ideal.exp_coe]
  · rw [if_neg h, if_neg h, EReal.bot_sub, Ideal.exp_bot]

/-- The sum of a column's shifted exponentials is `colSum`. -/
theorem v20_apply (j : S8x2048.Idx) :
    val_main_v20 (F := Ideal) (X xr) (Wm wr) (Bv br) j = ((colSum (xp xr wr br) (j 0) (j 1) : ℝ) : EReal) := by
  rw [val_main_v20_apply, val_main_cst_3_apply, Ideal.ofBits_def, Cert.RefConsts.ofBits_zero, zero_add]
  unfold colSum
  rw [Finset.sum_filter, coe_sum]
  refine Finset.sum_congr rfl fun k _ => ?_
  rw [v19_apply]
  show (if (j 1).val ≤ k.val then
      ((Real.exp (sc (xp xr wr br) (j 0) k (j 1) - colMax (xp xr wr br) (j 0) (j 1)) : ℝ) : EReal) else 0) = _
  by_cases h : (j 1).val ≤ k.val
  · rw [if_pos h]
    exact congrArg Real.toEReal (if_pos (Fin.le_def.2 h)).symm
  · rw [if_neg h]
    exact ((congrArg Real.toEReal (if_neg (fun h' => h (Fin.le_def.1 h')))).trans EReal.coe_zero).symm

/-- The column sum copied down the rows. -/
theorem v22_apply (i : S8x2048x2048.Idx) :
    val_main_v22 (F := Ideal) (X xr) (Wm wr) (Bv br) i = ((colSum (xp xr wr br) (i 0) (i 2) : ℝ) : EReal) := by
  rw [val_main_v22_apply, val_main_v21_apply, v20_apply]
  rfl

/-- A column's sum of exponentials is positive: the row `t = s` is among its terms. -/
theorem colSum_pos (p : Act) (b : Fin 8) (s : Fin 2048) : 0 < colSum p b s := by
  unfold colSum
  exact Finset.sum_pos (fun t _ => Real.exp_pos _) ⟨s, by simp⟩

/-- The normalised weight: `exp (sc − colMax) / colSum` where `s ≤ t`, and `0` above the diagonal. -/
theorem v23_apply (i : S8x2048x2048.Idx) :
    val_main_v23 (F := Ideal) (X xr) (Wm wr) (Bv br) i
      = (((if (i 2).val ≤ (i 1).val then
            Real.exp (sc (xp xr wr br) (i 0) (i 1) (i 2) - colMax (xp xr wr br) (i 0) (i 2))
              / colSum (xp xr wr br) (i 0) (i 2)
          else 0 : ℝ)) : EReal) := by
  rw [val_main_v23_apply, v19_apply, v22_apply, Ideal.hostDivf_def,
    Ideal.div_coe (ne_of_gt (colSum_pos (xp xr wr br) (i 0) (i 2)))]
  by_cases h : (i 2).val ≤ (i 1).val
  · rw [if_pos h, if_pos h, ← EReal.coe_mul, mul_one_div]
  · rw [if_neg h, if_neg h, zero_mul, EReal.coe_zero]

/-- The result at an index is `refOut`. -/
theorem v24_apply (i : S8x2048x1024.Idx) :
    val_main_v24 (F := Ideal) (X xr) (Wm wr) (Bv br) i
      = ((refOut (xp xr wr br) xr (i 0) (i 1) (i 2) : ℝ) : EReal) := by
  rw [val_main_v24_apply]
  unfold refOut
  rw [coe_sum]
  refine Finset.sum_congr rfl fun k _ => ?_
  rw [v23_apply, EReal.coe_mul]
  rfl

end Cert.RefValue

end
-- ==== Proof.Ref.lean ====
import proofs.«407224_j18210661335624_3_alg».proof.Proof.Ref2

/-!
  The reference's result on arguments that hold real numbers is the array holding `refOut` of the projection.
-/

noncomputable section

namespace Cert.RefValue

open Cert.ReferenceIdeal Cert.ReferenceIdeal.Gen Idealize.ShloMosaic Cert.Spec

/-- The reference's result, as a function of its three arguments, holds `refOut (xp x w bias) x`. -/
theorem ref_eq (xr : Cert.Spec.Act) (wr : Fin 1024 → Fin 1024 → ℝ) (br : Fin 1024 → ℝ) :
    Cert.ReferenceIdeal.Read.val_main_v24 (F := Ideal) (Cert.Spec.emb3 xr) (Cert.Spec.emb2 wr) (Cert.Spec.emb1 br)
      = Cert.Spec.emb3 (Cert.Spec.refOut (Cert.Spec.xp xr wr br) xr) := by
  funext i
  exact v24_apply xr wr br i

end Cert.RefValue

end
-- ==== Proof.Math.lean ====
import proofs.«407224_j18210661335624_3_alg».proof.Proof.Spec
import Mathlib.Analysis.SpecialFunctions.Log.Basic
import Mathlib.Analysis.SpecialFunctions.Exp
import Mathlib.Algebra.BigOperators.Group.Finset.Basic
import Mathlib.Data.Finset.Lattice.Fold

/-!
  The real-number mathematics of the claim.

  * Shifting a sum of exponentials: `exp (m − m') · Σ exp (f i − m) = Σ exp (f i − m')`, the step by
    which a running sum of shifted exponentials is carried from one shift to another, and its
    consequence for two disjoint blocks (`online_step`).
  * The logarithm of a sum of exponentials through any shift `M`:
    `M + log Σ exp (f i − M) = log Σ exp (f i)`; in particular through the maximum.
  * Hence the column normaliser is the column's maximum plus the logarithm of the shifted sum
    (`lse_eq`), `exp (c − lse) = exp (c − colMax) / colSum` (`exp_sub_lse`), and the two forms of the
    result are one function (`out_eq_refOut`).
-/

noncomputable section

namespace Cert.Math

open Cert.Spec

/-! ## Sums of shifted exponentials -/

/-- Changing the shift of a sum of exponentials from `m` to `m'` multiplies it by `exp (m − m')`. -/
theorem exp_sub_mul_sum_exp_sub {ι : Type*} (s : Finset ι) (m m' : ℝ) (f : ι → ℝ) :
    Real.exp (m - m') * ∑ i ∈ s, Real.exp (f i - m) = ∑ i ∈ s, Real.exp (f i - m') := by
  rw [Finset.mul_sum]
  refine Finset.sum_congr rfl fun i _ => ?_
  rw [← Real.exp_add]
  congr 1
  ring

/-- The same over a whole finite type. -/
theorem exp_sub_mul_sum_exp_sub_univ {ι : Type*} [Fintype ι] (m m' : ℝ) (f : ι → ℝ) :
    Real.exp (m - m') * ∑ i, Real.exp (f i - m) = ∑ i, Real.exp (f i - m') :=
  exp_sub_mul_sum_exp_sub Finset.univ m m' f

/-- A sum of exponentials is `exp M` times the sum shifted by `M`. -/
theorem sum_exp_eq_exp_mul {ι : Type*} (s : Finset ι) (M : ℝ) (f : ι → ℝ) :
    ∑ i ∈ s, Real.exp (f i) = Real.exp M * ∑ i ∈ s, Real.exp (f i - M) := by
  rw [Finset.mul_sum]
  refine Finset.sum_congr rfl fun i _ => ?_
  rw [← Real.exp_add]
  congr 1
  ring

/-- A sum of exponentials over a non-empty set is positive. -/
theorem sum_exp_pos {ι : Type*} (s : Finset ι) (hs : s.Nonempty) (g : ι → ℝ) :
    0 < ∑ i ∈ s, Real.exp (g i) :=
  Finset.sum_pos (fun i _ => Real.exp_pos _) hs

/-- One step of the running statistics: the sum over a block `A`, carried at the shift `m`, joined with a disjoint
    block `B` at the new shift `m'`, is the sum over `A ∪ B` at `m'`. -/
theorem online_step {ι : Type*} [DecidableEq ι] (A B : Finset ι) (hAB : Disjoint A B) (m m' : ℝ) (f : ι → ℝ) :
    Real.exp (m - m') * (∑ i ∈ A, Real.exp (f i - m)) + ∑ i ∈ B, Real.exp (f i - m')
      = ∑ i ∈ A ∪ B, Real.exp (f i - m') := by
  rw [exp_sub_mul_sum_exp_sub, Finset.sum_union hAB]

/-- Any shift `M`: `M + log Σ exp (f i − M) = log Σ exp (f i)`, the set non-empty. -/
theorem add_log_sum_exp_sub {ι : Type*} (s : Finset ι) (hs : s.Nonempty) (M : ℝ) (f : ι → ℝ) :
    M + Real.log (∑ i ∈ s, Real.exp (f i - M)) = Real.log (∑ i ∈ s, Real.exp (f i)) := by
  rw [sum_exp_eq_exp_mul s M f, Real.log_mul (Real.exp_ne_zero M) (sum_exp_pos s hs _).ne', Real.log_exp]

/-- The shift by the maximum: `sup' f + log Σ exp (f i − sup' f) = log Σ exp (f i)`. -/
theorem sup'_add_log_sum_exp_sub {ι : Type*} (s : Finset ι) (hs : s.Nonempty) (f : ι → ℝ) :
    s.sup' hs f + Real.log (∑ i ∈ s, Real.exp (f i - s.sup' hs f)) = Real.log (∑ i ∈ s, Real.exp (f i)) :=
  add_log_sum_exp_sub s hs _ f

/-- The same over a whole non-empty finite type. -/
theorem sup'_add_log_sum_exp_sub_univ {ι : Type*} [Fintype ι] [Nonempty ι] (f : ι → ℝ) :
    Finset.univ.sup' Finset.univ_nonempty f + Real.log (∑ i, Real.exp (f i - Finset.univ.sup' Finset.univ_nonempty f))
      = Real.log (∑ i, Real.exp (f i)) :=
  add_log_sum_exp_sub Finset.univ Finset.univ_nonempty _ f

/-! ## The column normaliser -/

/-- The rows `t ≥ s` of a column: a non-empty set (it holds `s`). -/
theorem rows_nonempty (s : Fin 2048) : (Finset.univ.filter (fun t : Fin 2048 => s ≤ t)).Nonempty :=
  ⟨s, by simp⟩

/-- The column's sum of shifted exponentials is positive. -/
theorem colSum_pos (p : Act) (b : Fin 8) (s : Fin 2048) : 0 < colSum p b s :=
  sum_exp_pos _ (rows_nonempty s) _

/-- The column's sum of shifted exponentials is at least `1`: the row of the maximum contributes `exp 0`. -/
theorem one_le_colSum (p : Act) (b : Fin 8) (s : Fin 2048) : 1 ≤ colSum p b s := by
  obtain ⟨t₀, ht₀, hmax⟩ := Finset.exists_mem_eq_sup' (rows_nonempty s) (fun t => sc p b t s)
  unfold colSum
  have h1 : Real.exp (sc p b t₀ s - colMax p b s) = 1 := by
    have : colMax p b s = sc p b t₀ s := hmax
    rw [this, sub_self, Real.exp_zero]
  rw [← h1]
  exact Finset.single_le_sum (f := fun t => Real.exp (sc p b t s - colMax p b s))
    (fun i _ => (Real.exp_pos _).le) ht₀

/-- The column normaliser is the column's maximum plus the logarithm of the shifted sum. -/
theorem lse_eq (p : Act) (b : Fin 8) (s : Fin 2048) :
    lse p b s = colMax p b s + Real.log (colSum p b s) := by
  unfold lse colSum
  exact (add_log_sum_exp_sub _ (rows_nonempty s) _ _).symm

/-- The column normaliser through ANY shift `M` and the sum shifted by it. -/
theorem lse_eq_of_shift (p : Act) (b : Fin 8) (s : Fin 2048) (M : ℝ) :
    lse p b s
      = M + Real.log (∑ t ∈ Finset.univ.filter (fun t : Fin 2048 => s ≤ t), Real.exp (sc p b t s - M)) := by
  unfold lse
  exact (add_log_sum_exp_sub _ (rows_nonempty s) _ _).symm

/-- A weight normalised by `lse` is the shifted exponential over the shifted sum. -/
theorem exp_sub_lse (p : Act) (b : Fin 8) (t s : Fin 2048) :
    Real.exp (sc p b t s - lse p b s) = Real.exp (sc p b t s - colMax p b s) / colSum p b s := by
  rw [lse_eq, ← sub_sub, Real.exp_sub, Real.exp_log (colSum_pos p b s)]

/-! ## The two forms of the result -/

/-- The causal accumulation normalised by `lse` is the reference's form. -/
theorem out_eq_refOut (p x : Cert.Spec.Act) : Cert.Spec.out p x = Cert.Spec.refOut p x := by
  funext b t d
  unfold out outWith refOut
  rw [Finset.sum_filter]
  refine Finset.sum_congr rfl fun s _ => ?_
  by_cases h : s ≤ t
  · rw [if_pos h, if_pos h, exp_sub_lse]
  · rw [if_neg h, if_neg h, zero_mul]

end Cert.Math

end
-- ==== Proof.Fin.lean ====
import proofs.«407224_j18210661335624_3_alg».proof.Pre_finite_inputs
import proofs.«407224_j18210661335624_3_alg».proof.Proof.Gen.Pre_finite_inputs
import proofs.«407224_j18210661335624_3_alg».proof.Proof.Spec
import proofs.«407224_j18210661335624_3_alg».proof.Proof.LibIdealReal
import Idealize.ShloMosaic.Lib.ReduceAll
import Idealize.ShloMosaic.Lib.ValueIdx

/-!
  From the precondition to real arrays.

  The precondition states, of each of the three inputs, that every entry's absolute value is below `+∞`.
  At the ideal values an entry is an extended real, its absolute value is `max x (-x)`, and that is below
  `⊤` exactly when `x` is neither `⊤` nor `⊥`, that is, when `x` is a real number. So the three inputs are
  the arrays of extended reals that hold three arrays of reals.
-/

noncomputable section

namespace Cert.Fin

open Idealize.ShloMosaic Idealize.ShloMosaic.ValueIdx

/-- The scalar shape has one index. -/
instance : Subsingleton Cert.Pre_finite_inputs.S_.Idx := ⟨fun _ _ => funext fun d => d.elim0⟩

/-- `0x7F800000`, f32's `+∞`, denotes `⊤`. -/
theorem ofBits_pos_inf : Ideal.ofBits .f32 0x7F800000#32 = ⊤ := by
  simp [Ideal.ofBits, Ideal.ieee]

/-- An extended real whose absolute value is below `⊤` is a real number. -/
theorem eq_coe_of_abs_lt_top (x : EReal) (h : max x (-x) < ⊤) : x = ((x.toReal : ℝ) : EReal) := by
  have h1 : x ≠ ⊤ := by
    rintro rfl
    simp at h
  have h2 : x ≠ ⊥ := by
    rintro rfl
    simp at h
  exact (EReal.coe_toReal h1 h2).symm

/-- A one-bit word made from a decision is `1` only when the decision holds. -/
theorem of_ofBool_decide_eq_one {P : Prop} [Decidable P] (h : BitVec.ofBool (decide P) = 1#1) : P := by
  by_cases hP : P
  · exact hP
  · rw [decide_eq_false hP] at h
    exact absurd h (by decide)

/-- The printed element test, read at an index: where `|x i| < +∞` is `1`, `x i` is a real number. -/
theorem eq_coe_of_test {s : Shape} (x : FVec Ideal s .f32)
    (hb : Cert.Pre_finite_inputs.S_.BroadcastsInDim s (![] : Fin 0 → Fin s.rank)) (i : s.Idx)
    (h : cmpf .olt (Host.absf x)
          (broadcastInDim s ![] hb (constant (F := Ideal) Cert.Pre_finite_inputs.S_ .f32 0x7F800000#32)) i = 1#1) :
    x i = (((x i : EReal).toReal : ℝ) : EReal) := by
  have h' : BitVec.ofBool (decide (max (x i : EReal) (-(x i : EReal)) < Ideal.ofBits .f32 0x7F800000#32)) = 1#1 := h
  rw [ofBits_pos_inf] at h'
  exact eq_coe_of_abs_lt_top _ (of_ofBool_decide_eq_one h')

/-- Under the precondition the three inputs hold real numbers. -/
theorem reals_of_pre [Cert.Pre_finite_inputs.Facts]
    (x0 : FVec Ideal Cert.Pre_finite_inputs.S8x2048x1024 .f32) (x1 : FVec Ideal Cert.Pre_finite_inputs.S1024x1024 .f32)
    (x2 : FVec Ideal Cert.Pre_finite_inputs.S1024 .f32)
    (h : Cert.Pre_finite_inputs.fn (F := Ideal) x0 x1 x2 = fun _ => 1#1) :
    ∃ (xr : Cert.Spec.Act) (wr : Fin 1024 → Fin 1024 → ℝ) (br : Fin 1024 → ℝ),
      x0 = Cert.Spec.emb3 xr ∧ x1 = Cert.Spec.emb2 wr ∧ x2 = Cert.Spec.emb1 br := by
  have h0 := congrFun h ix0
  dsimp only [Cert.Pre_finite_inputs.fn] at h0
  obtain ⟨h01, h2⟩ := IntOp.andi_eq_one.1 h0
  obtain ⟨h0', h1⟩ := IntOp.andi_eq_one.1 h01
  have e0 := Host.reduce_andi_all _ _ _ _ _ h0'
  have e1 := Host.reduce_andi_all _ _ _ _ _ h1
  have e2 := Host.reduce_andi_all _ _ _ _ _ h2
  refine ⟨fun b t d => (x0 (ix3 b t d) : EReal).toReal, fun a b => (x1 (ix2 a b) : EReal).toReal,
    fun a => (x2 (ix1 a) : EReal).toReal, ?_, ?_, ?_⟩
  · funext i
    rw [eq_ix3 i]
    exact eq_coe_of_test x0 _ _ (e0 _)
  · funext i
    rw [eq_ix2 i]
    exact eq_coe_of_test x1 _ _ (e1 _)
  · funext i
    rw [eq_ix1 i]
    exact eq_coe_of_test x2 _ _ (e2 _)

end Cert.Fin

end
-- ==== Proof.lean ====
/-
  The certificate of the causal column-softmax attention kernel against its reference.

  The kernel computes, in three calls, the projection `xp = x·w + bias`, for every key position `s` the
  normaliser `lse s = log Σ_{t ≥ s} exp (sc t s)` of its column of scaled correlations (accumulated block by
  block with a running maximum), and `out t = Σ_{s ≤ t} exp (sc t s − lse s) · x s`.  The reference normalises
  each column of the masked correlation matrix through its maximum and divides by the sum of the shifted
  exponentials.  Over the reals these are one function: `exp (c − log Σ exp c') = exp (c − M) / Σ exp (c' − M)`.
  The masked entries are −∞ on both sides (the kernel's finite stand-in is named −∞ at the ideal instance), so
  their exponentials are zero and they drop out of every sum; finiteness of the inputs makes every other
  quantity a real number.

  The three frames: the launch of the three calls terminates and leaves the argument arrays alone at any float
  family, so at the word level and at the ideal instance alike; the reference is a host program, whose
  operations run in order and write only their own results.
-/
import proofs.«407224_j18210661335624_3_alg».proof.Defs
import proofs.«407224_j18210661335624_3_alg».proof.Proof.Gen.Kernel
import proofs.«407224_j18210661335624_3_alg».proof.Proof.Gen.KernelIdeal
import proofs.«407224_j18210661335624_3_alg».proof.Proof.Gen.ReferenceIdeal
import proofs.«407224_j18210661335624_3_alg».proof.Proof.Gen.Pre_finite_inputs
import proofs.«407224_j18210661335624_3_alg».proof.Proof.K.Run
import proofs.«407224_j18210661335624_3_alg».proof.Proof.KI.Run
import proofs.«407224_j18210661335624_3_alg».proof.Proof.Val.Final
import proofs.«407224_j18210661335624_3_alg».proof.Proof.Ref
import proofs.«407224_j18210661335624_3_alg».proof.Proof.Math
import proofs.«407224_j18210661335624_3_alg».proof.Proof.Fin

noncomputable section

namespace Cert.Proof

open Idealize.ShloMosaic Idealize.ShloMosaic.TcCoe Idealize.SL.Sem Cert.Spec

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two ledger entries: the kernel's finite stand-in for −∞ is named −∞ at the ideal instance. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end with `out (xp x w bias) x` in their result array, for the real arrays the finite inputs hold. -/
theorem algebraic : Cert.algebraic_KernelIdeal_ReferenceIdeal := by
  intro m ρ m' ρ' hpre hagree
  choose xr wr br hx hw hb using fun c : Dev Cert.KernelIdeal.nD => Cert.Fin.reals_of_pre _ _ _ (hpre c)
  refine ⟨fun c => emb3 (out (xp (xr c) (wr c) (br c)) (xr c)), ?_, ?_⟩
  · refine (θ_run Cert.KernelIdeal.defs _ _).mono (fun _ h c => ⟨?_, ?_, ?_, ?_⟩) (Cert.KernelIdeal.Hand.run (F := Ideal) m ρ)
    · exact (h c _ (Cert.KernelIdeal.Hand.mem_uc Cert.KernelIdeal.main_v4 (by decide))).trans
        (Cert.KernelIdeal.Val.W4_main_v4 m ρ c (xr c) (wr c) (br c) (hx c) (hw c) (hb c))
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v24_eq, (hagree c).1, (hagree c).2.1, (hagree c).2.2, hx c, hw c, hb c,
      Cert.RefValue.ref_eq, ← Cert.Math.out_eq_refOut]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
